-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S100000x5 : Shape := ⟨2, ![100000, 5]⟩
abbrev S4000000x10 : Shape := ⟨2, ![4000000, 10]⟩
abbrev S64x10 : Shape := ⟨2, ![64, 10]⟩
abbrev S2x4000000 : Shape := ⟨2, ![2, 4000000]⟩
abbrev S100000 : Shape := ⟨1, ![100000]⟩
abbrev S15x15 : Shape := ⟨2, ![15, 15]⟩
abbrev S15 : Shape := ⟨1, ![15]⟩
abbrev S81x10 : Shape := ⟨2, ![81, 10]⟩
abbrev S10 : Shape := ⟨1, ![10]⟩
abbrev S10x10 : Shape := ⟨2, ![10, 10]⟩
abbrev S_ : Shape := ⟨0, ![]⟩
abbrev S1x4000000 : Shape := ⟨2, ![1, 4000000]⟩
abbrev S4000000 : Shape := ⟨1, ![4000000]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S4000000x10 : S_.BroadcastsInDim S4000000x10 (![] : Fin 0 → Fin S4000000x10.rank)
  reducesTo_S4000000x10_S_d0_1 : S4000000x10.ReducesTo [0, 1] S_
  bcast_S_S64x10 : S_.BroadcastsInDim S64x10 (![] : Fin 0 → Fin S64x10.rank)
  reducesTo_S64x10_S_d0_1 : S64x10.ReducesTo [0, 1] S_
  bcast_S_S15x15 : S_.BroadcastsInDim S15x15 (![] : Fin 0 → Fin S15x15.rank)
  reducesTo_S15x15_S_d0_1 : S15x15.ReducesTo [0, 1] S_
  bcast_S_S15 : S_.BroadcastsInDim S15 (![] : Fin 0 → Fin S15.rank)
  reducesTo_S15_S_d0 : S15.ReducesTo [0] S_
  bcast_S_S81x10 : S_.BroadcastsInDim S81x10 (![] : Fin 0 → Fin S81x10.rank)
  reducesTo_S81x10_S_d0_1 : S81x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  slices_S2x4000000_S1x4000000_1_0 : S2x4000000.Slices ![1, 0] S1x4000000
  shapeCasts_S1x4000000_S4000000 : S1x4000000.ShapeCasts S4000000
  bcast_S_S4000000 : S_.BroadcastsInDim S4000000 (![] : Fin 0 → Fin S4000000.rank)
  reducesTo_S4000000_S_d0 : S4000000.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg5 : IVec S100000 32) (main_v64 : IVec S_ 1) (main_v68 : IVec S4000000 1) : IVec S_ 1 :=
  let main_c_25 : IVec S_ 1 := constantI S_ 1 1#1
  let main_v69 : IVec S_ 1 := (fun x v => Host.reduce IntOp.andi x v reducesTo_S4000000_S_d0 h_S_) main_v68 main_c_25
  let main_v70 : IVec S_ 1 := andi main_v64 main_v69
  let main_c_26 : IVec S_ 32 := constantI S_ 32 0#32
  let main_v71 : IVec S100000 32 := broadcastInDim S100000 ![] bcast_S_S100000 main_c_26
  let main_v72 : IVec S100000 1 := cmpi .sge main_arg5 main_v71
  let main_c_27 : IVec S_ 1 := constantI S_ 1 1#1
  let main_v73 : IVec S_ 1 := (fun x v => Host.reduce IntOp.andi x v reducesTo_S100000_S_d0 h_S_) main_v72 main_c_27
  let main_v74 : IVec S_ 1 := andi main_v70 main_v73
  let main_c_28 : IVec S_ 32 := constantI S_ 32 64#32
  let main_v75 : IVec S100000 32 := broadcastInDim S100000 ![] bcast_S_S100000 main_c_28
  let main_v76 : IVec S100000 1 := cmpi .slt main_arg5 main_v75
  let main_c_29 : IVec S_ 1 := constantI S_ 1 1#1
  let main_v77 : IVec S_ 1 := (fun x v => Host.reduce IntOp.andi x v reducesTo_S100000_S_d0 h_S_) main_v76 main_c_29
  let main_v78 : IVec S_ 1 := andi main_v74 main_v77
  main_v78

def fn_part3 {F : FTy → Type} [FloatOps F] (main_arg4 : IVec S2x4000000 32) (main_arg5 : IVec S100000 32) (main_arg13 : FVec F S10 .f32) (main_v48 : IVec S_ 1) (main_v49 : FVec F S10x10 .f32) (main_v50 : FVec F S10x10 .f32) : IVec S_ 1 :=
  let main_v51 : IVec S10x10 1 := cmpf .olt main_v49 main_v50
  let main_c_19 : IVec S_ 1 := constantI S_ 1 1#1
  let main_v52 : IVec S_ 1 := (fun x v => Host.reduce IntOp.andi x v reducesTo_S10x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S1x4000000 32 := (extractStridedSlice S1x4000000 ![1, 0] · slices_S2x4000000_S1x4000000_1_0) main_arg4
  let main_v60 : IVec S4000000 32 := shapeCast S4000000 main_v59 shapeCasts_S1x4000000_S4000000
  let main_c_22 : IVec S_ 32 := constantI S_ 32 0#32
  let main_v61 : IVec S4000000 32 := broadcastInDim S4000000 ![] bcast_S_S4000000 main_c_22
  let main_v62 : IVec S4000000 1 := cmpi .sge main_v60 main_v61
  let main_c_23 : IVec S_ 1 := constantI S_ 1 1#1
  let main_v63 : IVec S_ 1 := (fun x v => Host.reduce IntOp.andi x v reducesTo_S4000000_S_d0 h_S_) main_v62 main_c_23
  let main_v64 : IVec S_ 1 := andi main_v58 main_v63
  let main_v65 : IVec S1x4000000 32 := (extractStridedSlice S1x4000000 ![1, 0] · slices_S2x4000000_S1x4000000_1_0) main_arg4
  let main_v66 : IVec S4000000 32 := shapeCast S4000000 main_v65 shapeCasts_S1x4000000_S4000000
  let main_c_24 : IVec S_ 32 := constantI S_ 32 100000#32
  let main_v67 : IVec S4000000 32 := broadcastInDim S4000000 ![] bcast_S_S4000000 main_c_24
  let main_v68 : IVec S4000000 1 := cmpi .slt main_v66 main_v67
  fn_part4 (F := F) main_arg5 main_v64 main_v68

def fn_part2 {F : FTy → Type} [FloatOps F] (main_arg4 : IVec S2x4000000 32) (main_arg5 : IVec S100000 32) (main_arg9 : FVec F S15 .f32) (main_arg10 : FVec F S81x10 .f32) (main_arg11 : FVec F S10 .f32) (main_arg12 : FVec F S10x10 .f32) (main_arg13 : FVec F S10 .f32) (main_v33 : IVec S_ 1) : IVec S_ 1 :=
  let main_v34 : FVec F S15 .f32 := Host.absf main_arg9
  let main_cst_12 : FVec F S_ .f32 := constant S_ .f32 0x7F800000#32
  let main_v35 : FVec F S15 .f32 := broadcastInDim S15 ![] bcast_S_S15 main_cst_12
  let main_v36 : IVec S15 1 := cmpf .olt main_v34 main_v35
  let main_c_13 : IVec S_ 1 := constantI S_ 1 1#1
  let main_v37 : IVec S_ 1 := (fun x v => Host.reduce IntOp.andi x v reducesTo_S15_S_d0 h_S_) main_v36 main_c_13
  let main_v38 : IVec S_ 1 := andi main_v33 main_v37
  let main_v39 : FVec F S81x10 .f32 := Host.absf main_arg10
  let main_cst_14 : FVec F S_ .f32 := constant S_ .f32 0x7F800000#32
  let main_v40 : FVec F S81x10 .f32 := broadcastInDim S81x10 ![] bcast_S_S81x10 main_cst_14
  let main_v41 : IVec S81x10 1 := cmpf .olt main_v39 main_v40
  let main_c_15 : IVec S_ 1 := constantI S_ 1 1#1
  let main_v42 : IVec S_ 1 := (fun x v => Host.reduce IntOp.andi x v reducesTo_S81x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x10 .f32 := Host.absf main_arg12
  let main_cst_18 : FVec F S_ .f32 := constant S_ .f32 0x7F800000#32
  let main_v50 : FVec F S10x10 .f32 := broadcastInDim S10x10 ![] bcast_S_S10x10 main_cst_18
  fn_part3 (F := F) main_arg4 main_arg5 main_arg13 main_v48 main_v49 main_v50

def fn_part1 {F : FTy → Type} [FloatOps F] (main_arg4 : IVec S2x4000000 32) (main_arg5 : IVec S100000 32) (main_arg6 : FVec F S15x15 .f32) (main_arg7 : FVec F S15 .f32) (main_arg8 : FVec F S15x15 .f32) (main_arg9 : FVec F S15 .f32) (main_arg10 : FVec F S81x10 .f32) (main_arg11 : FVec F S10 .f32) (main_arg12 : FVec F S10x10 .f32) (main_arg13 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S15x15 .f32 := Host.absf main_arg6
  let main_cst_6 : FVec F S_ .f32 := constant S_ .f32 0x7F800000#32
  let main_v20 : FVec F S15x15 .f32 := broadcastInDim S15x15 ![] bcast_S_S15x15 main_cst_6
  let main_v21 : IVec S15x15 1 := cmpf .olt main_v19 main_v20
  let main_c_7 : IVec S_ 1 := constantI S_ 1 1#1
  let main_v22 : IVec S_ 1 := (fun x v => Host.reduce IntOp.andi x v reducesTo_S15x15_S_d0_1 h_S_) main_v21 main_c_7
  let main_v23 : IVec S_ 1 := andi main_v18 main_v22
  let main_v24 : FVec F S15 .f32 := Host.absf main_arg7
  let main_cst_8 : FVec F S_ .f32 := constant S_ .f32 0x7F800000#32
  let main_v25 : FVec F S15 .f32 := broadcastInDim S15 ![] bcast_S_S15 main_cst_8
  let main_v26 : IVec S15 1 := cmpf .olt main_v24 main_v25
  let main_c_9 : IVec S_ 1 := constantI S_ 1 1#1
  let main_v27 : IVec S_ 1 := (fun x v => Host.reduce IntOp.andi x v reducesTo_S15_S_d0 h_S_) main_v26 main_c_9
  let main_v28 : IVec S_ 1 := andi main_v23 main_v27
  let main_v29 : FVec F S15x15 .f32 := Host.absf main_arg8
  let main_cst_10 : FVec F S_ .f32 := constant S_ .f32 0x7F800000#32
  let main_v30 : FVec F S15x15 .f32 := broadcastInDim S15x15 ![] bcast_S_S15x15 main_cst_10
  let main_v31 : IVec S15x15 1 := cmpf .olt main_v29 main_v30
  let main_c_11 : IVec S_ 1 := constantI S_ 1 1#1
  let main_v32 : IVec S_ 1 := (fun x v => Host.reduce IntOp.andi x v reducesTo_S15x15_S_d0_1 h_S_) main_v31 main_c_11
  let main_v33 : IVec S_ 1 := andi main_v28 main_v32
  fn_part2 (F := F) main_arg4 main_arg5 main_arg9 main_arg10 main_arg11 main_arg12 main_arg13 main_v33

def fn {F : FTy → Type} [FloatOps F] (main_arg0 : FVec F S100000x10 .f32) (main_arg1 : FVec F S100000x5 .f32) (main_arg2 : FVec F S4000000x10 .f32) (main_arg3 : FVec F S64x10 .f32) (main_arg4 : IVec S2x4000000 32) (main_arg5 : IVec S100000 32) (main_arg6 : FVec F S15x15 .f32) (main_arg7 : FVec F S15 .f32) (main_arg8 : FVec F S15x15 .f32) (main_arg9 : FVec F S15 .f32) (main_arg10 : FVec F S81x10 .f32) (main_arg11 : FVec F S10 .f32) (main_arg12 : FVec F S10x10 .f32) (main_arg13 : FVec F S10 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S4000000x10 .f32 := Host.absf main_arg2
  let main_cst_2 : FVec F S_ .f32 := constant S_ .f32 0x7F800000#32
  let main_v10 : FVec F S4000000x10 .f32 := broadcastInDim S4000000x10 ![] bcast_S_S4000000x10 main_cst_2
  let main_v11 : IVec S4000000x10 1 := cmpf .olt main_v9 main_v10
  let main_c_3 : IVec S_ 1 := constantI S_ 1 1#1
  let main_v12 : IVec S_ 1 := (fun x v => Host.reduce IntOp.andi x v reducesTo_S4000000x10_S_d0_1 h_S_) main_v11 main_c_3
  let main_v13 : IVec S_ 1 := andi main_v8 main_v12
  let main_v14 : FVec F S64x10 .f32 := Host.absf main_arg3
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x10 : Shape := ⟨2, ![100000, 10]⟩
abbrev S100000x5 : Shape := ⟨2, ![100000, 5]⟩
abbrev S4000000x10 : Shape := ⟨2, ![4000000, 10]⟩
abbrev S64x10 : Shape := ⟨2, ![64, 10]⟩
abbrev S2x4000000 : Shape := ⟨2, ![2, 4000000]⟩
abbrev S100000 : Shape := ⟨1, ![100000]⟩
abbrev S15x15 : Shape := ⟨2, ![15, 15]⟩
abbrev S15 : Shape := ⟨1, ![15]⟩
abbrev S81x10 : Shape := ⟨2, ![81, 10]⟩
abbrev S10 : Shape := ⟨1, ![10]⟩
abbrev S10x10 : Shape := ⟨2, ![10, 10]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S1 : Shape := ⟨1, ![1]⟩
abbrev S1x1 : Shape := ⟨2, ![1, 1]⟩
abbrev S4000000x5 : Shape := ⟨2, ![4000000, 5]⟩
abbrev S4000000x61 : Shape := ⟨2, ![4000000, 61]⟩
abbrev S5000x5 : Shape := ⟨2, ![5000, 5]⟩
abbrev S5000x10 : Shape := ⟨2, ![5000, 10]⟩
abbrev S5000x61 : Shape := ⟨2, ![5000, 61]⟩
abbrev S5000x15 : Shape := ⟨2, ![5000, 15]⟩
abbrev S1x15 : Shape := ⟨2, ![1, 15]⟩
abbrev S5000x1 : Shape := ⟨2, ![5000, 1]⟩
abbrev S100000x61 : Shape := ⟨2, ![100000, 61]⟩
abbrev S100000x15 : Shape := ⟨2, ![100000, 15]⟩
abbrev S100000x1 : Shape := ⟨2, ![100000, 1]⟩
abbrev S4000x10 : Shape := ⟨2, ![4000, 10]⟩
abbrev S4000x1 : Shape := ⟨2, ![4000, 1]⟩
abbrev S4000x15 : Shape := ⟨2, ![4000, 15]⟩
abbrev S4000x81 : Shape := ⟨2, ![4000, 81]⟩
abbrev S1x10 : Shape := ⟨2, ![1, 10]⟩

abbrev nBuf : Space → Nat
  | .hbm => 137
  | .vmem => 30
  | .smem => 0
  | _ => 0

abbrev hbmTy0_0 (i : Nat) : BufTy := match i % 128 with
  | 0 => ⟨S100000x10, .f32⟩
  | 1 => ⟨S100000x5, .f32⟩
  | 2 => ⟨S4000000x10, .f32⟩
  | 3 => ⟨S64x10, .f32⟩
  | 4 => ⟨S2x4000000, .i32⟩
  | 5 => ⟨S100000, .i32⟩
  | 6 => ⟨S15x15, .f32⟩
  | 7 => ⟨S15, .f32⟩
  | 8 => ⟨S15x15, .f32⟩
  | 9 => ⟨S15, .f32⟩
  | 10 => ⟨S81x10, .f32⟩
  | 11 => ⟨S10, .f32⟩
  | 12 => ⟨S10x10, .f32⟩
  | 13 => ⟨S10, .f32⟩
  | 14 => ⟨S1x4000000, .i32⟩
  | 15 => ⟨S4000000, .i32⟩
  | 16 => ⟨S1x4000000, .i32⟩
  | 17 => ⟨S4000000, .i32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S1, .i32⟩
  | 27 => ⟨S_, .i32⟩
  | 28 => ⟨S4000000x1, .i32⟩
  | 29 => ⟨S4000000x1, .i1⟩
  | 30 => ⟨S1x1, .i32⟩
  | 31 => ⟨S4000000x1, .i32⟩
  | 32 => ⟨S4000000x1, .i1⟩
  | 33 => ⟨S4000000x1, .i1⟩
  | 34 => ⟨S_, .i1⟩
  | 35 => ⟨S4000000, .i1⟩
  | 36 => ⟨S4000000x5, .f32⟩
  | 37 => ⟨S4000000x5, .i1⟩
  | 38 => ⟨S_, .f32⟩
  | 39 => ⟨S4000000x5, .f32⟩
  | 40 => ⟨S4000000x5, .f32⟩
  | 41 => ⟨S15x15, .bf16⟩
  | 42 => ⟨S15x15, .bf16⟩
  | 43 => ⟨S81x10, .bf16⟩
  | 44 => ⟨S10x10, .bf16⟩
  | 45 => ⟨S4000000x61, .f32⟩
  | 46 => ⟨S_, .f32⟩
  | 47 => ⟨S100000x61, .f32⟩
  | 48 => ⟨S4000000x1, .i32⟩
  | 49 => ⟨S100000x61, .f32⟩
  | 50 => ⟨S100000x15, .f32⟩
  | 51 => ⟨S100000x15, .f32⟩
  | 52 => ⟨S100000x15, .f32⟩
  | 53 => ⟨S100000x15, .f32⟩
  | 54 => ⟨S100000x1, .f32⟩
  | 55 => ⟨S_, .f32⟩
  | 56 => ⟨S100000x1, .f32⟩
  | 57 => ⟨S100000x1, .f32⟩
  | 58 => ⟨S100000x15, .f32⟩
  | 59 => ⟨S100000x15, .f32⟩
  | 60 => ⟨S100000x15, .f32⟩
  | 61 => ⟨S100000x15, .f32⟩
  | 62 => ⟨S100000x15, .f32⟩
  | 63 => ⟨S100000x15, .f32⟩
  | 64 => ⟨S_, .f32⟩
  | 65 => ⟨S100000x15, .f32⟩
  | 66 => ⟨S100000x15, .f32⟩
  | 67 => ⟨S_, .f32⟩
  | 68 => ⟨S100000x15, .f32⟩
  | 69 => ⟨S100000x15, .f32⟩
  | 70 => ⟨S100000x15, .f32⟩
  | 71 => ⟨S_, .f32⟩
  | 72 => ⟨S100000x15, .f32⟩
  | 73 => ⟨S100000x15, .f32⟩
  | 74 => ⟨S100000x15, .f32⟩
  | 75 => ⟨S100000x15, .f32⟩
  | 76 => ⟨S_, .f32⟩
  | 77 => ⟨S100000x1, .f32⟩
  | 78 => ⟨S100000x1, .f32⟩
  | 79 => ⟨S100000x15, .f32⟩
  | 80 => ⟨S100000x15, .f32⟩
  | 81 => ⟨S100000x15, .f32⟩
  | 82 => ⟨S100000x15, .f32⟩
  | 83 => ⟨S100000x15, .f32⟩
  | 84 => ⟨S_, .f32⟩
  | 85 => ⟨S100000x15, .f32⟩
  | 86 => ⟨S100000x15, .f32⟩
  | 87 => ⟨S100000x15, .f32⟩
  | 88 => ⟨S100000x15, .f32⟩
  | 89 => ⟨S100000x15, .f32⟩
  | 90 => ⟨S_, .f32⟩
  | 91 => ⟨S100000x15, .f32⟩
  | 92 => ⟨S100000x15, .f32⟩
  | 93 => ⟨S100000x15, .f32⟩
  | 94 => ⟨S100000x15, .f32⟩
  | 95 => ⟨S_, .f32⟩
  | 96 => ⟨S100000x1, .f32⟩
  | 97 => ⟨S100000x1, .f32⟩
  | 98 => ⟨S100000x15, .f32⟩
  | 99 => ⟨S100000x15, .f32⟩
  | 100 => ⟨S100000x15, .f32⟩
  | 101 => ⟨S100000x15, .f32⟩
  | 102 => ⟨S100000x15, .f32⟩
  | 103 => ⟨S100000x15, .f32⟩
  | 104 => ⟨S100000x15, .f32⟩
  | 105 => ⟨S100000x15, .f32⟩
  | 106 => ⟨S100000x15, .f32⟩
  | 107 => ⟨S100000x15, .f32⟩
  | 108 => ⟨S100000x15, .f32⟩
  | 109 => ⟨S100000x15, .f32⟩
  | 110 => ⟨S100000x15, .f32⟩
  | 111 => ⟨S100000x15, .f32⟩
  | 112 => ⟨S100000x15, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S1, .i32⟩
  | 122 => ⟨S_, .i32⟩
  | 123 => ⟨S100000x1, .i32⟩
  | 124 => ⟨S100000x1, .i1⟩
  | 125 => ⟨S1x1, .i32⟩
  | 126 => ⟨S100000x1, .i32⟩
  | 127 => ⟨S100000x1, .i1⟩
  | _ => ⟨S100000x10, .f32⟩

abbrev hbmTy0_1 (i : Nat) : BufTy := match i % 128 with
  | 0 => ⟨S100000x1, .i1⟩
  | 1 => ⟨S_, .i1⟩
  | 2 => ⟨S100000, .i1⟩
  | 3 => ⟨S100000x10, .f32⟩
  | 4 => ⟨S100000x10, .i1⟩
  | 5 => ⟨S_, .f32⟩
  | 6 => ⟨S100000x10, .f32⟩
  | 7 => ⟨S100000x10, .f32⟩
  | 8 => ⟨S100000x10, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5000x10, .f32⟩
  | .local _ .vmem, ⟨3, _⟩ => ⟨S5000x10, .f32⟩
  | .local _ .vmem, ⟨4, _⟩ => ⟨S15x15, .bf16⟩
  | .local _ .vmem, ⟨5, _⟩ => ⟨S15, .f32⟩
  | .local _ .vmem, ⟨6, _⟩ => ⟨S15x15, .bf16⟩
  | .local _ .vmem, ⟨7, _⟩ => ⟨S15, .f32⟩
  | .local _ .vmem, ⟨8, _⟩ => ⟨S5000x61, .f32⟩
  | .local _ .vmem, ⟨9, _⟩ => ⟨S5000x61, .f32⟩
  | .local _ .vmem, ⟨10, _⟩ => ⟨S4000x10, .f32⟩
  | .local _ .vmem, ⟨11, _⟩ => ⟨S4000x10, .f32⟩
  | .local _ .vmem, ⟨12, _⟩ => ⟨S4000x1, .f32⟩
  | .local _ .vmem, ⟨13, _⟩ => ⟨S4000x1, .f32⟩
  | .local _ .vmem, ⟨14, _⟩ => ⟨S4000x15, .f32⟩
  | .local _ .vmem, ⟨15, _⟩ => ⟨S4000x15, .f32⟩
  | .local _ .vmem, ⟨16, _⟩ => ⟨S4000x15, .f32⟩
  | .local _ .vmem, ⟨17, _⟩ => ⟨S4000x15, .f32⟩
  | .local _ .vmem, ⟨18, _⟩ => ⟨S4000x15, .f32⟩
  | .local _ .vmem, ⟨19, _⟩ => ⟨S4000x15, .f32⟩
  | .local _ .vmem, ⟨20, _⟩ => ⟨S4000x15, .f32⟩
  | .local _ .vmem, ⟨21, _⟩ => ⟨S4000x15, .f32⟩
  | .local _ .vmem, ⟨22, _⟩ => ⟨S4000x10, .f32⟩
  | .local _ .vmem, ⟨23, _⟩ => ⟨S4000x10, .f32⟩
  | .local _ .vmem, ⟨24, _⟩ => ⟨S81x10, .bf16⟩
  | .local _ .vmem, ⟨25, _⟩ => ⟨S10, .f32⟩
  | .local _ .vmem, ⟨26, _⟩ => ⟨S10x10, .bf16⟩
  | .local _ .vmem, ⟨27, _⟩ => ⟨S10, .f32⟩
  | .local _ .vmem, ⟨28, _⟩ => ⟨S4000x10, .f32⟩
  | .local _ .vmem, ⟨29, _⟩ => ⟨S4000x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call1_cst : Ref sig .tc := ⟨.hbm, 64, rfl⟩
abbrev main_call1_v0 : Ref sig .tc := ⟨.hbm, 65, rfl⟩
abbrev main_v26 : Ref sig .tc := ⟨.hbm, 66, rfl⟩
abbrev main_cst_1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_3 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_4 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_5 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_6 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v67 : Ref sig .tc := ⟨.hbm, 135, rfl⟩
abbrev main_v68 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x15 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x15 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x61 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x15 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x15 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x15 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x15 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S81x10 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S10x10 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x10 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x5_0 : S4000000.BroadcastsInDim S4000000x5 (![0] : Fin 1 → Fin S4000000x5.rank)
  bcast_S_S4000000x5 : S_.BroadcastsInDim S4000000x5 (![] : Fin 0 → Fin S4000000x5.rank)
  bitsLt_bf16_f32 : FTy.bits .bf16 < FTy.bits .f32
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5000x10_S5000x10_0_0 : ∀ a, (![0, 0] : Fin 2 → Nat) a + S5000x10.size a ≤ S5000x10.size a
  h_S5000x10 : 0 < S5000x10.numel
  inb_S15x15_S15x15_0_0 : ∀ a, (![0, 0] : Fin 2 → Nat) a + S15x15.size a ≤ S15x15.size a
  h_S15x15 : 0 < S15x15.numel
  shapeCasts_S15x15_S15x15 : S15x15.ShapeCasts S15x15
  inb_S15_S15_0 : ∀ a, (![0] : Fin 1 → Nat) a + S15.size a ≤ S15.size a
  h_S15 : 0 < S15.numel
  concatenates_S5000x5_S5000x10_S5000x15_d1 : Shape.Concatenates [S5000x5, S5000x10] S5000x15 1
  shapeCasts_S15_S1x15 : S15.ShapeCasts S1x15
  broadcasts_S1x15_S5000x15 : S1x15.Broadcasts S5000x15
  concatenates_S5000x15_S5000x15_S5000x15_S5000x15_S5000x1_S5000x61_d1 : Shape.Concatenates [S5000x15, S5000x15, S5000x15, S5000x15, S5000x1] S5000x61 1
  inb_S5000x61_S5000x61_0_0 : ∀ a, (![0, 0] : Fin 2 → Nat) a + S5000x61.size a ≤ S5000x61.size a
  h_S5000x61 : 0 < S5000x61.numel
  bcast_S_S100000x61 : S_.BroadcastsInDim S100000x61 (![] : Fin 0 → Fin S100000x61.rank)
  slices_S100000x61_S100000x15_0_0 : S100000x61.Slices ![0, 0] S100000x15
  slices_S100000x61_S100000x15_0_15 : S100000x61.Slices ![0, 15] S100000x15
  slices_S100000x61_S100000x15_0_30 : S100000x61.Slices ![0, 30] S100000x15
  slices_S100000x61_S100000x15_0_45 : S100000x61.Slices ![0, 45] S100000x15
  slices_S100000x61_S100000x1_0_60 : S100000x61.Slices ![0, 60] S100000x1
  bcast_S_S100000x1 : S_.BroadcastsInDim S100000x1 (![] : Fin 0 → Fin S100000x1.rank)
  bcast_S100000x1_S100000x15_0_1 : S100000x1.BroadcastsInDim S100000x15 (![0, 1] : Fin 2 → Fin S100000x15.rank)
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x10_0 : S100000.BroadcastsInDim S100000x10 (![0] : Fin 1 → Fin S100000x10.rank)
  bcast_S_S100000x10 : S_.BroadcastsInDim S100000x10 (![] : Fin 0 → Fin S100000x10.rank)
  inb_S4000x10_S4000x10_0_0 : ∀ a, (![0, 0] : Fin 2 → Nat) a + S4000x10.size a ≤ S4000x10.size a
  h_S4000x10 : 0 < S4000x10.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x15_S4000x15_0_0 : ∀ a, (![0, 0] : Fin 2 → Nat) a + S4000x15.size a ≤ S4000x15.size a
  h_S4000x15 : 0 < S4000x15.numel
  shapeCasts_S4000x15_S4000x15 : S4000x15.ShapeCasts S4000x15
  shapeCasts_S4000x10_S4000x10 : S4000x10.ShapeCasts S4000x10
  concatenates_S4000x10_S4000x1_S4000x15_S4000x15_S4000x15_S4000x15_S4000x10_S4000x81_d1 : Shape.Concatenates [S4000x10, S4000x1, S4000x15, S4000x15, S4000x15, S4000x15, S4000x10] S4000x81 1
  inb_S81x10_S81x10_0_0 : ∀ a, (![0, 0] : Fin 2 → Nat) a + S81x10.size a ≤ S81x10.size a
  h_S81x10 : 0 < S81x10.numel
  shapeCasts_S81x10_S81x10 : S81x10.ShapeCasts S81x10
  inb_S10_S10_0 : ∀ a, (![0] : Fin 1 → Nat) a + S10.size a ≤ S10.size a
  h_S10 : 0 < S10.numel
  shapeCasts_S10_S1x10 : S10.ShapeCasts S1x10
  broadcasts_S1x10_S4000x10 : S1x10.Broadcasts S4000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  gather_S100000x5_S4000000x1_S4000000x5_1_0_n_n_0_1_15_wf : GatherDims.WF S100000x5 S4000000x1 S4000000x5 [1] [0] [] [0] [] 1 ![1, 5]
  dot_S5000x15_S15x15_S5000x15_1_0_0_1_n_n_wf : DotDims.WF S5000x15 S15x15 S5000x15 [1] [0] [0] [1] [] []
  scatter_S100000x61_S4000000x1_S4000000x61_1_0_0_1_wf : ScatterDims.WF S100000x61 S4000000x1 S4000000x61 [1] [0] [0] 1
  gather_S64x10_S100000x1_S100000x10_1_0_n_n_0_1_110_wf : GatherDims.WF S64x10 S100000x1 S100000x10 [1] [0] [] [0] [] 1 ![1, 10]
  dot_S4000x81_S81x10_S4000x10_1_0_0_1_n_n_wf : DotDims.WF S4000x81 S81x10 S4000x10 [1] [0] [0] [1] [] []
  dot_S4000x10_S10x10_S4000x10_1_0_0_1_n_n_wf : DotDims.WF S4000x10 S10x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S4000000x5.size a
  hwx0_0 : ∀ i : grid0.Coords, EltTy.bits .f32 = 32 ∨ (Rect.block (s := S4000000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S4000000x10.size a
  hwx0_1 : ∀ i : grid0.Coords, EltTy.bits .f32 = 32 ∨ (Rect.block (s := S4000000x10) S5000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x15.size a ≤ S15x15.size a
  hwx0_2 : ∀ i : grid0.Coords, EltTy.bits .bf16 = 32 ∨ (Rect.block (s := S15x15) S15x15.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15.size a ≤ S15.size a
  hwx0_3 : ∀ i : grid0.Coords, EltTy.bits .f32 = 32 ∨ (Rect.block (s := S15) S15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x15.size a ≤ S15x15.size a
  hwx0_4 : ∀ i : grid0.Coords, EltTy.bits .bf16 = 32 ∨ (Rect.block (s := S15x15) S15x15.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15.size a ≤ S15.size a
  hwx0_5 : ∀ i : grid0.Coords, EltTy.bits .f32 = 32 ∨ (Rect.block (s := S15) S15.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x61.size a ≤ S4000000x61.size a
  hwx0_6 : ∀ i : grid0.Coords, EltTy.bits .f32 = 32 ∨ (Rect.block (s := S4000000x61) S5000x61.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x10.size a ≤ S100000x10.size a
  hwx1_0 : ∀ i : grid1.Coords, EltTy.bits .f32 = 32 ∨ (Rect.block (s := S100000x10) S4000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x15.size a ≤ S100000x15.size a
  hwx1_2 : ∀ i : grid1.Coords, EltTy.bits .f32 = 32 ∨ (Rect.block (s := S100000x15) S4000x15.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x15.size a ≤ S100000x15.size a
  hwx1_3 : ∀ i : grid1.Coords, EltTy.bits .f32 = 32 ∨ (Rect.block (s := S100000x15) S4000x15.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x15.size a ≤ S100000x15.size a
  hwx1_4 : ∀ i : grid1.Coords, EltTy.bits .f32 = 32 ∨ (Rect.block (s := S100000x15) S4000x15.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x15.size a ≤ S100000x15.size a
  hwx1_5 : ∀ i : grid1.Coords, EltTy.bits .f32 = 32 ∨ (Rect.block (s := S100000x15) S4000x15.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x10.size a ≤ S100000x10.size a
  hwx1_6 : ∀ i : grid1.Coords, EltTy.bits .f32 = 32 ∨ (Rect.block (s := S100000x10) S4000x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S81x10.size a ≤ S81x10.size a
  hwx1_7 : ∀ i : grid1.Coords, EltTy.bits .bf16 = 32 ∨ (Rect.block (s := S81x10) S81x10.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10.size a ≤ S10.size a
  hwx1_8 : ∀ i : grid1.Coords, EltTy.bits .f32 = 32 ∨ (Rect.block (s := S10) S10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S10x10.size a ≤ S10x10.size a
  hwx1_9 : ∀ i : grid1.Coords, EltTy.bits .bf16 = 32 ∨ (Rect.block (s := S10x10) S10x10.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S10.size a ≤ S10.size a
  hwx1_10 : ∀ i : grid1.Coords, EltTy.bits .f32 = 32 ∨ (Rect.block (s := S10) S10.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x10.size a ≤ S100000x10.size a
  hwx1_11 : ∀ i : grid1.Coords, EltTy.bits .f32 = 32 ∨ (Rect.block (s := S100000x10) S4000x10.size (cc1_transform_11 i) (hinb1_11 i)).WholeWords (EltTy.packing .f32)

variable [Facts₀]

def gather_S100000x5_S4000000x1_S4000000x5_1_0_n_n_0_1_15 : GatherDims S100000x5 S4000000x1 S4000000x5 where
  offsetDims := [1]
  collapsedSliceDims := [0]
  operandBatchingDims := []
  startIndicesBatchingDims := []
  startIndexMap := [0]
  indexVectorDim := 1
  sliceSizes := ![1, 5]
  wf := gather_S100000x5_S4000000x1_S4000000x5_1_0_n_n_0_1_15_wf
def dot_S5000x15_S15x15_S5000x15_1_0_0_1_n_n : DotDims S5000x15 S15x15 S5000x15 where
  lhsContracting := [1]
  rhsContracting := [0]
  lhsNonContracting := [0]
  rhsNonContracting := [1]
  lhsBatch := []
  rhsBatch := []
  wf := dot_S5000x15_S15x15_S5000x15_1_0_0_1_n_n_wf
def scatter_S100000x61_S4000000x1_S4000000x61_1_0_0_1 : ScatterDims S100000x61 S4000000x1 S4000000x61 where
  updateWindowDims := [1]
  insertedWindowDims := [0]
  scatterDimsToOperandDims := [0]
  indexVectorDim := 1
  wf := scatter_S100000x61_S4000000x1_S4000000x61_1_0_0_1_wf
def gather_S64x10_S100000x1_S100000x10_1_0_n_n_0_1_110 : GatherDims S64x10 S100000x1 S100000x10 where
  offsetDims := [1]
  collapsedSliceDims := [0]
  operandBatchingDims := []
  startIndicesBatchingDims := []
  startIndexMap := [0]
  indexVectorDim := 1
  sliceSizes := ![1, 10]
  wf := gather_S64x10_S100000x1_S100000x10_1_0_n_n_0_1_110_wf
def dot_S4000x81_S81x10_S4000x10_1_0_0_1_n_n : DotDims S4000x81 S81x10 S4000x10 where
  lhsContracting := [1]
  rhsContracting := [0]
  lhsNonContracting := [0]
  rhsNonContracting := [1]
  lhsBatch := []
  rhsBatch := []
  wf := dot_S4000x81_S81x10_S4000x10_1_0_0_1_n_n_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf

abbrev win0_0 : Pipeline.Window sig grid0 :=
  Pipeline.Window.ofSpec (Memref.whole main_v4) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S15x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S15x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S5000x61.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x15.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4000x15.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v61) S4000x15.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v66) S4000x15.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v67) S4000x10.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7) S81x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S10x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v68) S4000x10.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x10 : Shape := ⟨2, ![100000, 10]⟩
abbrev S100000x5 : Shape := ⟨2, ![100000, 5]⟩
abbrev S4000000x10 : Shape := ⟨2, ![4000000, 10]⟩
abbrev S64x10 : Shape := ⟨2, ![64, 10]⟩
abbrev S2x4000000 : Shape := ⟨2, ![2, 4000000]⟩
abbrev S100000 : Shape := ⟨1, ![100000]⟩
abbrev S15x15 : Shape := ⟨2, ![15, 15]⟩
abbrev S15 : Shape := ⟨1, ![15]⟩
abbrev S81x10 : Shape := ⟨2, ![81, 10]⟩
abbrev S10 : Shape := ⟨1, ![10]⟩
abbrev S10x10 : Shape := ⟨2, ![10, 10]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x5 : Shape := ⟨2, ![4000000, 5]⟩
abbrev S4000000x15 : Shape := ⟨2, ![4000000, 15]⟩
abbrev S1x15 : Shape := ⟨2, ![1, 15]⟩
abbrev S100000x1 : Shape := ⟨2, ![100000, 1]⟩
abbrev S100000x15 : Shape := ⟨2, ![100000, 15]⟩
abbrev S100000x81 : Shape := ⟨2, ![100000, 81]⟩
abbrev S1x10 : Shape := ⟨2, ![1, 10]⟩

abbrev nBuf : Space → Nat
  | .hbm => 132
  | .vmem => 0
  | .smem => 0
  | _ => 0

abbrev hbmTy0_0 (i : Nat) : BufTy := match i % 128 with
  | 0 => ⟨S100000x10, .f32⟩
  | 1 => ⟨S100000x5, .f32⟩
  | 2 => ⟨S4000000x10, .f32⟩
  | 3 => ⟨S64x10, .f32⟩
  | 4 => ⟨S2x4000000, .i32⟩
  | 5 => ⟨S100000, .i32⟩
  | 6 => ⟨S15x15, .f32⟩
  | 7 => ⟨S15, .f32⟩
  | 8 => ⟨S15x15, .f32⟩
  | 9 => ⟨S15, .f32⟩
  | 10 => ⟨S81x10, .f32⟩
  | 11 => ⟨S10, .f32⟩
  | 12 => ⟨S10x10, .f32⟩
  | 13 => ⟨S10, .f32⟩
  | 14 => ⟨S1x4000000, .i32⟩
  | 15 => ⟨S4000000, .i32⟩
  | 16 => ⟨S1x4000000, .i32⟩
  | 17 => ⟨S4000000, .i32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S4000000x5, .f32⟩
  | 27 => ⟨S4000000x15, .f32⟩
  | 28 => ⟨S4000000x15, .f32⟩
  | 29 => ⟨S1x15, .f32⟩
  | 30 => ⟨S4000000x15, .f32⟩
  | 31 => ⟨S4000000x15, .f32⟩
  | 32 => ⟨S_, .f32⟩
  | 33 => ⟨S_, .f32⟩
  | 34 => ⟨S4000000x15, .f32⟩
  | 35 => ⟨S4000000x15, .i1⟩
  | 36 => ⟨S_, .f32⟩
  | 37 => ⟨S4000000x15, .f32⟩
  | 38 => ⟨S4000000x15, .f32⟩
  | 39 => ⟨S4000000x15, .f32⟩
  | 40 => ⟨S4000000x15, .f32⟩
  | 41 => ⟨S1x15, .f32⟩
  | 42 => ⟨S4000000x15, .f32⟩
  | 43 => ⟨S4000000x15, .f32⟩
  | 44 => ⟨S_, .f32⟩
  | 45 => ⟨S4000000x1, .f32⟩
  | 46 => ⟨S_, .f32⟩
  | 47 => ⟨S100000x1, .f32⟩
  | 48 => ⟨S4000000x1, .i32⟩
  | 49 => ⟨S100000x1, .f32⟩
  | 50 => ⟨S_, .f32⟩
  | 51 => ⟨S100000x1, .f32⟩
  | 52 => ⟨S100000x1, .f32⟩
  | 53 => ⟨S_, .f32⟩
  | 54 => ⟨S100000x15, .f32⟩
  | 55 => ⟨S4000000x1, .i32⟩
  | 56 => ⟨S100000x15, .f32⟩
  | 57 => ⟨S100000x15, .f32⟩
  | 58 => ⟨S100000x15, .f32⟩
  | 59 => ⟨S4000000x15, .f32⟩
  | 60 => ⟨S_, .f32⟩
  | 61 => ⟨S100000x15, .f32⟩
  | 62 => ⟨S4000000x1, .i32⟩
  | 63 => ⟨S100000x15, .f32⟩
  | 64 => ⟨S100000x15, .f32⟩
  | 65 => ⟨S100000x15, .f32⟩
  | 66 => ⟨S100000x15, .f32⟩
  | 67 => ⟨S100000x15, .f32⟩
  | 68 => ⟨S_, .f32⟩
  | 69 => ⟨S100000x15, .f32⟩
  | 70 => ⟨S100000x15, .f32⟩
  | 71 => ⟨S_, .f32⟩
  | 72 => ⟨S100000x15, .f32⟩
  | 73 => ⟨S100000x15, .f32⟩
  | 74 => ⟨S100000x15, .f32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000x15, .f32⟩
  | 84 => ⟨S4000000x15, .f32⟩
  | 85 => ⟨S4000000x15, .f32⟩
  | 86 => ⟨S4000000x15, .f32⟩
  | 87 => ⟨S_, .f32⟩
  | 88 => ⟨S100000x15, .f32⟩
  | 89 => ⟨S4000000x1, .i32⟩
  | 90 => ⟨S100000x15, .f32⟩
  | 91 => ⟨S100000x15, .f32⟩
  | 92 => ⟨S100000x15, .f32⟩
  | 93 => ⟨S100000x15, .f32⟩
  | 94 => ⟨S100000x15, .f32⟩
  | 95 => ⟨S100000x15, .f32⟩
  | 96 => ⟨S4000000x15, .f32⟩
  | 97 => ⟨S_, .f32⟩
  | 98 => ⟨S100000x15, .f32⟩
  | 99 => ⟨S4000000x1, .i32⟩
  | 100 => ⟨S100000x15, .f32⟩
  | 101 => ⟨S100000x15, .f32⟩
  | 102 => ⟨S100000x15, .f32⟩
  | 103 => ⟨S100000x15, .f32⟩
  | 104 => ⟨S100000x15, .f32⟩
  | 105 => ⟨S100000x15, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x10, .f32⟩
  | 115 => ⟨S100000x81, .f32⟩
  | 116 => ⟨S100000x10, .f32⟩
  | 117 => ⟨S1x10, .f32⟩
  | 118 => ⟨S100000x10, .f32⟩
  | 119 => ⟨S100000x10, .f32⟩
  | 120 => ⟨S_, .f32⟩
  | 121 => ⟨S_, .f32⟩
  | 122 => ⟨S100000x10, .f32⟩
  | 123 => ⟨S100000x10, .i1⟩
  | 124 => ⟨S_, .f32⟩
  | 125 => ⟨S100000x10, .f32⟩
  | 126 => ⟨S100000x10, .f32⟩
  | 127 => ⟨S100000x10, .f32⟩
  | _ => ⟨S100000x10, .f32⟩

abbrev hbmTy0_1 (i : Nat) : BufTy := match i % 128 with
  | 0 => ⟨S100000x10, .f32⟩
  | 1 => ⟨S1x10, .f32⟩
  | 2 => ⟨S100000x10, .f32⟩
  | 3 => ⟨S100000x10, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_cst : Ref sig .tc := ⟨.hbm, 68, rfl⟩
abbrev main_call1_v0 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_11 : Ref sig .tc := ⟨.hbm, 106, rfl⟩
abbrev main_v71 : Ref sig .tc := ⟨.hbm, 107, rfl⟩
abbrev main_v72 : Ref sig .tc := ⟨.hbm, 108, rfl⟩
abbrev main_c_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_13 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x5_S4000000x10_S4000000x15_d1 : Shape.Concatenates [S4000000x5, S4000000x10] S4000000x15 1
  bcast_S15_S1x15_1 : S15.BroadcastsInDim S1x15 (![1] : Fin 1 → Fin S1x15.rank)
  bcast_S1x15_S4000000x15_0_1 : S1x15.BroadcastsInDim S4000000x15 (![0, 1] : Fin 2 → Fin S4000000x15.rank)
  bcast_S_S4000000x15 : S_.BroadcastsInDim S4000000x15 (![] : Fin 0 → Fin S4000000x15.rank)
  bcast_S_S4000000x1 : S_.BroadcastsInDim S4000000x1 (![] : Fin 0 → Fin S4000000x1.rank)
  bcast_S_S100000x1 : S_.BroadcastsInDim S100000x1 (![] : Fin 0 → Fin S100000x1.rank)
  bcast_S_S100000x15 : S_.BroadcastsInDim S100000x15 (![] : Fin 0 → Fin S100000x15.rank)
  bcast_S100000x1_S100000x15_0_1 : S100000x1.BroadcastsInDim S100000x15 (![0, 1] : Fin 2 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x10_S100000x1_S100000x15_S100000x15_S100000x15_S100000x15_S100000x10_S100000x81_d1 : Shape.Concatenates [S100000x10, S100000x1, S100000x15, S100000x15, S100000x15, S100000x15, S100000x10] S100000x81 1
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  gather_S100000x5_S4000000x1_S4000000x5_1_0_n_n_0_1_15_wf : GatherDims.WF S100000x5 S4000000x1 S4000000x5 [1] [0] [] [0] [] 1 ![1, 5]
  dot_S4000000x15_S15x15_S4000000x15_1_0_0_1_n_n_wf : DotDims.WF S4000000x15 S15x15 S4000000x15 [1] [0] [0] [1] [] []
  scatter_S100000x1_S4000000x1_S4000000x1_1_0_0_1_wf : ScatterDims.WF S100000x1 S4000000x1 S4000000x1 [1] [0] [0] 1
  scatter_S100000x15_S4000000x1_S4000000x15_1_0_0_1_wf : ScatterDims.WF S100000x15 S4000000x1 S4000000x15 [1] [0] [0] 1
  gather_S100000x15_S4000000x1_S4000000x15_1_0_n_n_0_1_115_wf : GatherDims.WF S100000x15 S4000000x1 S4000000x15 [1] [0] [] [0] [] 1 ![1, 15]
  gather_S64x10_S100000x1_S100000x10_1_0_n_n_0_1_110_wf : GatherDims.WF S64x10 S100000x1 S100000x10 [1] [0] [] [0] [] 1 ![1, 10]
  dot_S100000x81_S81x10_S100000x10_1_0_0_1_n_n_wf : DotDims.WF S100000x81 S81x10 S100000x10 [1] [0] [0] [1] [] []
  dot_S100000x10_S10x10_S100000x10_1_0_0_1_n_n_wf : DotDims.WF S100000x10 S10x10 S100000x10 [1] [0] [0] [1] [] []

variable [Facts₀]

def gather_S100000x5_S4000000x1_S4000000x5_1_0_n_n_0_1_15 : GatherDims S100000x5 S4000000x1 S4000000x5 where
  offsetDims := [1]
  collapsedSliceDims := [0]
  operandBatchingDims := []
  startIndicesBatchingDims := []
  startIndexMap := [0]
  indexVectorDim := 1
  sliceSizes := ![1, 5]
  wf := gather_S100000x5_S4000000x1_S4000000x5_1_0_n_n_0_1_15_wf
def dot_S4000000x15_S15x15_S4000000x15_1_0_0_1_n_n : DotDims S4000000x15 S15x15 S4000000x15 where
  lhsContracting := [1]
  rhsContracting := [0]
  lhsNonContracting := [0]
  rhsNonContracting := [1]
  lhsBatch := []
  rhsBatch := []
  wf := dot_S4000000x15_S15x15_S4000000x15_1_0_0_1_n_n_wf
def scatter_S100000x1_S4000000x1_S4000000x1_1_0_0_1 : ScatterDims S100000x1 S4000000x1 S4000000x1 where
  updateWindowDims := [1]
  insertedWindowDims := [0]
  scatterDimsToOperandDims := [0]
  indexVectorDim := 1
  wf := scatter_S100000x1_S4000000x1_S4000000x1_1_0_0_1_wf
def scatter_S100000x15_S4000000x1_S4000000x15_1_0_0_1 : ScatterDims S100000x15 S4000000x1 S4000000x15 where
  updateWindowDims := [1]
  insertedWindowDims := [0]
  scatterDimsToOperandDims := [0]
  indexVectorDim := 1
  wf := scatter_S100000x15_S4000000x1_S4000000x15_1_0_0_1_wf
def gather_S100000x15_S4000000x1_S4000000x15_1_0_n_n_0_1_115 : GatherDims S100000x15 S4000000x1 S4000000x15 where
  offsetDims := [1]
  collapsedSliceDims := [0]
  operandBatchingDims := []
  startIndicesBatchingDims := []
  startIndexMap := [0]
  indexVectorDim := 1
  sliceSizes := ![1, 15]
  wf := gather_S100000x15_S4000000x1_S4000000x15_1_0_n_n_0_1_115_wf
def gather_S64x10_S100000x1_S100000x10_1_0_n_n_0_1_110 : GatherDims S64x10 S100000x1 S100000x10 where
  offsetDims := [1]
  collapsedSliceDims := [0]
  operandBatchingDims := []
  startIndicesBatchingDims := []
  startIndexMap := [0]
  indexVectorDim := 1
  sliceSizes := ![1, 10]
  wf := gather_S64x10_S100000x1_S100000x10_1_0_n_n_0_1_110_wf
def dot_S100000x81_S81x10_S100000x10_1_0_0_1_n_n : DotDims S100000x81 S81x10 S100000x10 where
  lhsContracting := [1]
  rhsContracting := [0]
  lhsNonContracting := [0]
  rhsNonContracting := [1]
  lhsBatch := []
  rhsBatch := []
  wf := dot_S100000x81_S81x10_S100000x10_1_0_0_1_n_n_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf

class Facts : Prop extends Facts₀ where

variable [Facts]
-- ==== Proof.Spec.lean ====
/-
  The mathematics both programs compute, written once over plain coordinates, at the extended reals.

  An edge `e` carries the feature row `[x_t[tgt e] | edge_attr[e]]` (15 numbers); a two-layer perceptron with a leaky
  rectifier between the layers turns it into the message `msg e` (15 numbers). For a node `i` the edges whose source is
  `i` form its segment; over the segment one takes the count, the mean, the standard deviation and the third and fourth
  standardized moments of each message column. One program gets the central moments from the raw power sums
  `Σ m, Σ m², Σ m³, Σ m⁴` (`skewK`, `kurtK`), the other sums the powers of `m - mean` directly (`skewR`, `kurtR`).
  The node's 81 features `[x_s | count | mean | std | skew | kurt | u[batch i]]` go through a second perceptron.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev nE : ℕ := 4000000
abbrev nN : ℕ := 100000
abbrev nB : ℕ := 64

/-- A matrix and a vector of extended reals over literal extents. -/
abbrev Mat (r c : ℕ) : Type := (⟨2, ![r, c]⟩ : Shape).Idx → EReal
abbrev Vc (n : ℕ) : Type := (⟨1, ![n]⟩ : Shape).Idx → EReal

/-! ## The float literals, kept as their words -/

def slope : EReal := Ideal.ofBits .f32 0x3DCCCCCD#32
def one : EReal := Ideal.ofBits .f32 0x3F800000#32
def eps : EReal := Ideal.ofBits .f32 0x358637BD#32
def two : EReal := Ideal.ofBits .f32 0x40000000#32
def three : EReal := Ideal.ofBits .f32 0x40400000#32
def four : EReal := Ideal.ofBits .f32 0x40800000#32
def six : EReal := Ideal.ofBits .f32 0x40C00000#32

/-! ## The perceptrons -/

/-- The leaky rectifier: `x` where `x ≥ 0`, `slope · x` elsewhere. -/
def leaky (x : EReal) : EReal := Scalar.select (Ideal.cmp .oge x 0) x (slope * x)

/-- One affine layer read at output column `c`: `Σ_j h j · w[j, c] + b[c]`. -/
def dense {n k : ℕ} (w : Mat n k) (b : Vc k) (h : Fin n → EReal) (c : Fin k) : EReal :=
  (∑ j : Fin n, h j * w (ix2 j c)) + b (ix1 c)

/-- Two affine layers with the leaky rectifier between them. -/
def mlp {n k l : ℕ} (w1 : Mat n k) (b1 : Vc k) (w2 : Mat k l) (b2 : Vc l) (h : Fin n → EReal) (c : Fin l) : EReal :=
  dense w2 b2 (fun j => leaky (dense w1 b1 h j)) c

/-! ## Rows laid side by side -/

/-- Five numbers, then ten. -/
def cat5_10 (a : Fin 5 → EReal) (b : Fin 10 → EReal) (j : Fin 15) : EReal :=
  if h : j.val < 5 then a ⟨j.val, h⟩ else b ⟨j.val - 5, by omega⟩

/-- A message row and its powers laid side by side, 61 numbers: `m`, `m·m`, `(m·m)·m`, `(m·m)·(m·m)` (15 each), then a one. -/
def rawRow (mrow : Fin 15 → EReal) (k : Fin 61) : EReal :=
  if h0 : k.val < 15 then mrow ⟨k.val, h0⟩
  else if h1 : k.val < 30 then mrow ⟨k.val - 15, by omega⟩ * mrow ⟨k.val - 15, by omega⟩
  else if h2 : k.val < 45 then (mrow ⟨k.val - 30, by omega⟩ * mrow ⟨k.val - 30, by omega⟩) * mrow ⟨k.val - 30, by omega⟩
  else if h3 : k.val < 60 then
    (mrow ⟨k.val - 45, by omega⟩ * mrow ⟨k.val - 45, by omega⟩) * (mrow ⟨k.val - 45, by omega⟩ * mrow ⟨k.val - 45, by omega⟩)
  else one

/-- Ten numbers, one, four fifteens, ten: 81. -/
def cat81 (a0 : Fin 10 → EReal) (a1 : EReal) (a2 a3 a4 a5 : Fin 15 → EReal) (a6 : Fin 10 → EReal) (j : Fin 81) : EReal :=
  if h0 : j.val < 10 then a0 ⟨j.val, h0⟩
  else if h1 : j.val < 11 then a1
  else if h2 : j.val < 26 then a2 ⟨j.val - 11, by omega⟩
  else if h3 : j.val < 41 then a3 ⟨j.val - 26, by omega⟩
  else if h4 : j.val < 56 then a4 ⟨j.val - 41, by omega⟩
  else if h5 : j.val < 71 then a5 ⟨j.val - 56, by omega⟩
  else a6 ⟨j.val - 71, by omega⟩

/-! ## Reading an index word -/

/-- jnp's negative-index rule on a word: `w + n` where `w < 0` (signed), else `w`. -/
def wrapW (n w : BitVec 32) : BitVec 32 := Scalar.select (IntOp.cmpi .slt w 0#32) (IntOp.addi w n) w

/-- The row a gather reads for start word `w` in a table of `N` rows: the word read signed, held inside `0 … N - 1`. -/
def rowOf (N : ℕ) (hN : 0 < N) (w : BitVec 32) : Fin N := ⟨min w.toInt.toNat (N - 1), by omega⟩

/-! ## The messages -/

/-- Edge `e`'s feature row: the 5 columns of `x_t` at the row its target word names, then the 10 of `edge_attr[e]`. -/
def edgeFeat (xt : Mat nN 5) (ea : Mat nE 10) (tgt : Fin nE → BitVec 32) (e : Fin nE) : Fin 15 → EReal :=
  cat5_10 (fun j => xt (ix2 (rowOf nN (by decide) (wrapW 100000#32 (tgt e))) j)) (fun j => ea (ix2 e j))

/-- Edge `e`'s message, column `c`. -/
def msg (xt : Mat nN 5) (ea : Mat nE 10) (tgt : Fin nE → BitVec 32) (w1a : Mat 15 15) (b1a : Vc 15) (w2a : Mat 15 15) (b2a : Vc 15)
    (e : Fin nE) (c : Fin 15) : EReal :=
  mlp w1a b1a w2a b2a (edgeFeat xt ea tgt e) c

/-! ## Segment statistics of a message table `M` -/

/-- The edges whose source word, read signed, is node `i`. -/
def seg (src : Fin nE → BitVec 32) (i : Fin nN) : Finset (Fin nE) :=
  Finset.univ.filter (fun e => (src e).toInt = (i.val : ℤ))

/-- The sum over node `i`'s segment. -/
def segSum (src : Fin nE → BitVec 32) (i : Fin nN) (f : Fin nE → EReal) : EReal := ∑ e ∈ seg src i, f e

section Stats
variable (M : Fin nE → Fin 15 → EReal) (src : Fin nE → BitVec 32)

def cnt (i : Fin nN) : EReal := segSum src i (fun _ => one)
def den (i : Fin nN) : EReal := max (cnt src i) one
def s1 (i : Fin nN) (c : Fin 15) : EReal := segSum src i (fun e => M e c)
def s2 (i : Fin nN) (c : Fin 15) : EReal := segSum src i (fun e => M e c * M e c)
def s3 (i : Fin nN) (c : Fin 15) : EReal := segSum src i (fun e => (M e c * M e c) * M e c)
def s4 (i : Fin nN) (c : Fin 15) : EReal := segSum src i (fun e => (M e c * M e c) * (M e c * M e c))
def mean (i : Fin nN) (c : Fin 15) : EReal := Ideal.div (s1 M src i c) (den src i)
def mean2 (i : Fin nN) (c : Fin 15) : EReal := Ideal.div (s2 M src i c) (den src i)
def std (i : Fin nN) (c : Fin 15) : EReal :=
  Ideal.sqrt (max (mean2 M src i c - mean M src i c * mean M src i c) 0 + eps)

/-- The third central power sum from the raw power sums. -/
def d3K (i : Fin nN) (c : Fin 15) : EReal :=
  (s3 M src i c - (three * mean M src i c) * s2 M src i c)
    + (two * cnt src i) * ((mean M src i c * mean M src i c) * mean M src i c)
/-- The fourth central power sum from the raw power sums. -/
def d4K (i : Fin nN) (c : Fin 15) : EReal :=
  ((s4 M src i c - (four * mean M src i c) * s3 M src i c) + (six * (mean M src i c * mean M src i c)) * s2 M src i c)
    - (three * cnt src i) * ((mean M src i c * mean M src i c) * (mean M src i c * mean M src i c))

/-- Edge `e`'s deviation from the mean of the node its source word names (wrapped, then held in range). -/
def dev (e : Fin nE) (c : Fin 15) : EReal :=
  M e c - mean M src (rowOf nN (by decide) (wrapW 100000#32 (src e))) c
/-- The third and fourth central power sums, summed directly. -/
def d3R (i : Fin nN) (c : Fin 15) : EReal := segSum src i (fun e => (dev M src e c * dev M src e c) * dev M src e c)
def d4R (i : Fin nN) (c : Fin 15) : EReal :=
  segSum src i (fun e => ((dev M src e c * dev M src e c) * dev M src e c) * dev M src e c)

def skewOf (d3 : Fin nN → Fin 15 → EReal) (i : Fin nN) (c : Fin 15) : EReal :=
  Ideal.div (Ideal.div (d3 i c) (den src i)) ((std M src i c * std M src i c) * std M src i c)
def kurtOf (d4 : Fin nN → Fin 15 → EReal) (i : Fin nN) (c : Fin 15) : EReal :=
  Ideal.div (Ideal.div (d4 i c) (den src i)) ((std M src i c * std M src i c) * (std M src i c * std M src i c))

def skewK : Fin nN → Fin 15 → EReal := skewOf M src (d3K M src)
def kurtK : Fin nN → Fin 15 → EReal := kurtOf M src (d4K M src)
def skewR : Fin nN → Fin 15 → EReal := skewOf M src (d3R M src)
def kurtR : Fin nN → Fin 15 → EReal := kurtOf M src (d4R M src)
end Stats

/-! ## The node features and the result -/

/-- Node `i`'s 81 features laid side by side: 10 of `x_s`, the count, 15 each of mean, std, skew, kurt, 10 of `u`. -/
def nodeFeat (xs : Mat nN 10) (cntA : Fin nN → EReal) (meanA stdA skewA kurtA : Fin nN → Fin 15 → EReal)
    (ub : Fin nN → Fin 10 → EReal) (i : Fin nN) : Fin 81 → EReal :=
  cat81 (fun j => xs (ix2 i j)) (cntA i) (meanA i) (stdA i) (skewA i) (kurtA i) (ub i)

/-- Node `i`'s row of `u`: the row its batch word names. -/
def uRow (u : Mat nB 10) (batch : Fin nN → BitVec 32) (i : Fin nN) (j : Fin 10) : EReal :=
  u (ix2 (rowOf nB (by decide) (wrapW 64#32 (batch i))) j)

/-- The result at node `i`, column `c`, for given skew and kurtosis tables. -/
def outOf (xs : Mat nN 10) (u : Mat nB 10) (batch : Fin nN → BitVec 32) (M : Fin nE → Fin 15 → EReal) (src : Fin nE → BitVec 32)
    (skewA kurtA : Fin nN → Fin 15 → EReal) (w1b : Mat 81 10) (b1b : Vc 10) (w2b : Mat 10 10) (b2b : Vc 10)
    (i : Fin nN) (c : Fin 10) : EReal :=
  mlp w1b b1b w2b b2b (nodeFeat xs (cnt src) (mean M src) (std M src) skewA kurtA (uRow u batch) i) c

end Cert.Spec

end
-- ==== Proof.KBody0.lean ====
/-
  The first kernel's body as arithmetic on one row: row `p` of the stored block is the message of the row's 15 features
  (5 gathered, 10 of the edge) followed by its square, cube and fourth power and a one.
-/
import proofs.«405589_j74663711473945_2_alg».proof.Proof.Gen.KernelIdeal.Skeleton
import proofs.«405589_j74663711473945_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body0

open Idealize.ShloMosaic Idealize.ShloMosaic.ValueIdx Cert.KernelIdeal Cert.KernelIdeal.Gen

/-! ## The 5000×15 by 15×15 product's operand indices, axis by axis -/

theorem lhs_dot_0 (i : S5000x15.Idx) (q : dot_S5000x15_S15x15_S5000x15_1_0_0_1_n_n.contr.Idx) :
    (dot_S5000x15_S15x15_S5000x15_1_0_0_1_n_n.lhsIdx i q 0).val = (i 0).val := by
  unfold DotDims.lhsIdx
  rw [dif_neg (show ¬(0 : Fin S5000x15.rank) ∈ dot_S5000x15_S15x15_S5000x15_1_0_0_1_n_n.lhsBatch by decide),
    dif_pos (show (0 : Fin S5000x15.rank) ∈ dot_S5000x15_S15x15_S5000x15_1_0_0_1_n_n.lhsNonContracting by decide)]
  rfl

theorem lhs_dot_1 (i : S5000x15.Idx) (q : dot_S5000x15_S15x15_S5000x15_1_0_0_1_n_n.contr.Idx) :
    (dot_S5000x15_S15x15_S5000x15_1_0_0_1_n_n.lhsIdx i q 1).val = (q ⟨0, by decide⟩).val :=
  dot_S5000x15_S15x15_S5000x15_1_0_0_1_n_n.lhsIdx_val_of_single rfl i q

theorem rhs_dot_0 (i : S5000x15.Idx) (q : dot_S5000x15_S15x15_S5000x15_1_0_0_1_n_n.contr.Idx) :
    (dot_S5000x15_S15x15_S5000x15_1_0_0_1_n_n.rhsIdx i q 0).val = (q ⟨0, by decide⟩).val :=
  dot_S5000x15_S15x15_S5000x15_1_0_0_1_n_n.rhsIdx_val_of_single rfl i q

theorem rhs_dot_1 (i : S5000x15.Idx) (q : dot_S5000x15_S15x15_S5000x15_1_0_0_1_n_n.contr.Idx) :
    (dot_S5000x15_S15x15_S5000x15_1_0_0_1_n_n.rhsIdx i q 1).val = (i 1).val := by
  unfold DotDims.rhsIdx
  rw [dif_neg (show ¬(1 : Fin S15x15.rank) ∈ dot_S5000x15_S15x15_S5000x15_1_0_0_1_n_n.rhsBatch by decide),
    dif_pos (show (1 : Fin S15x15.rank) ∈ dot_S5000x15_S15x15_S5000x15_1_0_0_1_n_n.rhsNonContracting by decide)]
  rfl

/-- The product into the zero accumulator, at row `p` and column `c`: the row of the left factor against the column of
    the right one. -/
theorem mm_apply (A : FVec Ideal S5000x15 .bf16) (W : FVec Ideal S15x15 .bf16) (p : Fin 5000) (c : Fin 15) :
    matmul (F := Ideal) dot_S5000x15_S15x15_S5000x15_1_0_0_1_n_n none A W (constant (F := Ideal) S5000x15 .f32 0x00000000#32) (ix2 p c)
      = ∑ j : Fin 15, A (ix2 p j) * W (ix2 j c) := by
  simp only [matmul]
  rw [Ideal.matmul_constant_zero_apply,
    ← Equiv.sum_comp (contrEquiv1 dot_S5000x15_S15x15_S5000x15_1_0_0_1_n_n 15 rfl rfl).symm]
  refine Finset.sum_congr rfl fun k _ => ?_
  have hk := contrEquiv1_symm_val dot_S5000x15_S15x15_S5000x15_1_0_0_1_n_n 15 rfl rfl k
  have el : dot_S5000x15_S15x15_S5000x15_1_0_0_1_n_n.lhsIdx (ix2 p c)
      ((contrEquiv1 dot_S5000x15_S15x15_S5000x15_1_0_0_1_n_n 15 rfl rfl).symm k) = ix2 p k := funext fun a => Fin.ext (by
    match a with
    | ⟨0, _⟩ => exact lhs_dot_0 _ _
    | ⟨1, _⟩ => exact (lhs_dot_1 _ _).trans hk)
  have er : dot_S5000x15_S15x15_S5000x15_1_0_0_1_n_n.rhsIdx (ix2 p c)
      ((contrEquiv1 dot_S5000x15_S15x15_S5000x15_1_0_0_1_n_n 15 rfl rfl).symm k) = ix2 k c := funext fun a => Fin.ext (by
    match a with
    | ⟨0, _⟩ => exact (rhs_dot_0 _ _).trans hk
    | ⟨1, _⟩ => exact rhs_dot_1 _ _)
  rw [el, er]

/-! ## The pieces of the body at row `p` -/

/-- The two loaded blocks laid side by side, at row `p`: five numbers of the first, then ten of the second. -/
theorem feat_apply (x0 : Vec Ideal S5000x5 .f32) (x2 : Vec Ideal S5000x10 .f32) (p : Fin 5000) (j : Fin 15) :
    concatenate S5000x15 1 [⟨S5000x5, shapeCast S5000x5 x0 shapeCasts_S5000x5_S5000x5⟩, ⟨S5000x10, x2⟩]
        concatenates_S5000x5_S5000x10_S5000x15_d1 (ix2 p j)
      = Spec.cat5_10 (fun j => x0 (ix2 p j)) (fun j => x2 (ix2 p j)) j := by
  rw [shapeCast_self]
  unfold Spec.cat5_10
  by_cases h : j.val < 5
  · rw [dif_pos h]
    exact concatenate_pair_apply_left 1 x0 x2 _ (ix2 p j) rfl (ix2 p ⟨j.val, h⟩)
      (fun b => match b with | ⟨0, _⟩ => rfl | ⟨1, _⟩ => rfl)
  · rw [dif_neg h]
    exact concatenate_pair_apply_right 1 x0 x2 _ (ix2 p j) rfl rfl (ix2 p ⟨j.val - 5, by omega⟩)
      (fun b => match b with | ⟨0, _⟩ => fun _ => rfl | ⟨1, _⟩ => fun hb => absurd rfl hb)
      (show j.val - 5 + 5 = j.val by omega)

/-- One affine layer of the body at `(p, c)`: the product into zero plus the bias row spread over the rows. -/
theorem dense_apply (h : FVec Ideal S5000x15 .f32) (w : FVec Ideal S15x15 .bf16) (b : FVec Ideal S15 .f32) (p : Fin 5000) (c : Fin 15) :
    addf (matmul (F := Ideal) dot_S5000x15_S15x15_S5000x15_1_0_0_1_n_n none (truncf .bf16 h bitsLt_bf16_f32)
          (shapeCast S15x15 w shapeCasts_S15x15_S15x15) (constant (F := Ideal) S5000x15 .f32 0x00000000#32))
        (broadcastTo S5000x15 (shapeCast S1x15 b shapeCasts_S15_S1x15) broadcasts_S1x15_S5000x15) (ix2 p c)
      = Spec.dense w b (fun j => h (ix2 p j)) c := by
  rw [addf_apply, mm_apply, shapeCast_self, broadcastTo_1b_ab_apply, shapeCast_a_1a_apply]
  rfl

/-- The rectifier of the body at an index. -/
theorem leaky_apply (a : FVec Ideal S5000x15 .f32) (i : S5000x15.Idx) :
    select (cmpf .oge a (broadcast S5000x15 (Scalar.ofBits (F := Ideal) .f32 0x00000000#32))) a
        (mulf (broadcast S5000x15 (Scalar.ofBits (F := Ideal) .f32 0x3DCCCCCD#32)) a) i
      = Spec.leaky (a i) := by
  show Scalar.select (Ideal.cmp .oge (a i) (Ideal.ofBits .f32 0x00000000#32)) (a i) (Ideal.ofBits .f32 0x3DCCCCCD#32 * a i) = _
  rw [Ideal.ofBits_zero_f32]
  rfl

/-- The stored row at column `k`: the message row `m`, its square, cube and fourth power, and a one, laid side by side. -/
theorem cat61_apply (m : FVec Ideal S5000x15 .f32) (p : Fin 5000) (k : Fin 61) :
    concatenate S5000x61 1 [⟨S5000x15, m⟩, ⟨S5000x15, mulf m m⟩, ⟨S5000x15, mulf (mulf m m) m⟩,
          ⟨S5000x15, mulf (mulf m m) (mulf m m)⟩, ⟨S5000x1, broadcast S5000x1 (Scalar.ofBits (F := Ideal) .f32 0x3F800000#32)⟩]
        concatenates_S5000x15_S5000x15_S5000x15_S5000x15_S5000x1_S5000x61_d1 (ix2 p k)
      = Spec.rawRow (fun c => m (ix2 p c)) k := by
  unfold Spec.rawRow
  by_cases h0 : k.val < 15
  · rw [dif_pos h0]
    exact concatenate_apply_piece 1 _ _ (ix2 p k) 0 (by simp) S5000x15 m rfl rfl 0 rfl (ix2 p ⟨k.val, h0⟩)
      (fun b => match b with | ⟨0, _⟩ => fun _ => rfl | ⟨1, _⟩ => fun hb => absurd rfl hb)
      (show 0 + k.val = k.val by omega)
  · rw [dif_neg h0]
    by_cases h1 : k.val < 30
    · rw [dif_pos h1]
      exact concatenate_apply_piece 1 _ _ (ix2 p k) 1 (by simp) S5000x15 (mulf m m) rfl rfl 15 rfl (ix2 p ⟨k.val - 15, by omega⟩)
        (fun b => match b with | ⟨0, _⟩ => fun _ => rfl | ⟨1, _⟩ => fun hb => absurd rfl hb)
        (show 15 + (k.val - 15) = k.val by omega)
    · rw [dif_neg h1]
      by_cases h2 : k.val < 45
      · rw [dif_pos h2]
        exact concatenate_apply_piece 1 _ _ (ix2 p k) 2 (by simp) S5000x15 (mulf (mulf m m) m) rfl rfl 30 rfl (ix2 p ⟨k.val - 30, by omega⟩)
          (fun b => match b with | ⟨0, _⟩ => fun _ => rfl | ⟨1, _⟩ => fun hb => absurd rfl hb)
          (show 30 + (k.val - 30) = k.val by omega)
      · rw [dif_neg h2]
        by_cases h3 : k.val < 60
        · rw [dif_pos h3]
          exact concatenate_apply_piece 1 _ _ (ix2 p k) 3 (by simp) S5000x15 (mulf (mulf m m) (mulf m m)) rfl rfl 45 rfl (ix2 p ⟨k.val - 45, by omega⟩)
            (fun b => match b with | ⟨0, _⟩ => fun _ => rfl | ⟨1, _⟩ => fun hb => absurd rfl hb)
            (show 45 + (k.val - 45) = k.val by omega)
        · rw [dif_neg h3]
          have hk := k.isLt
          exact concatenate_apply_piece 1 _ _ (ix2 p k) 4 (by simp) S5000x1
            (broadcast S5000x1 (Scalar.ofBits (F := Ideal) .f32 0x3F800000#32)) rfl rfl 60 rfl (ix2 p (0 : Fin 1))
            (fun b => match b with | ⟨0, _⟩ => fun _ => rfl | ⟨1, _⟩ => fun hb => absurd rfl hb)
            (show 60 + 0 = k.val by omega)

theorem k0_pay1_apply (x0 : Vec Ideal S5000x5 .f32) (x2 : Vec Ideal S5000x10 .f32) (x3 : Vec Ideal S15x15 .bf16)
    (x5 : Vec Ideal S15 .f32) (x6 : Vec Ideal S15x15 .bf16) (x8 : Vec Ideal S15 .f32) (p : Fin 5000) (k : Fin 61) :
    k0_pay1 (F := Ideal) x0 x2 x3 x5 x6 x8 (ix2 p k)
      = Spec.rawRow (Spec.mlp x3 x5 x6 x8 (Spec.cat5_10 (fun j => x0 (ix2 p j)) (fun j => x2 (ix2 p j)))) k := by
  refine (cat61_apply _ p k).trans ?_
  refine congrArg (fun f => Spec.rawRow f k) (funext fun c => ?_)
  rw [dense_apply]
  unfold Spec.mlp
  refine congrArg (fun f => Spec.dense x6 x8 f c) (funext fun j => ?_)
  rw [leaky_apply, dense_apply]
  refine congrArg Spec.leaky (congrArg (fun f => Spec.dense x3 x5 f j) (funext fun i => ?_))
  exact feat_apply x0 x2 p i

end Cert.KernelIdeal.Body0

end
-- ==== Proof.KArr0.lean ====
/-
  The first kernel's result array, whole: row `e` of the `[4000000, 61]` table is the message of edge `e`'s features with
  its powers and a one, whatever the buffers hold when the region is entered.

  The grid has 800 points. Point `t` sees rows `5000·t … 5000·t + 4999` of the two feature arrays and of the result, and
  the whole of the two weight matrices and the two bias vectors. The body turns each row of its block into one row of the
  result block, so the block written at point `t` is the restriction to those rows of ONE table defined on all
  4000000 rows; the 800 blocks tile the array, hence the array ends as that table.
-/
import proofs.«405589_j74663711473945_2_alg».proof.Proof.Gen.KernelIdeal.Frame
import proofs.«405589_j74663711473945_2_alg».proof.Proof.KBody0
import Idealize.ShloMosaic.Lib.Pipeline.Value

set_option maxRecDepth 16384

noncomputable section

namespace Cert.KernelIdeal.Arr0

open Idealize.ShloMosaic Idealize.ShloMosaic.ValueIdx Idealize.SL.Sem Cert.KernelIdeal Cert.KernelIdeal.Gen
open Idealize.ShloMosaic.TcCoe
open Idealize.ShloMosaic.Pipeline (Dat Cfg Window)

/-! ## The table -/

/-- Row `e`, column `k` of the table: the perceptron's message of the 15 features of edge `e` (5 from the first
    array's row `e`, 10 from the second's), laid beside its powers and a one. -/
def rowVal (a0 : S4000000x5.Idx → EReal) (a1 : S4000000x10.Idx → EReal) (w1 : S15x15.Idx → EReal) (b1 : S15.Idx → EReal)
    (w2 : S15x15.Idx → EReal) (b2 : S15.Idx → EReal) (e : Fin 4000000) (k : Fin 61) : EReal :=
  Spec.rawRow (Spec.mlp w1 b1 w2 b2 (Spec.cat5_10 (fun j => a0 (ix2 e j)) (fun j => a1 (ix2 e j)))) k

/-- The table as a function of an index of the result array. -/
def table (a0 : S4000000x5.Idx → EReal) (a1 : S4000000x10.Idx → EReal) (w1 : S15x15.Idx → EReal) (b1 : S15.Idx → EReal)
    (w2 : S15x15.Idx → EReal) (b2 : S15.Idx → EReal) : S4000000x61.Idx → EReal :=
  fun i => rowVal a0 a1 w1 b1 w2 b2 (i 0) (i 1)

/-- A row of a block is a row of the table, once the block's rows are known to be rows `e` of the arrays and the small
    operands the whole weights and biases. -/
theorem pay_row (a0 : S4000000x5.Idx → EReal) (a1 : S4000000x10.Idx → EReal) (w1 : S15x15.Idx → EReal) (b1 : S15.Idx → EReal)
    (w2 : S15x15.Idx → EReal) (b2 : S15.Idx → EReal)
    (x0 : Vec Ideal S5000x5 .f32) (x1 : Vec Ideal S5000x10 .f32) (x2 : Vec Ideal S15x15 .bf16) (x3 : Vec Ideal S15 .f32)
    (x4 : Vec Ideal S15x15 .bf16) (x5 : Vec Ideal S15 .f32) (e : Fin 4000000) (p : Fin 5000) (k : Fin 61)
    (h0 : ∀ j : Fin 5, x0 (ix2 p j) = a0 (ix2 e j)) (h1 : ∀ j : Fin 10, x1 (ix2 p j) = a1 (ix2 e j))
    (h2 : x2 = w1) (h3 : x3 = b1) (h4 : x4 = w2) (h5 : x5 = b2) :
    k0_pay1 (F := Ideal) x0 x1 x2 x3 x4 x5 (ix2 p k) = rowVal a0 a1 w1 b1 w2 b2 e k := by
  subst h2 h3 h4 h5
  rw [Body0.k0_pay1_apply]
  unfold rowVal
  rw [funext h0, funext h1]

/-! ## The index maps, decided over the 800 points -/

theorem hz : (![0, 0] : Fin 2 → Nat) = fun _ => 0 := funext fun a => by fin_cases a <;> rfl
theorem hz1 : (![0] : Fin 1 → Nat) = fun _ => 0 := funext fun a => by fin_cases a <;> rfl

/-- The two feature windows move with the result's window along the rows and stay at column block 0; the weights and
    biases stay at block 0; the result's row block is the point's own number and its column block is 0. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-! ## What one point writes back -/

/-- At every point the first weight matrix's block is the whole matrix. -/
theorem blk_w1 (c : Dev nD) (t : Fin cfg0.N) : (iblk0 (F := Ideal) V c 2 t : S15x15.Idx → EReal) = V c (Pipeline.arrRef spec0 2) := by
  obtain ⟨-, -, -, -, e0, e1, -⟩ := idx_facts t
  funext y
  show (V c (Pipeline.arrRef spec0 2) : S15x15.Idx → EReal) (((cfg0.win 2).blk t).view.emb y) = _
  refine congrArg _ (funext fun a => Fin.ext ?_)
  match a with
  | ⟨0, _⟩ => show win0_2.index t (0 : Fin 2) * 15 + 1 * (y 0).val = (y 0).val; omega
  | ⟨1, _⟩ => show win0_2.index t (1 : Fin 2) * 15 + 1 * (y 1).val = (y 1).val; omega

/-- At every point the first bias vector's block is the whole vector. -/
theorem blk_b1 (c : Dev nD) (t : Fin cfg0.N) : (iblk0 (F := Ideal) V c 3 t : S15.Idx → EReal) = V c (Pipeline.arrRef spec0 3) := by
  obtain ⟨-, -, -, -, -, -, e0, -⟩ := idx_facts t
  funext y
  show (V c (Pipeline.arrRef spec0 3) : S15.Idx → EReal) (((cfg0.win 3).blk t).view.emb y) = _
  refine congrArg _ (funext fun a => Fin.ext ?_)
  match a with
  | ⟨0, _⟩ => show win0_3.index t (0 : Fin 1) * 15 + 1 * (y 0).val = (y 0).val; omega

/-- At every point the second weight matrix's block is the whole matrix. -/
theorem blk_w2 (c : Dev nD) (t : Fin cfg0.N) : (iblk0 (F := Ideal) V c 4 t : S15x15.Idx → EReal) = V c (Pipeline.arrRef spec0 4) := by
  obtain ⟨-, -, -, -, -, -, -, e0, e1, -⟩ := idx_facts t
  funext y
  show (V c (Pipeline.arrRef spec0 4) : S15x15.Idx → EReal) (((cfg0.win 4).blk t).view.emb y) = _
  refine congrArg _ (funext fun a => Fin.ext ?_)
  match a with
  | ⟨0, _⟩ => show win0_4.index t (0 : Fin 2) * 15 + 1 * (y 0).val = (y 0).val; omega
  | ⟨1, _⟩ => show win0_4.index t (1 : Fin 2) * 15 + 1 * (y 1).val = (y 1).val; omega

/-- At every point the second bias vector's block is the whole vector. -/
theorem blk_b2 (c : Dev nD) (t : Fin cfg0.N) : (iblk0 (F := Ideal) V c 5 t : S15.Idx → EReal) = V c (Pipeline.arrRef spec0 5) := by
  obtain ⟨-, -, -, -, -, -, -, -, -, e0, -⟩ := idx_facts t
  funext y
  show (V c (Pipeline.arrRef spec0 5) : S15.Idx → EReal) (((cfg0.win 5).blk t).view.emb y) = _
  refine congrArg _ (funext fun a => Fin.ext ?_)
  match a with
  | ⟨0, _⟩ => show win0_5.index t (0 : Fin 1) * 15 + 1 * (y 0).val = (y 0).val; omega

/-- Row `p` of the first feature block at point `t` is the array's row under row `p` of the result's block. -/
theorem blk_a0 (c : Dev nD) (t : Fin cfg0.N) (p : Fin 5000) (q : Fin 61) (j : Fin 5) :
    (iblk0 (F := Ideal) V c 0 t : S5000x5.Idx → EReal) (ix2 p j)
      = (V c (Pipeline.arrRef spec0 0) : S4000000x5.Idx → EReal) (ix2 ((((cfg0.win 6).blk t).view.emb (ix2 p q) : S4000000x61.Idx) 0) j) := by
  obtain ⟨e0, e1, -⟩ := idx_facts t
  show (V c (Pipeline.arrRef spec0 0) : S4000000x5.Idx → EReal) (((cfg0.win 0).blk t).view.emb (ix2 p j)) = _
  refine congrArg _ (funext fun a => Fin.ext ?_)
  match a with
  | ⟨0, _⟩ => show win0_0.index t (0 : Fin 2) * 5000 + 1 * p.val = win0_6.index t (0 : Fin 2) * 5000 + 1 * p.val; omega
  | ⟨1, _⟩ => show win0_0.index t (1 : Fin 2) * 5 + 1 * j.val = j.val; omega

/-- The same for the second feature block. -/
theorem blk_a1 (c : Dev nD) (t : Fin cfg0.N) (p : Fin 5000) (q : Fin 61) (j : Fin 10) :
    (iblk0 (F := Ideal) V c 1 t : S5000x10.Idx → EReal) (ix2 p j)
      = (V c (Pipeline.arrRef spec0 1) : S4000000x10.Idx → EReal) (ix2 ((((cfg0.win 6).blk t).view.emb (ix2 p q) : S4000000x61.Idx) 0) j) := by
  obtain ⟨-, -, e0, e1, -⟩ := idx_facts t
  show (V c (Pipeline.arrRef spec0 1) : S4000000x10.Idx → EReal) (((cfg0.win 1).blk t).view.emb (ix2 p j)) = _
  refine congrArg _ (funext fun a => Fin.ext ?_)
  match a with
  | ⟨0, _⟩ => show win0_1.index t (0 : Fin 2) * 5000 + 1 * p.val = win0_6.index t (0 : Fin 2) * 5000 + 1 * p.val; omega
  | ⟨1, _⟩ => show win0_1.index t (1 : Fin 2) * 10 + 1 * j.val = j.val; omega

/-- The column of the array under column `q` of the result's block is `q`: there is one column block. -/
theorem blk_col (t : Fin cfg0.N) (p : Fin 5000) (q : Fin 61) :
    ((((cfg0.win 6).blk t).view.emb (ix2 p q) : S4000000x61.Idx) 1 : Fin 61) = q := by
  obtain ⟨-, -, -, -, -, -, -, -, -, -, -, e1⟩ := idx_facts t
  refine Fin.ext ?_
  show win0_6.index t (1 : Fin 2) * 61 + 1 * q.val = q.val
  omega

/-- What point `t` writes back is block `t` of the table of the arrays as the region finds them. -/
theorem flushed_eq (c : Dev nD) (t : Fin cfg0.N) :
    (dat0 (F := Ideal) V c).flushed 6 t = ((cfg0.win 6).blk t).view.read (Elt Ideal) (table (V c (Pipeline.arrRef spec0 0) : S4000000x5.Idx → EReal) (V c (Pipeline.arrRef spec0 1) : S4000000x10.Idx → EReal)
      (V c (Pipeline.arrRef spec0 2) : S15x15.Idx → EReal) (V c (Pipeline.arrRef spec0 3) : S15.Idx → EReal)
      (V c (Pipeline.arrRef spec0 4) : S15x15.Idx → EReal) (V c (Pipeline.arrRef spec0 5) : S15.Idx → EReal)) := by
  show (cfg0.win 6).cut (grid0.coords t) ((dat0 V c).after 6 t) = _
  rw [after0_6]
  unfold out0_6
  rw [View.canon_unit_zero hz]
  simp only [View.ld_unit_zero (S := S5000x5) hz, View.ld_unit_zero (S := S5000x10) hz, View.ld_unit_zero (S := S15x15) hz,
    View.ld_unit_zero (S := S15) hz1]
  funext y
  obtain ⟨p, q, rfl⟩ : ∃ (p : Fin 5000) (q : Fin 61), y = ix2 p q := ⟨y 0, y 1, eq_ix2 y⟩
  refine (pay_row (V c (Pipeline.arrRef spec0 0) : S4000000x5.Idx → EReal) (V c (Pipeline.arrRef spec0 1) : S4000000x10.Idx → EReal)
      (V c (Pipeline.arrRef spec0 2) : S15x15.Idx → EReal) (V c (Pipeline.arrRef spec0 3) : S15.Idx → EReal)
      (V c (Pipeline.arrRef spec0 4) : S15x15.Idx → EReal) (V c (Pipeline.arrRef spec0 5) : S15.Idx → EReal)
      (iblk0 V c 0 t) (iblk0 V c 1 t) (iblk0 V c 2 t) (iblk0 V c 3 t) (iblk0 V c 4 t) (iblk0 V c 5 t)
      ((((cfg0.win 6).blk t).view.emb (ix2 p q) : S4000000x61.Idx) 0) p q
      (fun j => blk_a0 V c t p q j) (fun j => blk_a1 V c t p q j) (blk_w1 V c t) (blk_b1 V c t) (blk_w2 V c t) (blk_b2 V c t)).trans ?_
  show _ = rowVal _ _ _ _ _ _ ((((cfg0.win 6).blk t).view.emb (ix2 p q) : S4000000x61.Idx) 0) ((((cfg0.win 6).blk t).view.emb (ix2 p q) : S4000000x61.Idx) 1)
  rw [blk_col t p q]

/-! ## The blocks tile the array -/

/-- An index of the array is in point `t`'s block iff each coordinate is in the block's range on its axis. -/
theorem mem_blk (t : Fin cfg0.N) (i : S4000000x61.Idx) :
    i ∈ ((cfg0.win 6).blk t).view.set ↔ ∀ a : Fin 2, win0_6.index t a * S5000x61.size a ≤ (i a).val ∧ (i a).val < win0_6.index t a * S5000x61.size a + S5000x61.size a := by
  show i ∈ ((View.whole main_v9).slice (win0_6.rect t)).set ↔ _
  rw [View.set_slice_whole, Rect.mem_set_unit]
  exact Iff.rfl

/-- Row `r` is in the block of point `r / 5000`. -/
theorem covered (i : S4000000x61.Idx) : ∃ t : Fin cfg0.N, (cfg0.win 6).flush t = true ∧ i ∈ ((cfg0.win 6).blk t).view.set := by
  have hi0 : (i 0).val < 4000000 := (i 0).isLt
  have hi1 : (i 1).val < 61 := (i 1).isLt
  have hN : grid0.N = 800 := N_0
  have ht : (i 0).val / 5000 < cfg0.N := by show _ < grid0.N; omega
  obtain ⟨-, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 61 ≤ (i 1).val ∧ (i 1).val < win0_6.index ⟨(i 0).val / 5000, ht⟩ (1 : Fin 2) * 61 + 61
    rw [e1]; omega

/-- The array after the whole grid is the table. -/
theorem final (c : Dev nD) :
    (dat0 (F := Ideal) V c).arrAt 6 cfg0.N = table (V c (Pipeline.arrRef spec0 0) : S4000000x5.Idx → EReal) (V c (Pipeline.arrRef spec0 1) : S4000000x10.Idx → EReal)
      (V c (Pipeline.arrRef spec0 2) : S15x15.Idx → EReal) (V c (Pipeline.arrRef spec0 3) : S15.Idx → EReal)
      (V c (Pipeline.arrRef spec0 4) : S15x15.Idx → EReal) (V c (Pipeline.arrRef spec0 5) : S15.Idx → EReal) :=
  (dat0 (F := Ideal) V c).arrAt_eq_of_cover 6 _ (fun t _ => flushed_eq V c t) covered

theorem arr0_apply (c : Dev nD) (e : Fin 4000000) (k : Fin 61) :
    ((dat0 (F := Ideal) V c).arrAt 6 cfg0.N : S4000000x61.Idx → EReal) (ix2 e k)
      = Spec.rawRow (Spec.mlp (V c (Pipeline.arrRef spec0 2) : S15x15.Idx → EReal) (V c (Pipeline.arrRef spec0 3) : S15.Idx → EReal)
          (V c (Pipeline.arrRef spec0 4) : S15x15.Idx → EReal) (V c (Pipeline.arrRef spec0 5) : S15.Idx → EReal)
          (Spec.cat5_10 (fun j => (V c (Pipeline.arrRef spec0 0) : S4000000x5.Idx → EReal) (ix2 e j))
            (fun j => (V c (Pipeline.arrRef spec0 1) : S4000000x10.Idx → EReal) (ix2 e j)))) k :=
  congrFun (final V c) (ix2 e k)

end Cert.KernelIdeal.Arr0

end
-- ==== Proof.KBody1.lean ====
/-
  The second kernel's body as arithmetic on one row: row `p` of the stored block is the perceptron of the row's 81
  features, the seven input blocks' rows laid side by side.
-/
import proofs.«405589_j74663711473945_2_alg».proof.Proof.Gen.KernelIdeal.Skeleton
import proofs.«405589_j74663711473945_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body1

open Idealize.ShloMosaic Idealize.ShloMosaic.ValueIdx Cert.KernelIdeal Cert.KernelIdeal.Gen

/-! The first product's operand indices, axis by axis. -/
theorem lhsA_0 (j : S4000x10.Idx) (k : dot_S4000x81_S81x10_S4000x10_1_0_0_1_n_n.contr.Idx) :
    (dot_S4000x81_S81x10_S4000x10_1_0_0_1_n_n.lhsIdx j k 0).val = (j 0).val := by
  simp [DotDims.lhsIdx, dot_S4000x81_S81x10_S4000x10_1_0_0_1_n_n]; rfl
theorem lhsA_1 (j : S4000x10.Idx) (k : dot_S4000x81_S81x10_S4000x10_1_0_0_1_n_n.contr.Idx) :
    (dot_S4000x81_S81x10_S4000x10_1_0_0_1_n_n.lhsIdx j k 1).val = (k ⟨0, by decide⟩).val :=
  dot_S4000x81_S81x10_S4000x10_1_0_0_1_n_n.lhsIdx_val_of_single rfl j k
theorem rhsA_0 (j : S4000x10.Idx) (k : dot_S4000x81_S81x10_S4000x10_1_0_0_1_n_n.contr.Idx) :
    (dot_S4000x81_S81x10_S4000x10_1_0_0_1_n_n.rhsIdx j k 0).val = (k ⟨0, by decide⟩).val :=
  dot_S4000x81_S81x10_S4000x10_1_0_0_1_n_n.rhsIdx_val_of_single rfl j k
theorem rhsA_1 (j : S4000x10.Idx) (k : dot_S4000x81_S81x10_S4000x10_1_0_0_1_n_n.contr.Idx) :
    (dot_S4000x81_S81x10_S4000x10_1_0_0_1_n_n.rhsIdx j k 1).val = (j 1).val := by
  simp [DotDims.rhsIdx, dot_S4000x81_S81x10_S4000x10_1_0_0_1_n_n]; rfl

/-- The first product read at row p, column c: the sum over the 81 columns of the left row against the weights' column. -/
theorem mmA_apply (x : FVec Ideal S4000x81 .bf16) (w : FVec Ideal S81x10 .bf16) (p : Fin 4000) (c : Fin 10) :
    matmul dot_S4000x81_S81x10_S4000x10_1_0_0_1_n_n none x w (constant (F := Ideal) S4000x10 .f32 0x00000000#32) (ix2 p c)
      = ∑ j : Fin 81, x (ix2 p j) * w (ix2 j c) := by
  simp only [matmul]
  rw [Ideal.matmul_constant_zero_apply,
    ← Equiv.sum_comp (contrEquiv1 dot_S4000x81_S81x10_S4000x10_1_0_0_1_n_n 81 rfl rfl).symm]
  refine Finset.sum_congr rfl fun j _ => ?_
  have hk := contrEquiv1_symm_val dot_S4000x81_S81x10_S4000x10_1_0_0_1_n_n 81 rfl rfl j
  congr 2
  · funext a; refine Fin.ext ?_
    match a with
    | ⟨0, _⟩ => exact lhsA_0 _ _
    | ⟨1, _⟩ => exact (lhsA_1 _ _).trans hk
  · funext a; refine Fin.ext ?_
    match a with
    | ⟨0, _⟩ => exact (rhsA_0 _ _).trans hk
    | ⟨1, _⟩ => exact rhsA_1 _ _

/-- One piece of a side-by-side layout of 4000-row blocks into 81 columns: column `j` falls in piece `k`, which starts
    at column `pre`, and reads that piece at column `q = j - pre`. -/
theorem cat_piece {α : Type} (xs : List ((s : Shape) × (s.Idx → α))) (h : Shape.Concatenates (xs.map (·.1)) S4000x81 1)
    (p : Fin 4000) (j : Fin 81) (k : Nat) (hk : k < xs.length) (n : Nat) (x₁ : (⟨2, ![4000, n]⟩ : Shape).Idx → α)
    (hxk : xs[k] = ⟨⟨2, ![4000, n]⟩, x₁⟩) (pre : Nat)
    (hpre : (((xs.take k).map (·.1)).map fun s => if h : s.rank = S4000x81.rank then s.size ((1 : Fin S4000x81.rank).cast h.symm) else 0).sum = pre)
    (q : Fin n) (hq : pre + q.val = j.val) :
    concatenate S4000x81 1 xs h (ix2 p j) = x₁ (ix2 p q) :=
  concatenate_apply_piece 1 xs h (ix2 p j) k hk _ x₁ hxk rfl pre hpre (ix2 p q)
    (fun b hb => match b, hb with
      | ⟨0, _⟩, _ => rfl
      | ⟨1, _⟩, hb => absurd rfl hb) hq

/-- The seven blocks laid side by side, read at row p and column j. -/
theorem cat_apply (v0 : Vec Ideal S4000x10 .f32) (v1 : Vec Ideal S4000x1 .f32) (v3 v5 v7 v9 : Vec Ideal S4000x15 .f32)
    (v11 : Vec Ideal S4000x10 .f32) (p : Fin 4000) (j : Fin 81) :
    concatenate S4000x81 1 [⟨S4000x10, v0⟩, ⟨S4000x1, v1⟩, ⟨S4000x15, v3⟩, ⟨S4000x15, v5⟩, ⟨S4000x15, v7⟩, ⟨S4000x15, v9⟩, ⟨S4000x10, v11⟩]
        concatenates_S4000x10_S4000x1_S4000x15_S4000x15_S4000x15_S4000x15_S4000x10_S4000x81_d1 (ix2 p j)
      = Spec.cat81 (fun j => v0 (ix2 p j)) (v1 (ix2 p (0 : Fin 1))) (fun j => v3 (ix2 p j)) (fun j => v5 (ix2 p j))
          (fun j => v7 (ix2 p j)) (fun j => v9 (ix2 p j)) (fun j => v11 (ix2 p j)) j := by
  unfold Spec.cat81
  split_ifs with h0 h1 h2 h3 h4 h5
  · exact cat_piece _ _ p j 0 (by simp) 10 v0 rfl 0 rfl ⟨j.val, h0⟩ (by simp)
  · exact cat_piece _ _ p j 1 (by simp) 1 v1 rfl 10 rfl (0 : Fin 1) (by simp; omega)
  · exact cat_piece _ _ p j 2 (by simp) 15 v3 rfl 11 rfl ⟨j.val - 11, by omega⟩ (by simp; omega)
  · exact cat_piece _ _ p j 3 (by simp) 15 v5 rfl 26 rfl ⟨j.val - 26, by omega⟩ (by simp; omega)
  · exact cat_piece _ _ p j 4 (by simp) 15 v7 rfl 41 rfl ⟨j.val - 41, by omega⟩ (by simp; omega)
  · exact cat_piece _ _ p j 5 (by simp) 15 v9 rfl 56 rfl ⟨j.val - 56, by omega⟩ (by simp; omega)
  · exact cat_piece _ _ p j 6 (by simp) 10 v11 rfl 71 rfl ⟨j.val - 71, by omega⟩ (by simp; omega)

/-! The second product's operand indices, axis by axis. -/
theorem lhsB_0 (j : S4000x10.Idx) (k : dot_S4000x10_S10x10_S4000x10_1_0_0_1_n_n.contr.Idx) :
    (dot_S4000x10_S10x10_S4000x10_1_0_0_1_n_n.lhsIdx j k 0).val = (j 0).val := by
  simp [DotDims.lhsIdx, dot_S4000x10_S10x10_S4000x10_1_0_0_1_n_n]; rfl
theorem lhsB_1 (j : S4000x10.Idx) (k : dot_S4000x10_S10x10_S4000x10_1_0_0_1_n_n.contr.Idx) :
    (dot_S4000x10_S10x10_S4000x10_1_0_0_1_n_n.lhsIdx j k 1).val = (k ⟨0, by decide⟩).val :=
  dot_S4000x10_S10x10_S4000x10_1_0_0_1_n_n.lhsIdx_val_of_single rfl j k
theorem rhsB_0 (j : S4000x10.Idx) (k : dot_S4000x10_S10x10_S4000x10_1_0_0_1_n_n.contr.Idx) :
    (dot_S4000x10_S10x10_S4000x10_1_0_0_1_n_n.rhsIdx j k 0).val = (k ⟨0, by decide⟩).val :=
  dot_S4000x10_S10x10_S4000x10_1_0_0_1_n_n.rhsIdx_val_of_single rfl j k
theorem rhsB_1 (j : S4000x10.Idx) (k : dot_S4000x10_S10x10_S4000x10_1_0_0_1_n_n.contr.Idx) :
    (dot_S4000x10_S10x10_S4000x10_1_0_0_1_n_n.rhsIdx j k 1).val = (j 1).val := by
  simp [DotDims.rhsIdx, dot_S4000x10_S10x10_S4000x10_1_0_0_1_n_n]; rfl

/-- The second product read at row p, column c: the sum over the 10 hidden columns against the weights' column. -/
theorem mmB_apply (x : FVec Ideal S4000x10 .bf16) (w : FVec Ideal S10x10 .bf16) (p : Fin 4000) (c : Fin 10) :
    matmul dot_S4000x10_S10x10_S4000x10_1_0_0_1_n_n none x w (constant (F := Ideal) S4000x10 .f32 0x00000000#32) (ix2 p c)
      = ∑ j : Fin 10, x (ix2 p j) * w (ix2 j c) := by
  simp only [matmul]
  rw [Ideal.matmul_constant_zero_apply,
    ← Equiv.sum_comp (contrEquiv1 dot_S4000x10_S10x10_S4000x10_1_0_0_1_n_n 10 rfl rfl).symm]
  refine Finset.sum_congr rfl fun j _ => ?_
  have hk := contrEquiv1_symm_val dot_S4000x10_S10x10_S4000x10_1_0_0_1_n_n 10 rfl rfl j
  congr 2
  · funext a; refine Fin.ext ?_
    match a with
    | ⟨0, _⟩ => exact lhsB_0 _ _
    | ⟨1, _⟩ => exact (lhsB_1 _ _).trans hk
  · funext a; refine Fin.ext ?_
    match a with
    | ⟨0, _⟩ => exact (rhsB_0 _ _).trans hk
    | ⟨1, _⟩ => exact rhsB_1 _ _

/-- A bias vector, viewed as one row and repeated over the 4000 rows, reads its entry at the column. -/
theorem bias_apply (v : Vec Ideal S10 .f32) (p : Fin 4000) (c : Fin 10) :
    broadcastTo S4000x10 (shapeCast S1x10 v shapeCasts_S10_S1x10) broadcasts_S1x10_S4000x10 (ix2 p c) = v (ix1 c) := by
  rw [broadcastTo_1b_ab_apply, shapeCast_a_1a_apply]

/-- The rectifier as the body spells it — compare with the zero word, scale by the slope word, choose. -/
theorem leaky_eq (x : EReal) :
    Scalar.select (FloatOps.cmpf (F := Ideal) (φ := .f32) .oge x (Scalar.ofBits (F := Ideal) .f32 0x00000000#32)) x
        ((Scalar.ofBits (F := Ideal) .f32 0x3DCCCCCD#32 : EReal) * x) = Spec.leaky x := by
  show Scalar.select (Ideal.cmp .oge x (Ideal.ofBits .f32 0x00000000#32)) x (Ideal.ofBits .f32 0x3DCCCCCD#32 * x) = _
  rw [Ideal.ofBits_zero_f32]
  rfl

/-- The first affine layer at row p, hidden column c, over the row's 81 features. -/
theorem layer1_apply (v0 : Vec Ideal S4000x10 .f32) (v1 : Vec Ideal S4000x1 .f32) (v3 v5 v7 v9 : Vec Ideal S4000x15 .f32)
    (v11 : Vec Ideal S4000x10 .f32) (v15 : Vec Ideal S81x10 .bf16) (v18 : Vec Ideal S10 .f32) (p : Fin 4000) (c : Fin 10) :
    addf (matmul (φ₂ := .bf16) dot_S4000x81_S81x10_S4000x10_1_0_0_1_n_n none
          (truncf .bf16 (concatenate S4000x81 1 [⟨S4000x10, v0⟩, ⟨S4000x1, v1⟩, ⟨S4000x15, v3⟩, ⟨S4000x15, v5⟩, ⟨S4000x15, v7⟩, ⟨S4000x15, v9⟩, ⟨S4000x10, v11⟩]
            concatenates_S4000x10_S4000x1_S4000x15_S4000x15_S4000x15_S4000x15_S4000x10_S4000x81_d1) bitsLt_bf16_f32)
          v15 (constant (F := Ideal) S4000x10 .f32 0x00000000#32))
        (broadcastTo S4000x10 (shapeCast S1x10 v18 shapeCasts_S10_S1x10) broadcasts_S1x10_S4000x10) (ix2 p c)
      = Spec.dense v15 v18 (Spec.cat81 (fun j => v0 (ix2 p j)) (v1 (ix2 p (0 : Fin 1))) (fun j => v3 (ix2 p j)) (fun j => v5 (ix2 p j))
          (fun j => v7 (ix2 p j)) (fun j => v9 (ix2 p j)) (fun j => v11 (ix2 p j))) c := by
  rw [addf_apply, mmA_apply, bias_apply]
  unfold Spec.dense
  refine congrArg (· + v18 (ix1 c)) (Finset.sum_congr rfl fun j _ => congrArg (· * v15 (ix2 j c)) ?_)
  rw [truncf_apply, cat_apply]

theorem k1_pay1_apply (v0 : Vec Ideal S4000x10 .f32) (v1 : Vec Ideal S4000x1 .f32) (v3 v5 v7 v9 : Vec Ideal S4000x15 .f32)
    (v11 : Vec Ideal S4000x10 .f32) (v15 : Vec Ideal S81x10 .bf16) (v18 : Vec Ideal S10 .f32) (v28 : Vec Ideal S10x10 .bf16)
    (v31 : Vec Ideal S10 .f32) (p : Fin 4000) (k : Fin 10) :
    k1_pay1 (F := Ideal) v0 v1 v3 v5 v7 v9 v11 v15 v18 v28 v31 (ix2 p k)
      = Spec.mlp v15 v18 v28 v31
          (Spec.cat81 (fun j => v0 (ix2 p j)) (v1 (ix2 p (0 : Fin 1))) (fun j => v3 (ix2 p j)) (fun j => v5 (ix2 p j))
            (fun j => v7 (ix2 p j)) (fun j => v9 (ix2 p j)) (fun j => v11 (ix2 p j))) k := by
  unfold k1_pay1
  rw [shapeCast_self v1, shapeCast_self v3, shapeCast_self v5, shapeCast_self v7, shapeCast_self v9, shapeCast_self v11,
    shapeCast_self v15, shapeCast_self v28]
  rw [addf_apply, mmB_apply, bias_apply]
  unfold Spec.mlp
  unfold Spec.dense
  refine congrArg (· + v31 (ix1 k)) (Finset.sum_congr rfl fun j _ => congrArg (· * v28 (ix2 j k)) ?_)
  rw [truncf_apply, select_apply, cmpf_apply, mulf_apply, broadcast_apply, broadcast_apply, layer1_apply]
  exact leaky_eq _

end Cert.KernelIdeal.Body1

end
-- ==== Proof.KArr1.lean ====
/-
  The second kernel's result array, whole: row `i` of the `[100000, 10]` table is the perceptron of node `i`'s 81
  features, the seven input arrays' rows laid side by side, whatever the buffers hold when the region is entered.
-/
import proofs.«405589_j74663711473945_2_alg».proof.Proof.Gen.KernelIdeal.Frame
import proofs.«405589_j74663711473945_2_alg».proof.Proof.KBody1
import Idealize.ShloMosaic.Lib.Pipeline.Value

set_option maxRecDepth 16384

noncomputable section

namespace Cert.KernelIdeal.Arr1

open Idealize.ShloMosaic Idealize.ShloMosaic.ValueIdx Idealize.SL.Sem Cert.KernelIdeal Cert.KernelIdeal.Gen
open Idealize.ShloMosaic.TcCoe
open Idealize.ShloMosaic.Pipeline (Dat Cfg Window)

variable (V : (c : Dev nD) → (b : Ref sig .tc) → Buf (Elt Ideal) ((c : Thread nD τ).loc b))

/-- A pair of zero offsets, and a single one, however they are spelt. -/
theorem zero2 : (![0, 0] : Fin 2 → Nat) = fun _ => 0 := funext fun a => by fin_cases a <;> rfl
theorem zero1 : (![0] : Fin 1 → Nat) = fun _ => 0 := funext fun a => by fin_cases a; rfl

/-- Node `i`'s result at column `k` from the seven tables and the four weight arrays. -/
def nodeRow (a0 : S100000x10.Idx → EReal) (a1 : S100000x1.Idx → EReal) (a2 a3 a4 a5 : S100000x15.Idx → EReal)
    (a6 : S100000x10.Idx → EReal) (w1 : S81x10.Idx → EReal) (b1 : S10.Idx → EReal) (w2 : S10x10.Idx → EReal)
    (b2 : S10.Idx → EReal) (i : Fin 100000) (k : Fin 10) : EReal :=
  Spec.mlp w1 b1 w2 b2
    (Spec.cat81 (fun j => a0 (ix2 i j)) (a1 (ix2 i (0 : Fin 1))) (fun j => a2 (ix2 i j)) (fun j => a3 (ix2 i j))
      (fun j => a4 (ix2 i j)) (fun j => a5 (ix2 i j)) (fun j => a6 (ix2 i j))) k

/-- The whole result table as one function of its index. -/
def nodeTable (a0 : S100000x10.Idx → EReal) (a1 : S100000x1.Idx → EReal) (a2 a3 a4 a5 : S100000x15.Idx → EReal)
    (a6 : S100000x10.Idx → EReal) (w1 : S81x10.Idx → EReal) (b1 : S10.Idx → EReal) (w2 : S10x10.Idx → EReal)
    (b2 : S10.Idx → EReal) : S100000x10.Idx → EReal :=
  fun j => nodeRow a0 a1 a2 a3 a4 a5 a6 w1 b1 w2 b2 (j 0) (j 1)

/-- What one grid point leaves in the result's buffer, row `p` column `k`: the perceptron of the 81 numbers on row `p`
    of the seven input blocks. -/
theorem block_row (x0 : Vec Ideal S4000x10 .f32) (x1 : Vec Ideal S4000x1 .f32) (x2 x3 x4 x5 : Vec Ideal S4000x15 .f32)
    (x6 : Vec Ideal S4000x10 .f32) (x7 : Vec Ideal S81x10 .bf16) (x8 : Vec Ideal S10 .f32) (x9 : Vec Ideal S10x10 .bf16)
    (x10 : Vec Ideal S10 .f32) (p : Fin 4000) (k : Fin 10) :
    out1_11 (F := Ideal) x0 x1 x2 x3 x4 x5 x6 x7 x8 x9 x10 (ix2 p k)
      = Spec.mlp x7 x8 x9 x10
          (Spec.cat81 (fun j => x0 (ix2 p j)) (x1 (ix2 p (0 : Fin 1))) (fun j => x2 (ix2 p j)) (fun j => x3 (ix2 p j))
            (fun j => x4 (ix2 p j)) (fun j => x5 (ix2 p j)) (fun j => x6 (ix2 p j))) k := by
  unfold out1_11
  rw [View.canon_unit_zero zero2]
  simp only [View.ld_unit_zero (S := S4000x10) zero2, View.ld_unit_zero (S := S4000x1) zero2,
    View.ld_unit_zero (S := S4000x15) zero2, View.ld_unit_zero (S := S81x10) zero2, View.ld_unit_zero (S := S10x10) zero2,
    View.ld_unit_zero (S := S10) zero1]
  exact Body1.k1_pay1_apply x0 x1 x2 x3 x4 x5 x6 x7 x8 x9 x10 p k

/-- The windows' index maps, decided once over the 25 grid points: a row-blocked window's block index is the point's number
    on the row axis and zero on the column axis; a weight or bias window's is zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ win1_8.index t (0 : Fin 1) = 0
    ∧ (win1_9.index t (0 : Fin 2) = 0 ∧ win1_9.index t (1 : Fin 2) = 0)
    ∧ win1_10.index t (0 : Fin 1) = 0
    ∧ (win1_11.index t (0 : Fin 2) = t.val ∧ win1_11.index t (1 : Fin 2) = 0) :=
  (by decide +kernel : ∀ t : Fin grid1.N, _)

/-! ## Each input block read where the array holds it -/

/-- Window 0 (features 0–9 of the row of 81): row `p` of its block at point `t` is row `4000 t + p` of its table. -/
theorem rows0 (c : Dev nD) (t : Fin cfg1.N) (p : Fin 4000) (q : Fin 10) (i : Fin 100000) (hi : i.val = 4000 * t.val + p.val) :
    (iblk1 (F := Ideal) V c 0 t : Vec Ideal S4000x10 .f32) (ix2 p q)
      = (V c (Pipeline.arrRef spec1 0) : S100000x10.Idx → EReal) (ix2 i q) := by
  obtain ⟨e0, e1⟩ := (idx_facts t).1
  have h : ((cfg1.win 0).blk t).view.emb (ix2 p q) = (ix2 i q : S100000x10.Idx) := by
    funext a; apply Fin.ext
    match a with
    | ⟨0, _⟩ => show win1_0.index t (0 : Fin 2) * 4000 + 1 * p.val = i.val; omega
    | ⟨1, _⟩ => show win1_0.index t (1 : Fin 2) * 10 + 1 * q.val = q.val; omega
  unfold iblk1
  rw [View.read_apply]
  exact congrArg (V c (Pipeline.arrRef spec1 0)) h

/-- Window 1 (feature 10): row `p` of its block at point `t` is row `4000 t + p` of its table. -/
theorem rows1 (c : Dev nD) (t : Fin cfg1.N) (p : Fin 4000) (q : Fin 1) (i : Fin 100000) (hi : i.val = 4000 * t.val + p.val) :
    (iblk1 (F := Ideal) V c 1 t : Vec Ideal S4000x1 .f32) (ix2 p q)
      = (V c (Pipeline.arrRef spec1 1) : S100000x1.Idx → EReal) (ix2 i q) := by
  obtain ⟨e0, e1⟩ := (idx_facts t).2.1
  have h : ((cfg1.win 1).blk t).view.emb (ix2 p q) = (ix2 i q : S100000x1.Idx) := by
    funext a; apply Fin.ext
    match a with
    | ⟨0, _⟩ => show win1_1.index t (0 : Fin 2) * 4000 + 1 * p.val = i.val; omega
    | ⟨1, _⟩ => show win1_1.index t (1 : Fin 2) * 1 + 1 * q.val = q.val; omega
  unfold iblk1
  rw [View.read_apply]
  exact congrArg (V c (Pipeline.arrRef spec1 1)) h

/-- Window 2 (features 11–25): row `p` of its block at point `t` is row `4000 t + p` of its table. -/
theorem rows2 (c : Dev nD) (t : Fin cfg1.N) (p : Fin 4000) (q : Fin 15) (i : Fin 100000) (hi : i.val = 4000 * t.val + p.val) :
    (iblk1 (F := Ideal) V c 2 t : Vec Ideal S4000x15 .f32) (ix2 p q)
      = (V c (Pipeline.arrRef spec1 2) : S100000x15.Idx → EReal) (ix2 i q) := by
  obtain ⟨e0, e1⟩ := (idx_facts t).2.2.1
  have h : ((cfg1.win 2).blk t).view.emb (ix2 p q) = (ix2 i q : S100000x15.Idx) := by
    funext a; apply Fin.ext
    match a with
    | ⟨0, _⟩ => show win1_2.index t (0 : Fin 2) * 4000 + 1 * p.val = i.val; omega
    | ⟨1, _⟩ => show win1_2.index t (1 : Fin 2) * 15 + 1 * q.val = q.val; omega
  unfold iblk1
  rw [View.read_apply]
  exact congrArg (V c (Pipeline.arrRef spec1 2)) h

/-- Window 3 (features 26–40): row `p` of its block at point `t` is row `4000 t + p` of its table. -/
theorem rows3 (c : Dev nD) (t : Fin cfg1.N) (p : Fin 4000) (q : Fin 15) (i : Fin 100000) (hi : i.val = 4000 * t.val + p.val) :
    (iblk1 (F := Ideal) V c 3 t : Vec Ideal S4000x15 .f32) (ix2 p q)
      = (V c (Pipeline.arrRef spec1 3) : S100000x15.Idx → EReal) (ix2 i q) := by
  obtain ⟨e0, e1⟩ := (idx_facts t).2.2.2.1
  have h : ((cfg1.win 3).blk t).view.emb (ix2 p q) = (ix2 i q : S100000x15.Idx) := by
    funext a; apply Fin.ext
    match a with
    | ⟨0, _⟩ => show win1_3.index t (0 : Fin 2) * 4000 + 1 * p.val = i.val; omega
    | ⟨1, _⟩ => show win1_3.index t (1 : Fin 2) * 15 + 1 * q.val = q.val; omega
  unfold iblk1
  rw [View.read_apply]
  exact congrArg (V c (Pipeline.arrRef spec1 3)) h

/-- Window 4 (features 41–55): row `p` of its block at point `t` is row `4000 t + p` of its table. -/
theorem rows4 (c : Dev nD) (t : Fin cfg1.N) (p : Fin 4000) (q : Fin 15) (i : Fin 100000) (hi : i.val = 4000 * t.val + p.val) :
    (iblk1 (F := Ideal) V c 4 t : Vec Ideal S4000x15 .f32) (ix2 p q)
      = (V c (Pipeline.arrRef spec1 4) : S100000x15.Idx → EReal) (ix2 i q) := by
  obtain ⟨e0, e1⟩ := (idx_facts t).2.2.2.2.1
  have h : ((cfg1.win 4).blk t).view.emb (ix2 p q) = (ix2 i q : S100000x15.Idx) := by
    funext a; apply Fin.ext
    match a with
    | ⟨0, _⟩ => show win1_4.index t (0 : Fin 2) * 4000 + 1 * p.val = i.val; omega
    | ⟨1, _⟩ => show win1_4.index t (1 : Fin 2) * 15 + 1 * q.val = q.val; omega
  unfold iblk1
  rw [View.read_apply]
  exact congrArg (V c (Pipeline.arrRef spec1 4)) h

/-- Window 5 (features 56–70): row `p` of its block at point `t` is row `4000 t + p` of its table. -/
theorem rows5 (c : Dev nD) (t : Fin cfg1.N) (p : Fin 4000) (q : Fin 15) (i : Fin 100000) (hi : i.val = 4000 * t.val + p.val) :
    (iblk1 (F := Ideal) V c 5 t : Vec Ideal S4000x15 .f32) (ix2 p q)
      = (V c (Pipeline.arrRef spec1 5) : S100000x15.Idx → EReal) (ix2 i q) := by
  obtain ⟨e0, e1⟩ := (idx_facts t).2.2.2.2.2.1
  have h : ((cfg1.win 5).blk t).view.emb (ix2 p q) = (ix2 i q : S100000x15.Idx) := by
    funext a; apply Fin.ext
    match a with
    | ⟨0, _⟩ => show win1_5.index t (0 : Fin 2) * 4000 + 1 * p.val = i.val; omega
    | ⟨1, _⟩ => show win1_5.index t (1 : Fin 2) * 15 + 1 * q.val = q.val; omega
  unfold iblk1
  rw [View.read_apply]
  exact congrArg (V c (Pipeline.arrRef spec1 5)) h

/-- Window 6 (features 71–80): row `p` of its block at point `t` is row `4000 t + p` of its table. -/
theorem rows6 (c : Dev nD) (t : Fin cfg1.N) (p : Fin 4000) (q : Fin 10) (i : Fin 100000) (hi : i.val = 4000 * t.val + p.val) :
    (iblk1 (F := Ideal) V c 6 t : Vec Ideal S4000x10 .f32) (ix2 p q)
      = (V c (Pipeline.arrRef spec1 6) : S100000x10.Idx → EReal) (ix2 i q) := by
  obtain ⟨e0, e1⟩ := (idx_facts t).2.2.2.2.2.2.1
  have h : ((cfg1.win 6).blk t).view.emb (ix2 p q) = (ix2 i q : S100000x10.Idx) := by
    funext a; apply Fin.ext
    match a with
    | ⟨0, _⟩ => show win1_6.index t (0 : Fin 2) * 4000 + 1 * p.val = i.val; omega
    | ⟨1, _⟩ => show win1_6.index t (1 : Fin 2) * 10 + 1 * q.val = q.val; omega
  unfold iblk1
  rw [View.read_apply]
  exact congrArg (V c (Pipeline.arrRef spec1 6)) h

/-- Window 7 (the first layer's weights): its block is the whole array at every point. -/
theorem whole7 (c : Dev nD) (t : Fin cfg1.N) :
    (iblk1 (F := Ideal) V c 7 t : Vec Ideal S81x10 .bf16) = (V c (Pipeline.arrRef spec1 7) : S81x10.Idx → EReal) := by
  have e := (idx_facts t).2.2.2.2.2.2.2.1
  funext x
  have h : ((cfg1.win 7).blk t).view.emb x = (x : S81x10.Idx) := by
    funext a; apply Fin.ext
    match a with
    | ⟨0, _⟩ => show win1_7.index t (0 : Fin 2) * 81 + 1 * (x 0).val = (x 0).val; have := e.1; omega
    | ⟨1, _⟩ => show win1_7.index t (1 : Fin 2) * 10 + 1 * (x 1).val = (x 1).val; have := e.2; omega
  unfold iblk1
  rw [View.read_apply]
  exact congrArg (V c (Pipeline.arrRef spec1 7)) h

/-- Window 8 (the first layer's bias): its block is the whole array at every point. -/
theorem whole8 (c : Dev nD) (t : Fin cfg1.N) :
    (iblk1 (F := Ideal) V c 8 t : Vec Ideal S10 .f32) = (V c (Pipeline.arrRef spec1 8) : S10.Idx → EReal) := by
  have e := (idx_facts t).2.2.2.2.2.2.2.2.1
  funext x
  have h : ((cfg1.win 8).blk t).view.emb x = (x : S10.Idx) := by
    funext a; apply Fin.ext
    match a with
    | ⟨0, _⟩ => show win1_8.index t (0 : Fin 1) * 10 + 1 * (x 0).val = (x 0).val; omega
  unfold iblk1
  rw [View.read_apply]
  exact congrArg (V c (Pipeline.arrRef spec1 8)) h

/-- Window 9 (the second layer's weights): its block is the whole array at every point. -/
theorem whole9 (c : Dev nD) (t : Fin cfg1.N) :
    (iblk1 (F := Ideal) V c 9 t : Vec Ideal S10x10 .bf16) = (V c (Pipeline.arrRef spec1 9) : S10x10.Idx → EReal) := by
  have e := (idx_facts t).2.2.2.2.2.2.2.2.2.1
  funext x
  have h : ((cfg1.win 9).blk t).view.emb x = (x : S10x10.Idx) := by
    funext a; apply Fin.ext
    match a with
    | ⟨0, _⟩ => show win1_9.index t (0 : Fin 2) * 10 + 1 * (x 0).val = (x 0).val; have := e.1; omega
    | ⟨1, _⟩ => show win1_9.index t (1 : Fin 2) * 10 + 1 * (x 1).val = (x 1).val; have := e.2; omega
  unfold iblk1
  rw [View.read_apply]
  exact congrArg (V c (Pipeline.arrRef spec1 9)) h

/-- Window 10 (the second layer's bias): its block is the whole array at every point. -/
theorem whole10 (c : Dev nD) (t : Fin cfg1.N) :
    (iblk1 (F := Ideal) V c 10 t : Vec Ideal S10 .f32) = (V c (Pipeline.arrRef spec1 10) : S10.Idx → EReal) := by
  have e := (idx_facts t).2.2.2.2.2.2.2.2.2.2.1
  funext x
  have h : ((cfg1.win 10).blk t).view.emb x = (x : S10.Idx) := by
    funext a; apply Fin.ext
    match a with
    | ⟨0, _⟩ => show win1_10.index t (0 : Fin 1) * 10 + 1 * (x 0).val = (x 0).val; omega
  unfold iblk1
  rw [View.read_apply]
  exact congrArg (V c (Pipeline.arrRef spec1 10)) h

/-! ## From the blocks to the table -/

/-- One point's stored block against the node table, over plain arrays: if the seven row-blocked inputs hold rows
    `4000 T …` of their tables and the four weight blocks are their arrays, row `p` of what is stored is row
    `4000 T + p` of the node table. -/
theorem point_row (x0 : Vec Ideal S4000x10 .f32) (x1 : Vec Ideal S4000x1 .f32) (x2 x3 x4 x5 : Vec Ideal S4000x15 .f32)
    (x6 : Vec Ideal S4000x10 .f32) (x7 : Vec Ideal S81x10 .bf16) (x8 : Vec Ideal S10 .f32) (x9 : Vec Ideal S10x10 .bf16)
    (x10 : Vec Ideal S10 .f32)
    (a0 : S100000x10.Idx → EReal) (a1 : S100000x1.Idx → EReal) (a2 a3 a4 a5 : S100000x15.Idx → EReal)
    (a6 : S100000x10.Idx → EReal) (w1 : S81x10.Idx → EReal) (b1 : S10.Idx → EReal) (w2 : S10x10.Idx → EReal)
    (b2 : S10.Idx → EReal) (p : Fin 4000) (k : Fin 10) (i : Fin 100000)
    (h0 : ∀ q, x0 (ix2 p q) = a0 (ix2 i q)) (h1 : ∀ q, x1 (ix2 p q) = a1 (ix2 i q)) (h2 : ∀ q, x2 (ix2 p q) = a2 (ix2 i q))
    (h3 : ∀ q, x3 (ix2 p q) = a3 (ix2 i q)) (h4 : ∀ q, x4 (ix2 p q) = a4 (ix2 i q)) (h5 : ∀ q, x5 (ix2 p q) = a5 (ix2 i q))
    (h6 : ∀ q, x6 (ix2 p q) = a6 (ix2 i q)) (h7 : x7 = w1) (h8 : x8 = b1) (h9 : x9 = w2) (h10 : x10 = b2) :
    out1_11 (F := Ideal) x0 x1 x2 x3 x4 x5 x6 x7 x8 x9 x10 (ix2 p k)
      = nodeTable a0 a1 a2 a3 a4 a5 a6 w1 b1 w2 b2 (ix2 i k) := by
  rw [block_row]
  subst h7 h8 h9 h10
  show _ = nodeRow a0 a1 a2 a3 a4 a5 a6 x7 x8 x9 x10 i k
  unfold nodeRow
  simp only [h0, h1, h2, h3, h4, h5, h6]

/-- What point `t` writes back is block `t` of the node table of the arrays as the region finds them. -/
theorem flushed_eq (c : Dev nD) (t : Fin cfg1.N) :
    (dat1 (F := Ideal) V c).flushed 11 t
      = ((cfg1.win 11).blk t).view.read (Elt Ideal)
          (nodeTable (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))
            (V c (Pipeline.arrRef spec1 6)) (V c (Pipeline.arrRef spec1 7)) (V c (Pipeline.arrRef spec1 8))
            (V c (Pipeline.arrRef spec1 9)) (V c (Pipeline.arrRef spec1 10))) := by
  show (cfg1.win 11).cut (grid1.coords t) ((dat1 V c).after 11 t) = _
  rw [after1_11]
  funext j
  have hj0 : (j 0).val < 4000 := (j 0).isLt
  have hj1 : (j 1).val < 10 := (j 1).isLt
  have ht : t.val < 25 := t.isLt
  obtain ⟨e0, e1⟩ := (idx_facts t).2.2.2.2.2.2.2.2.2.2.2
  have hx : (cfg1.win 11).xinj (grid1.coords t) j = (ix2 (⟨(j 0).val, hj0⟩ : Fin 4000) (⟨(j 1).val, hj1⟩ : Fin 10) : S4000x10.Idx) := by
    funext a
    match a with
    | ⟨0, _⟩ => rfl
    | ⟨1, _⟩ => rfl
  have hy : ((cfg1.win 11).blk t).view.emb j
      = (ix2 (⟨4000 * t.val + (j 0).val, by omega⟩ : Fin 100000) (⟨(j 1).val, hj1⟩ : Fin 10) : S100000x10.Idx) := by
    funext a; apply Fin.ext
    match a with
    | ⟨0, _⟩ => show win1_11.index t (0 : Fin 2) * 4000 + 1 * (j 0).val = 4000 * t.val + (j 0).val; omega
    | ⟨1, _⟩ => show win1_11.index t (1 : Fin 2) * 10 + 1 * (j 1).val = (j 1).val; omega
  rw [View.read_apply, hy]
  refine (congrArg (out1_11 (F := Ideal) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)) hx).trans ?_
  exact point_row (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))
    (V c (Pipeline.arrRef spec1 9)) (V c (Pipeline.arrRef spec1 10))
    ⟨(j 0).val, hj0⟩ ⟨(j 1).val, hj1⟩ ⟨4000 * t.val + (j 0).val, by omega⟩
    (fun q => rows0 V c t _ q _ rfl) (fun q => rows1 V c t _ q _ rfl) (fun q => rows2 V c t _ q _ rfl)
    (fun q => rows3 V c t _ q _ rfl) (fun q => rows4 V c t _ q _ rfl) (fun q => rows5 V c t _ q _ rfl)
    (fun q => rows6 V c t _ q _ rfl) (whole7 V c t) (whole8 V c t) (whole9 V c t) (whole10 V c t)

/-- An index of the table is in point `t`'s block iff each coordinate is in the block's range on its axis. -/
theorem mem_blk (t : Fin cfg1.N) (i : S100000x10.Idx) :
    i ∈ ((cfg1.win 11).blk t).view.set ↔ ∀ a : Fin 2, win1_11.index t a * S4000x10.size a ≤ (i a).val
      ∧ (i a).val < win1_11.index t a * S4000x10.size a + S4000x10.size a := by
  show i ∈ ((View.whole main_v68).slice (win1_11.rect t)).set ↔ _
  rw [View.set_slice_whole, Rect.mem_set_unit]
  exact Iff.rfl

/-- Row `r` of the table lies in the block of point `r / 4000`, and every point writes its block back. -/
theorem covered (i : S100000x10.Idx) :
    ∃ t : Fin cfg1.N, (cfg1.win 11).flush t = true ∧ i ∈ ((cfg1.win 11).blk t).view.set := by
  have hi0 : (i 0).val < 100000 := (i 0).isLt
  have hi1 : (i 1).val < 10 := (i 1).isLt
  have hN : (i 0).val / 4000 < cfg1.N := by show (i 0).val / 4000 < 25; omega
  refine ⟨⟨(i 0).val / 4000, hN⟩, flush1_11 _, ?_⟩
  rw [mem_blk]
  obtain ⟨e0, e1⟩ := (idx_facts ⟨(i 0).val / 4000, hN⟩).2.2.2.2.2.2.2.2.2.2.2
  intro a
  match a with
  | ⟨0, _⟩ =>
    show win1_11.index ⟨(i 0).val / 4000, hN⟩ (0 : Fin 2) * 4000 ≤ (i 0).val
      ∧ (i 0).val < win1_11.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_11.index ⟨(i 0).val / 4000, hN⟩ (1 : Fin 2) * 10 ≤ (i 1).val
      ∧ (i 1).val < win1_11.index ⟨(i 0).val / 4000, hN⟩ (1 : Fin 2) * 10 + 10
    rw [e1]; omega

/-- The table after the whole grid is the node table of the arrays as the region finds them. -/
theorem table_eq (c : Dev nD) :
    (dat1 (F := Ideal) V c).arrAt 11 cfg1.N
      = nodeTable (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8))
          (V c (Pipeline.arrRef spec1 9)) (V c (Pipeline.arrRef spec1 10)) :=
  (dat1 (F := Ideal) V c).arrAt_eq_of_cover 11 _ (fun t _ => flushed_eq V c t) covered

theorem arr1_apply (c : Dev nD) (i : Fin 100000) (k : Fin 10) :
    ((dat1 (F := Ideal) V c).arrAt 11 cfg1.N : S100000x10.Idx → EReal) (ix2 i k)
      = Spec.mlp (V c (Pipeline.arrRef spec1 7) : S81x10.Idx → EReal) (V c (Pipeline.arrRef spec1 8) : S10.Idx → EReal)
          (V c (Pipeline.arrRef spec1 9) : S10x10.Idx → EReal) (V c (Pipeline.arrRef spec1 10) : S10.Idx → EReal)
          (Spec.cat81 (fun j => (V c (Pipeline.arrRef spec1 0) : S100000x10.Idx → EReal) (ix2 i j))
            ((V c (Pipeline.arrRef spec1 1) : S100000x1.Idx → EReal) (ix2 i (0 : Fin 1)))
            (fun j => (V c (Pipeline.arrRef spec1 2) : S100000x15.Idx → EReal) (ix2 i j))
            (fun j => (V c (Pipeline.arrRef spec1 3) : S100000x15.Idx → EReal) (ix2 i j))
            (fun j => (V c (Pipeline.arrRef spec1 4) : S100000x15.Idx → EReal) (ix2 i j))
            (fun j => (V c (Pipeline.arrRef spec1 5) : S100000x15.Idx → EReal) (ix2 i j))
            (fun j => (V c (Pipeline.arrRef spec1 6) : S100000x10.Idx → EReal) (ix2 i j))) k := by
  rw [table_eq V c]
  rfl

end Cert.KernelIdeal.Arr1

end
-- ==== Proof.KArgs.lean ====
/-
  The argument arrays of the kernel's program as the core finds them at launch, under short names, and the three index
  vectors read off them: each edge's source and target word (rows 0 and 1 of `edge_index`) and each node's batch word.
-/
import proofs.«405589_j74663711473945_2_alg».proof.KernelIdeal
import proofs.«405589_j74663711473945_2_alg».proof.Proof.Spec
import Idealize.ShloMosaic.Lib.ValueIdx

noncomputable section

namespace Cert.KernelIdeal.Args

open Idealize.ShloMosaic Idealize.ShloMosaic.ValueIdx Idealize.ShloMosaic.TcCoe Idealize.SL.Sem Cert.KernelIdeal

variable (m : (ℓ : Loc nD τ sig) → Buf (Elt Ideal) ℓ)

abbrev xs (c : Dev nD) : S100000x10.Idx → EReal := m ((c : Thread nD τ).loc main_arg0)
abbrev xt (c : Dev nD) : S100000x5.Idx → EReal := m ((c : Thread nD τ).loc main_arg1)
abbrev ea (c : Dev nD) : S4000000x10.Idx → EReal := m ((c : Thread nD τ).loc main_arg2)
abbrev uu (c : Dev nD) : S64x10.Idx → EReal := m ((c : Thread nD τ).loc main_arg3)
abbrev ei (c : Dev nD) : S2x4000000.Idx → BitVec 32 := m ((c : Thread nD τ).loc main_arg4)
abbrev bs (c : Dev nD) : S100000.Idx → BitVec 32 := m ((c : Thread nD τ).loc main_arg5)
abbrev w1a (c : Dev nD) : S15x15.Idx → EReal := m ((c : Thread nD τ).loc main_arg6)
abbrev b1a (c : Dev nD) : S15.Idx → EReal := m ((c : Thread nD τ).loc main_arg7)
abbrev w2a (c : Dev nD) : S15x15.Idx → EReal := m ((c : Thread nD τ).loc main_arg8)
abbrev b2a (c : Dev nD) : S15.Idx → EReal := m ((c : Thread nD τ).loc main_arg9)
abbrev w1b (c : Dev nD) : S81x10.Idx → EReal := m ((c : Thread nD τ).loc main_arg10)
abbrev b1b (c : Dev nD) : S10.Idx → EReal := m ((c : Thread nD τ).loc main_arg11)
abbrev w2b (c : Dev nD) : S10x10.Idx → EReal := m ((c : Thread nD τ).loc main_arg12)
abbrev b2b (c : Dev nD) : S10.Idx → EReal := m ((c : Thread nD τ).loc main_arg13)

/-- Edge `e`'s source word and target word, node `i`'s batch word. -/
def src (c : Dev nD) (e : Fin 4000000) : BitVec 32 := ei m c (ix2 (0 : Fin 2) e)
def tgt (c : Dev nD) (e : Fin 4000000) : BitVec 32 := ei m c (ix2 (1 : Fin 2) e)
def batch (c : Dev nD) (i : Fin 100000) : BitVec 32 := bs m c (ix1 i)

/-- The messages of the launch arrays. -/
def M (c : Dev nD) : Fin 4000000 → Fin 15 → EReal :=
  Spec.msg (xt m c) (ea m c) (tgt m c) (w1a m c) (b1a m c) (w2a m c) (b2a m c)

end Cert.KernelIdeal.Args

end
-- ==== Proof.LibMatrixRead.lean ====
/-
  Layout operations of matrices read at an index given by coordinates, for the forms Lib/ValueLayout.lean leaves out:
  a vector made a column (`[a] → [a, 1]`), a column spread over the lanes (`[a, 1] → [a, b]`), three matrices of equal
  height laid side by side read at a column, and the rows of a matrix taken by an index column (`x[idx]` of a
  matrix: a gather with the first axis collapsed and start-indexed, the second an offset axis taken whole).
  Nothing here names a program.
-/
import Idealize.ShloMosaic.Lib.ValueLayout
import Idealize.ShloMosaic.Lib.StableHlo.Predicate

namespace Cert.MatrixRead

open Idealize.ShloMosaic Idealize.ShloMosaic.ValueIdx

variable {α : Type}

/-- The one coordinate of a rank-1 index is below the extent. -/
theorem idx1_lt {n : ℕ} (j : (⟨1, ![n]⟩ : Shape).Idx) : (j 0).val < n := (j 0).isLt

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Three matrices side by side -/

/-- Three `[n, 128]` matrices laid side by side along the second axis read, at `(r, k)`, the piece whose span of 128 columns
    holds `k`, at `k` less the columns before it. -/
theorem concat3_128_apply {n : ℕ} (x₁ x₂ x₃ : (⟨2, ![n, 128]⟩ : Shape).Idx → α)
    (h : Shape.Concatenates (([⟨⟨2, ![n, 128]⟩, x₁⟩, ⟨⟨2, ![n, 128]⟩, x₂⟩, ⟨⟨2, ![n, 128]⟩, x₃⟩] :
      List ((s : Shape) × (s.Idx → α))).map (·.1)) ⟨2, ![n, 384]⟩ 1)
    (r : Fin n) (k : Fin 384) :
    concatenate ⟨2, ![n, 384]⟩ 1 [⟨⟨2, ![n, 128]⟩, x₁⟩, ⟨⟨2, ![n, 128]⟩, x₂⟩, ⟨⟨2, ![n, 128]⟩, x₃⟩] h (ix2 r k)
      = if h1 : k.val < 128 then x₁ (ix2 r ⟨k.val, h1⟩)
        else if h2 : k.val < 256 then x₂ (ix2 r ⟨k.val - 128, by omega⟩)
        else x₃ (ix2 r ⟨k.val - 256, by have := k.isLt; omega⟩) := by
  have hk := k.isLt
  split
  · next h1 =>
    refine concatenate_apply_piece (1 : Fin 2) _ h (ix2 r k) 0 (by simp) ⟨2, ![n, 128]⟩ x₁ rfl rfl 0 rfl
      (ix2 r ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (1 : Fin 2) _ h (ix2 r k) 1 (by simp) ⟨2, ![n, 128]⟩ x₂ rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (1 : Fin 2) _ h (ix2 r k) 2 (by simp) ⟨2, ![n, 128]⟩ x₃ rfl rfl 256 rfl
        (ix2 r ⟨k.val - 256, by omega⟩) (fun b hb => ?_) ?_
      · match b with
        | ⟨0, _⟩ => rfl
        | ⟨1, _⟩ => exact absurd rfl hb
      · show 256 + (k.val - 256) = k.val
        omega

/-! ## The rows of a matrix taken by an index column -/

/-- The gather that is `x[idx]` of an `[N, C]` matrix by an `[n, 1]` column of indices (first operand axis collapsed and
    start-indexed, the second an offset axis, the index vector on axis 1: the printed dimension numbers, each by `rfl`)
    reads, for result position `(p, c)`, operand ROW `idx[p]` read signed and held inside `0 … N - 1` … -/
theorem gather_rows_axis0 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (0 : Fin 2)).val = min (idx (ix2 p (0 : Fin 1))).toInt.toNat (N - 1) := by
  have hsl : d.sliceSizes 0 = 1 := d.slice_collapsed 0 (by rw [hcoll]; exact List.mem_singleton.mpr rfl)
  have hk : (0 : Fin 2) ∉ d.sKept := by rw [GatherDims.mem_sKept, hcoll]; simp
  obtain ⟨offD, collD, obD, sibD, simD, ivd, sl, wf⟩ := d
  simp only at hoff hcoll hob hsim hivd hsl
  subst hoff hcoll hob hsim hivd
  simp only [GatherDims.operandIdx, GatherDims.start, GatherDims.batchCoord, GatherDims.offCoord]
  simp only [GatherDims.mem_sKept, List.mem_singleton, List.not_mem_nil, dite_true, dite_false, not_true_eq_false, false_and, hsl, Nat.add_zero, List.append_nil, ↓reduceDIte]
  rw [dif_neg hk, Nat.add_zero]
  show min (idx _).toInt.toNat (N - 1) = _
  congr 4
  funext b
  apply Fin.ext
  match b with
  | ⟨0, _⟩ => rfl
  | ⟨1, _⟩ => rfl

/-- A one-element list read at any valid position is its element. -/
theorem getElem_singleton_any {β : Type} (b : β) (k : ℕ) (h : k < [b].length) : [b][k]'h = b := by
  have hk : k = 0 := by simpa using h
  subst hk; rfl

/-- … and operand COLUMN `c`: the offset axis is taken whole and nothing is added to it. -/
theorem gather_rows_axis1 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (1 : Fin 2)).val = c.val := by
  have hk : (1 : Fin 2) ∈ d.sKept := by rw [GatherDims.mem_sKept, hcoll, hob]; simp
  have hm : (1 : Fin 2) ∉ d.startIndexMap := by rw [hsim]; simp
  have hb : (1 : Fin 2) ∉ d.operandBatchingDims := by rw [hob]; simp
  obtain ⟨offD, collD, obD, sibD, simD, ivd, sl, wf⟩ := d
  simp only at hoff hcoll hob hsim hivd
  subst hoff hcoll hob hsim hivd
  simp only [GatherDims.operandIdx, GatherDims.start, GatherDims.batchCoord, GatherDims.offCoord]
  rw [dif_neg hm, dif_neg hb, dif_pos hk]
  simp only [Nat.zero_add]
  rw [getElem_singleton_any]
  rfl

/-- So the gathered matrix at `(p, c)` is the table at (the held row `idx[p]`, `c`): jnp's `x[idx]` with out-of-range
    positions held at the nearest row. -/
theorem gather_rows_apply {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  apply Fin.ext
  match a with
  | ⟨0, _⟩ => exact gather_rows_axis0 d hoff hcoll hob hsim hivd idx p c
  | ⟨1, _⟩ => exact gather_rows_axis1 d hoff hcoll hob hsim hivd idx p c

end Cert.MatrixRead
-- ==== Proof.KHostA.lean ====
/-
  What the kernels find in their other inputs. The first kernel: the gathered rows of `x_t` (row `e` is the row edge `e`'s
  target word names, every such word being a row of the table), `edge_attr`, and the first perceptron's weights and
  biases (a change of float format is the identity here). After it the source vector is still rows' first line of
  `edge_index`. The second kernel: `x_s`, the gathered rows of `u`, and the second perceptron's weights and biases.
-/
import proofs.«405589_j74663711473945_2_alg».proof.Proof.Gen.KernelIdeal.Frame
import proofs.«405589_j74663711473945_2_alg».proof.Proof.KArgs
import proofs.«405589_j74663711473945_2_alg».proof.Proof.LibMatrixRead
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.ReduceAll
import Idealize.ShloMosaic.Lib.Pipeline.Value

set_option maxRecDepth 16384

noncomputable section

namespace Cert.KernelIdeal.HostA

open Idealize.ShloMosaic Idealize.ShloMosaic.ValueIdx Idealize.ShloMosaic.TcCoe Idealize.SL.Sem Cert.KernelIdeal Cert.KernelIdeal.Gen
open Cert.KernelIdeal.Args

variable (m : (ℓ : Loc nD τ sig) → Buf (Elt Ideal) ℓ) (ρ : Dev nD → PrngReg)

/-- A buffer none of a stretch's operations writes holds after the stretch what it held before; the first region
    leaves every buffer that is not one of its arrays as it found it. `walk` takes such steps back through the fold
    for as long as they apply. -/
local macro "walk" : tactic => `(tactic| repeat (first
  | (refine Eq.trans (StableHlo.after_of_forall_not_mem _ _ (List.forall_iff_forall_mem.mp ?_)) ?_
     · simp only [hostOps0, hostOps0_1, hostOps0_2, hostOps1, hostOps1_1, hostOps1_2, hostOps1_3, List.Forall,
         StableHlo.nullary_writes, StableHlo.unary_writes, StableHlo.binary_writes, StableHlo.ternary_writes,
         StableHlo.quaternary_writes, StableHlo.reshape_writes, StableHlo.binaryIndexed_writes, Finset.mem_singleton]
       repeat' apply And.intro
       all_goals exact StableHlo.devRef_ne_of_ne (by decide))
  | (refine Eq.trans (W4_of_ne _ _ _ _ (by decide)) ?_)))

/-! ## Small facts about index words, columns and an all-of reduction -/

/-- A vector made a column reads, at `(e, u)`, the vector at `e`. -/
theorem col_apply {α : Type} {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ _ _ _ _ fun a => by
    match a with
    | ⟨0, _⟩ =>
      show e.val = if n = 1 then 0 else e.val
      split
      · have := e.isLt; omega
      · rfl

/-- A vector spread along the rows of a matrix reads, at `(e, j)`, the vector at `e`. -/
theorem rows_apply {α : Type} {n k : ℕ} (h : (⟨1, ![n]⟩ : Shape).BroadcastsInDim ⟨2, ![n, k]⟩ ![0])
    (v : (⟨1, ![n]⟩ : Shape).Idx → α) (e : Fin n) (j : Fin k) :
    broadcastInDim ⟨2, ![n, k]⟩ ![0] h v (ix2 e j) = v (ix1 e) :=
  broadcastInDim_apply _ _ _ _ _ fun a => by
    match a with
    | ⟨0, _⟩ =>
      show e.val = if n = 1 then 0 else e.val
      split
      · have := e.isLt; omega
      · rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, IntOp.andi_eq_one.mpr ⟨rfl, rfl⟩]
    exact foldl_andi_one f l fun n hn => h n (List.mem_cons_of_mem _ hn)

/-- A reduction by `and` from 1 of an array whose every entry is 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-- A word that is not negative is left alone by the wrap of negative positions. -/
theorem wrapW_of_nonneg (n w : BitVec 32) (h : 0 ≤ w.toInt) : Spec.wrapW n w = w := by
  have hc : IntOp.cmpi .slt w 0#32 ≠ 1#1 := fun h1 => by
    have h2 := IntOp.cmpi_slt.mp h1
    rw [show (0#32 : BitVec 32).toInt = 0 from rfl] at h2
    omega
  exact if_neg hc

/-- A stretch read in four pieces: the first `a` operations, the next `b`, the next `c`, the rest. -/
theorem after_split4 (l : List (HloOp τ sig (Elt Ideal))) (a b c : ℕ) (V : Valuation τ sig (Elt Ideal)) :
    StableHlo.after l V = StableHlo.after (((l.drop a).drop b).drop c) (StableHlo.after (((l.drop a).drop b).take c)
      (StableHlo.after ((l.drop a).take b) (StableHlo.after (l.take a) V))) := by
  rw [← StableHlo.after_append, ← StableHlo.after_append, ← StableHlo.after_append, List.take_append_drop,
    List.take_append_drop, List.take_append_drop]

/-! ## The first take: the rows of `x_t` named by the target words -/

section Take0
variable (U : Valuation τ sig (Elt Ideal))

/-- The first eight operations wrap the negative words and make the words a column; at `(p, q)` the column holds the
    wrapped word `p`. -/
theorem Take0_A_words (p : Fin 4000000) (q : Fin 1) :
    (StableHlo.after (hostOps0_1.take 8) U (Proc.devRef .tc main_call0_v5) : S4000000x1.Idx → BitVec 32) (ix2 p q)
      = Spec.wrapW 100000#32 ((U (Proc.devRef .tc main_v3) : S4000000.Idx → BitVec 32) (ix1 p)) := by
  simp only [hostOps0_1, List.take_succ_cons, List.take_zero]
  after_results_simp
  simp only [StableHlo.TRef.ofBuf, StableHlo.TRef.toBuf, cast_eq]
  exact (col_apply _ _ p q).trans rfl
/-- They leave the table alone. -/
theorem Take0_A_table : StableHlo.after (hostOps0_1.take 8) U (Proc.devRef .tc main_arg1) = U (Proc.devRef .tc main_arg1) := by
  simp only [hostOps0_1, List.take_succ_cons, List.take_zero]
  after_results_simp

/-- The next eight operations test each entry of the column against `0 … 99999`: where every word of the column lies
    in that range the test is 1 everywhere. -/
theorem Take0_B1_mask
    (hU : ∀ (p : Fin 4000000) (q : Fin 1), 0 ≤ ((U (Proc.devRef .tc main_call0_v5) : S4000000x1.Idx → BitVec 32) (ix2 p q)).toInt
      ∧ ((U (Proc.devRef .tc main_call0_v5) : S4000000x1.Idx → BitVec 32) (ix2 p q)).toInt < 100000) (i : S4000000x1.Idx) :
    (StableHlo.after ((hostOps0_1.drop 8).take 8) U (Proc.devRef .tc main_call0_v11) : S4000000x1.Idx → BitVec 1) i = 1#1 := by
  simp only [hostOps0_1, List.drop_succ_cons, List.drop_zero, List.take_succ_cons, List.take_zero]
  after_results_simp
  simp only [StableHlo.TRef.ofBuf, StableHlo.TRef.toBuf, cast_eq]
  obtain ⟨p, q, rfl⟩ : ∃ p q, i = ix2 p q := ⟨i 0, i 1, eq_ix2 i⟩
  have h1 := hU p q
  refine IntOp.andi_eq_one.mpr ⟨IntOp.cmpi_sge.mpr ?_, IntOp.cmpi_sle.mpr ?_⟩
  · show (0#32 : BitVec 32).toInt ≤ _
    rw [show (0#32 : BitVec 32).toInt = 0 from rfl]
    exact h1.1
  · show _ ≤ (99999#32 : BitVec 32).toInt
    rw [show (99999#32 : BitVec 32).toInt = 99999 from by decide]
    omega
/-- They leave the column and the table alone. -/
theorem Take0_B1_words :
    StableHlo.after ((hostOps0_1.drop 8).take 8) U (Proc.devRef .tc main_call0_v5) = U (Proc.devRef .tc main_call0_v5) := by
  simp only [hostOps0_1, List.drop_succ_cons, List.drop_zero, List.take_succ_cons, List.take_zero]
  after_results_simp
theorem Take0_B1_table :
    StableHlo.after ((hostOps0_1.drop 8).take 8) U (Proc.devRef .tc main_arg1) = U (Proc.devRef .tc main_arg1) := by
  simp only [hostOps0_1, List.drop_succ_cons, List.drop_zero, List.take_succ_cons, List.take_zero]
  after_results_simp

/-- The reduction by `and` of the test along each row: where the test is 1 everywhere the reduced test is 1 at every
    row. (The buffers' typed views are the identity at these literal buffers.) -/
theorem Take0_B2_mask (hU : ∀ i, (U (Proc.devRef .tc main_call0_v11) : S4000000x1.Idx → BitVec 1) i = 1#1) (e : Fin 4000000) :
    (StableHlo.after (((hostOps0_1.drop 8).drop 8).take 2) U (Proc.devRef .tc main_call0_v12) : S4000000.Idx → BitVec 1) (ix1 e) = 1#1 := by
  simp only [hostOps0_1, List.drop_succ_cons, List.drop_zero, List.take_succ_cons, List.take_zero]
  after_results_simp
  have e1 : ∀ v : S4000000.Idx → BitVec 1,
      (StableHlo.TRef.of main_call0_v12 : StableHlo.TRef sig ⟨S4000000, .i1⟩).toBuf (Val := Elt Ideal) v = v := fun _ => rfl
  have e2 : ∀ v : S4000000x1.Idx → BitVec 1,
      (StableHlo.TRef.of main_call0_v11 : StableHlo.TRef sig ⟨S4000000x1, .i1⟩).ofBuf (Val := Elt Ideal) v = v := fun _ => rfl
  have e3 : ∀ v : S_.Idx → BitVec 1,
      (StableHlo.TRef.of main_call0_c_3 : StableHlo.TRef sig ⟨S_, .i1⟩).toBuf (Val := Elt Ideal) v = v := fun _ => rfl
  have e4 : ∀ v : S_.Idx → BitVec 1,
      (StableHlo.TRef.of main_call0_c_3 : StableHlo.TRef sig ⟨S_, .i1⟩).ofBuf (Val := Elt Ideal) v = v := fun _ => rfl
  rw [e1, e2, e3, e4]
  exact reduce_andi_of_all _ _ _ _ _ hU rfl

/-- The reduction leaves the column and the table alone. -/
theorem Take0_B2_words :
    StableHlo.after (((hostOps0_1.drop 8).drop 8).take 2) U (Proc.devRef .tc main_call0_v5) = U (Proc.devRef .tc main_call0_v5) := by
  simp only [hostOps0_1, List.drop_succ_cons, List.drop_zero, List.take_succ_cons, List.take_zero]
  after_results_simp
theorem Take0_B2_table :
    StableHlo.after (((hostOps0_1.drop 8).drop 8).take 2) U (Proc.devRef .tc main_arg1) = U (Proc.devRef .tc main_arg1) := by
  simp only [hostOps0_1, List.drop_succ_cons, List.drop_zero, List.take_succ_cons, List.take_zero]
  after_results_simp

/-- The last five operations gather the table's rows by the column and keep, where the reduced test is 1, the gathered
    row: row `e` of the result is the table's row the column's word names, held inside the table. -/
theorem Take0_C (e : Fin 4000000) (j : Fin 5)
    (hm : (U (Proc.devRef .tc main_call0_v12) : S4000000.Idx → BitVec 1) (ix1 e) = 1#1) :
    (StableHlo.after (((hostOps0_1.drop 8).drop 8).drop 2) U (Proc.devRef .tc main_v4) : S4000000x5.Idx → EReal) (ix2 e j)
      = (U (Proc.devRef .tc main_arg1) : S100000x5.Idx → EReal)
          (ix2 (Spec.rowOf Spec.nN (by decide) ((U (Proc.devRef .tc main_call0_v5) : S4000000x1.Idx → BitVec 32) (ix2 e (0 : Fin 1)))) j) := by
  simp only [hostOps0_1, List.drop_succ_cons, List.drop_zero]
  after_results_simp
  simp only [StableHlo.TRef.ofBuf, StableHlo.TRef.toBuf, cast_eq]
  rw [select_apply, rows_apply, hm, select_one]
  exact Cert.MatrixRead.gather_rows_apply _ rfl rfl rfl rfl rfl _ _ e j (by decide)

/-- The whole stretch: where every index word is a row of the table, row `e` of the result is the table's row that word
    names. -/
theorem Take0_all
    (hV : ∀ e : Fin 4000000, 0 ≤ ((U (Proc.devRef .tc main_v3) : S4000000.Idx → BitVec 32) (ix1 e)).toInt
      ∧ ((U (Proc.devRef .tc main_v3) : S4000000.Idx → BitVec 32) (ix1 e)).toInt < 100000) (e : Fin 4000000) (j : Fin 5) :
    (StableHlo.after hostOps0_1 U (Proc.devRef .tc main_v4) : S4000000x5.Idx → EReal) (ix2 e j)
      = (U (Proc.devRef .tc main_arg1) : S100000x5.Idx → EReal)
          (ix2 (Spec.rowOf Spec.nN (by decide) (Spec.wrapW 100000#32 ((U (Proc.devRef .tc main_v3) : S4000000.Idx → BitVec 32) (ix1 e)))) j) := by
  rw [after_split4 hostOps0_1 8 8 2 U]
  rw [Take0_C _ e j (Take0_B2_mask _ (fun i => Take0_B1_mask _ (fun p q => by
    rw [Take0_A_words, wrapW_of_nonneg _ _ (hV p).1]
    exact hV p) i) e)]
  rw [Take0_B2_table, Take0_B1_table, Take0_A_table, Take0_B2_words, Take0_B1_words, Take0_A_words]

end Take0

/-! ## The second take: the rows of `u` named by the batch words -/

section Take1
variable (U : Valuation τ sig (Elt Ideal))

/-- The first eight operations wrap the negative words and make the words a column; at `(p, q)` the column holds the
    wrapped word `p`. -/
theorem Take1_A_words (p : Fin 100000) (q : Fin 1) :
    (StableHlo.after (hostOps1_3.take 8) U (Proc.devRef .tc main_call2_v5) : S100000x1.Idx → BitVec 32) (ix2 p q)
      = Spec.wrapW 64#32 ((U (Proc.devRef .tc main_arg5) : S100000.Idx → BitVec 32) (ix1 p)) := by
  simp only [hostOps1_3, List.take_succ_cons, List.take_zero]
  after_results_simp
  simp only [StableHlo.TRef.ofBuf, StableHlo.TRef.toBuf, cast_eq]
  exact (col_apply _ _ p q).trans rfl
/-- They leave the table alone. -/
theorem Take1_A_table : StableHlo.after (hostOps1_3.take 8) U (Proc.devRef .tc main_arg3) = U (Proc.devRef .tc main_arg3) := by
  simp only [hostOps1_3, List.take_succ_cons, List.take_zero]
  after_results_simp

/-- The next eight operations test each entry of the column against `0 … 63`: where every word of the column lies
    in that range the test is 1 everywhere. -/
theorem Take1_B1_mask
    (hU : ∀ (p : Fin 100000) (q : Fin 1), 0 ≤ ((U (Proc.devRef .tc main_call2_v5) : S100000x1.Idx → BitVec 32) (ix2 p q)).toInt
      ∧ ((U (Proc.devRef .tc main_call2_v5) : S100000x1.Idx → BitVec 32) (ix2 p q)).toInt < 64) (i : S100000x1.Idx) :
    (StableHlo.after ((hostOps1_3.drop 8).take 8) U (Proc.devRef .tc main_call2_v11) : S100000x1.Idx → BitVec 1) i = 1#1 := by
  simp only [hostOps1_3, List.drop_succ_cons, List.drop_zero, List.take_succ_cons, List.take_zero]
  after_results_simp
  simp only [StableHlo.TRef.ofBuf, StableHlo.TRef.toBuf, cast_eq]
  obtain ⟨p, q, rfl⟩ : ∃ p q, i = ix2 p q := ⟨i 0, i 1, eq_ix2 i⟩
  have h1 := hU p q
  refine IntOp.andi_eq_one.mpr ⟨IntOp.cmpi_sge.mpr ?_, IntOp.cmpi_sle.mpr ?_⟩
  · show (0#32 : BitVec 32).toInt ≤ _
    rw [show (0#32 : BitVec 32).toInt = 0 from rfl]
    exact h1.1
  · show _ ≤ (63#32 : BitVec 32).toInt
    rw [show (63#32 : BitVec 32).toInt = 63 from by decide]
    omega
/-- They leave the column and the table alone. -/
theorem Take1_B1_words :
    StableHlo.after ((hostOps1_3.drop 8).take 8) U (Proc.devRef .tc main_call2_v5) = U (Proc.devRef .tc main_call2_v5) := by
  simp only [hostOps1_3, List.drop_succ_cons, List.drop_zero, List.take_succ_cons, List.take_zero]
  after_results_simp
theorem Take1_B1_table :
    StableHlo.after ((hostOps1_3.drop 8).take 8) U (Proc.devRef .tc main_arg3) = U (Proc.devRef .tc main_arg3) := by
  simp only [hostOps1_3, List.drop_succ_cons, List.drop_zero, List.take_succ_cons, List.take_zero]
  after_results_simp

/-- The reduction by `and` of the test along each row: where the test is 1 everywhere the reduced test is 1 at every
    row. (The buffers' typed views are the identity at these literal buffers.) -/
theorem Take1_B2_mask (hU : ∀ i, (U (Proc.devRef .tc main_call2_v11) : S100000x1.Idx → BitVec 1) i = 1#1) (e : Fin 100000) :
    (StableHlo.after (((hostOps1_3.drop 8).drop 8).take 2) U (Proc.devRef .tc main_call2_v12) : S100000.Idx → BitVec 1) (ix1 e) = 1#1 := by
  simp only [hostOps1_3, List.drop_succ_cons, List.drop_zero, List.take_succ_cons, List.take_zero]
  after_results_simp
  have e1 : ∀ v : S100000.Idx → BitVec 1,
      (StableHlo.TRef.of main_call2_v12 : StableHlo.TRef sig ⟨S100000, .i1⟩).toBuf (Val := Elt Ideal) v = v := fun _ => rfl
  have e2 : ∀ v : S100000x1.Idx → BitVec 1,
      (StableHlo.TRef.of main_call2_v11 : StableHlo.TRef sig ⟨S100000x1, .i1⟩).ofBuf (Val := Elt Ideal) v = v := fun _ => rfl
  have e3 : ∀ v : S_.Idx → BitVec 1,
      (StableHlo.TRef.of main_call2_c_3 : StableHlo.TRef sig ⟨S_, .i1⟩).toBuf (Val := Elt Ideal) v = v := fun _ => rfl
  have e4 : ∀ v : S_.Idx → BitVec 1,
      (StableHlo.TRef.of main_call2_c_3 : StableHlo.TRef sig ⟨S_, .i1⟩).ofBuf (Val := Elt Ideal) v = v := fun _ => rfl
  rw [e1, e2, e3, e4]
  exact reduce_andi_of_all _ _ _ _ _ hU rfl

/-- The reduction leaves the column and the table alone. -/
theorem Take1_B2_words :
    StableHlo.after (((hostOps1_3.drop 8).drop 8).take 2) U (Proc.devRef .tc main_call2_v5) = U (Proc.devRef .tc main_call2_v5) := by
  simp only [hostOps1_3, List.drop_succ_cons, List.drop_zero, List.take_succ_cons, List.take_zero]
  after_results_simp
theorem Take1_B2_table :
    StableHlo.after (((hostOps1_3.drop 8).drop 8).take 2) U (Proc.devRef .tc main_arg3) = U (Proc.devRef .tc main_arg3) := by
  simp only [hostOps1_3, List.drop_succ_cons, List.drop_zero, List.take_succ_cons, List.take_zero]
  after_results_simp

/-- The last five operations gather the table's rows by the column and keep, where the reduced test is 1, the gathered
    row: row `e` of the result is the table's row the column's word names, held inside the table. -/
theorem Take1_C (e : Fin 100000) (j : Fin 10)
    (hm : (U (Proc.devRef .tc main_call2_v12) : S100000.Idx → BitVec 1) (ix1 e) = 1#1) :
    (StableHlo.after (((hostOps1_3.drop 8).drop 8).drop 2) U (Proc.devRef .tc main_v67) : S100000x10.Idx → EReal) (ix2 e j)
      = (U (Proc.devRef .tc main_arg3) : S64x10.Idx → EReal)
          (ix2 (Spec.rowOf Spec.nB (by decide) ((U (Proc.devRef .tc main_call2_v5) : S100000x1.Idx → BitVec 32) (ix2 e (0 : Fin 1)))) j) := by
  simp only [hostOps1_3, List.drop_succ_cons, List.drop_zero]
  after_results_simp
  simp only [StableHlo.TRef.ofBuf, StableHlo.TRef.toBuf, cast_eq]
  rw [select_apply, rows_apply, hm, select_one]
  exact Cert.MatrixRead.gather_rows_apply _ rfl rfl rfl rfl rfl _ _ e j (by decide)

/-- The whole stretch: where every index word is a row of the table, row `e` of the result is the table's row that word
    names. -/
theorem Take1_all
    (hV : ∀ e : Fin 100000, 0 ≤ ((U (Proc.devRef .tc main_arg5) : S100000.Idx → BitVec 32) (ix1 e)).toInt
      ∧ ((U (Proc.devRef .tc main_arg5) : S100000.Idx → BitVec 32) (ix1 e)).toInt < 64) (e : Fin 100000) (j : Fin 10) :
    (StableHlo.after hostOps1_3 U (Proc.devRef .tc main_v67) : S100000x10.Idx → EReal) (ix2 e j)
      = (U (Proc.devRef .tc main_arg3) : S64x10.Idx → EReal)
          (ix2 (Spec.rowOf Spec.nB (by decide) (Spec.wrapW 64#32 ((U (Proc.devRef .tc main_arg5) : S100000.Idx → BitVec 32) (ix1 e)))) j) := by
  rw [after_split4 hostOps1_3 8 8 2 U]
  rw [Take1_C _ e j (Take1_B2_mask _ (fun i => Take1_B1_mask _ (fun p q => by
    rw [Take1_A_words, wrapW_of_nonneg _ _ (hV p).1]
    exact hV p) i) e)]
  rw [Take1_B2_table, Take1_B1_table, Take1_A_table, Take1_B2_words, Take1_B1_words, Take1_A_words]

end Take1

/-! ## The first kernel's inputs -/

/-- The target vector is row 1 of `edge_index` cut out and flattened. -/
theorem W1_tgt (c : Dev nD) (e : Fin 4000000) :
    (W1 m ρ c (Proc.devRef .tc main_v3) : S4000000.Idx → BitVec 32) (ix1 e) = tgt m c e := by
  show StableHlo.after hostOps0 (W0 m ρ c) (Proc.devRef .tc main_v3) (ix1 e) = _
  after_results
  refine (shapeCast_1a_a_apply _ _ e).trans ?_
  exact slice2_axis0_apply 1 _ _ (0 : Fin 1) e (1 : Fin 2) rfl

/-- Row `e` of the first kernel's gathered input is the row of `x_t` that edge `e`'s target word names. -/
theorem V3_arr0 (c : Dev nD) (htgt : ∀ e : Fin 4000000, 0 ≤ (tgt m c e).toInt ∧ (tgt m c e).toInt < 100000) (e : Fin 4000000) (j : Fin 5) :
    (V3 m ρ c (Pipeline.arrRef spec0 0) : S4000000x5.Idx → EReal) (ix2 e j)
      = xt m c (ix2 (Spec.rowOf Spec.nN (by decide) (Spec.wrapW 100000#32 (tgt m c e))) j) := by
  have h : W3 m ρ c (Proc.devRef .tc main_v4) = W2 m ρ c (Proc.devRef .tc main_v4) := by
    walk
    rfl
  have hx : W1 m ρ c (Proc.devRef .tc main_arg1) = xt m c := by
    walk
    rfl
  have key := Take0_all (W1 m ρ c) (fun e' => by rw [W1_tgt]; exact htgt e') e j
  rw [W1_tgt, hx] at key
  show W3 m ρ c (Proc.devRef .tc main_v4) (ix2 e j) = _
  rw [h]
  exact key

/-- `edge_attr` is an argument: nothing before the first kernel writes it. -/
theorem V3_arr1 (c : Dev nD) : (V3 m ρ c (Pipeline.arrRef spec0 1) : S4000000x10.Idx → EReal) = ea m c := by
  show W3 m ρ c (Proc.devRef .tc main_arg2) = _
  walk
  rfl
/-- The first weight matrix after its change of float format, which is the identity at the extended reals. -/
theorem V3_arr2 (c : Dev nD) : (V3 m ρ c (Pipeline.arrRef spec0 2) : S15x15.Idx → EReal) = w1a m c := by
  show StableHlo.after hostOps0_2 (W2 m ρ c) (Proc.devRef .tc main_v5) = _
  generalize hV : W2 m ρ c = V2
  after_results
  subst hV
  show W2 m ρ c (Proc.devRef .tc main_arg6) = _
  walk
  rfl
theorem V3_arr3 (c : Dev nD) : (V3 m ρ c (Pipeline.arrRef spec0 3) : S15.Idx → EReal) = b1a m c := by
  show W3 m ρ c (Proc.devRef .tc main_arg7) = _
  walk
  rfl
theorem V3_arr4 (c : Dev nD) : (V3 m ρ c (Pipeline.arrRef spec0 4) : S15x15.Idx → EReal) = w2a m c := by
  show StableHlo.after hostOps0_2 (W2 m ρ c) (Proc.devRef .tc main_v6) = _
  generalize hV : W2 m ρ c = V2
  after_results
  subst hV
  show W2 m ρ c (Proc.devRef .tc main_arg8) = _
  walk
  rfl
theorem V3_arr5 (c : Dev nD) : (V3 m ρ c (Pipeline.arrRef spec0 5) : S15.Idx → EReal) = b2a m c := by
  show W3 m ρ c (Proc.devRef .tc main_arg9) = _
  walk
  rfl

/-! ## The source vector after the first kernel -/

/-- The source vector is row 0 of `edge_index` cut out and flattened before the first kernel; that kernel does not
    write it. -/
theorem W4_src (c : Dev nD) (e : Fin 4000000) :
    (W4 m ρ c (Proc.devRef .tc main_v1) : S4000000.Idx → BitVec 32) (ix1 e) = src m c e := by
  have h : W4 m ρ c (Proc.devRef .tc main_v1) = W1 m ρ c (Proc.devRef .tc main_v1) := by
    walk
    rfl
  rw [h]
  show StableHlo.after hostOps0 (W0 m ρ c) (Proc.devRef .tc main_v1) (ix1 e) = _
  after_results
  refine (shapeCast_1a_a_apply _ _ e).trans ?_
  exact slice2_axis0_apply 0 _ _ (0 : Fin 1) e (0 : Fin 2) rfl

/-! ## The second kernel's other inputs -/

/-- `x_s` is an argument: no stretch writes it and the first kernel does not hold it. -/
theorem V8_arr0 (c : Dev nD) : (V8 m ρ c (Pipeline.arrRef spec1 0) : S100000x10.Idx → EReal) = xs m c := by
  show W8 m ρ c (Proc.devRef .tc main_arg0) = _
  walk
  rfl

/-- Row `i` of the second kernel's gathered input is the row of `u` that node `i`'s batch word names. -/
theorem V8_arr6 (c : Dev nD) (hb : ∀ i : Fin 100000, 0 ≤ (batch m c i).toInt ∧ (batch m c i).toInt < 64) (i : Fin 100000) (j : Fin 10) :
    (V8 m ρ c (Pipeline.arrRef spec1 6) : S100000x10.Idx → EReal) (ix2 i j) = Spec.uRow (uu m c) (batch m c) i j := by
  have hw : W7 m ρ c (Proc.devRef .tc main_arg5) = bs m c := by
    walk
    rfl
  have hx : W7 m ρ c (Proc.devRef .tc main_arg3) = uu m c := by
    walk
    rfl
  have key := Take1_all (W7 m ρ c) (fun i' => by rw [hw]; exact hb i') i j
  rw [hw, hx] at key
  show W8 m ρ c (Proc.devRef .tc main_v67) (ix2 i j)
    = uu m c (ix2 (Spec.rowOf Spec.nB (by decide) (Spec.wrapW 64#32 (bs m c (ix1 i)))) j)
  exact key

theorem V8_arr7 (c : Dev nD) : (V8 m ρ c (Pipeline.arrRef spec1 7) : S81x10.Idx → EReal) = w1b m c := by
  show W8 m ρ c (Proc.devRef .tc main_v7) = _
  walk
  show StableHlo.after hostOps0_2 (W2 m ρ c) (Proc.devRef .tc main_v7) = _
  generalize hV : W2 m ρ c = V2
  after_results
  subst hV
  show W2 m ρ c (Proc.devRef .tc main_arg10) = _
  walk
  rfl
theorem V8_arr8 (c : Dev nD) : (V8 m ρ c (Pipeline.arrRef spec1 8) : S10.Idx → EReal) = b1b m c := by
  show W8 m ρ c (Proc.devRef .tc main_arg11) = _
  walk
  rfl
theorem V8_arr9 (c : Dev nD) : (V8 m ρ c (Pipeline.arrRef spec1 9) : S10x10.Idx → EReal) = w2b m c := by
  show W8 m ρ c (Proc.devRef .tc main_v8) = _
  walk
  show StableHlo.after hostOps0_2 (W2 m ρ c) (Proc.devRef .tc main_v8) = _
  generalize hV : W2 m ρ c = V2
  after_results
  subst hV
  show W2 m ρ c (Proc.devRef .tc main_arg12) = _
  walk
  rfl
theorem V8_arr10 (c : Dev nD) : (V8 m ρ c (Pipeline.arrRef spec1 10) : S10.Idx → EReal) = b2b m c := by
  show W8 m ρ c (Proc.devRef .tc main_arg13) = _
  walk
  rfl

end Cert.KernelIdeal.HostA

end
-- ==== Proof.KStages.lean ====
/-
  The host arithmetic between the two kernels, one definition per operation, as functions of the first kernel's
  `[4000000, 61]` table `raw` and the source words `srcv`: the scattered row sums `v12`, its five column slices (the four
  power sums and the count), `denom = max(count, 1)`, the mean, the mean square, the clamped variance, the standard
  deviation, and the third and fourth central power sums built from the raw ones and divided into skew and kurtosis.
-/
import proofs.«405589_j74663711473945_2_alg».proof.Proof.Gen.KernelIdeal
import Idealize.ShloMosaic.PureOps.Ideal

noncomputable section

namespace Cert.KernelIdeal.Stages

open Idealize.ShloMosaic Cert.KernelIdeal Cert.KernelIdeal.Facts₀ Cert.KernelIdeal.Facts

variable (raw : FVec Ideal S4000000x61 .f32) (srcv : IVec S4000000 32)

def v10 : FVec Ideal S100000x61 .f32 := broadcastInDim S100000x61 ![] bcast_S_S100000x61 (constant (F := Ideal) S_ .f32 0x00000000#32)
def v11 : IVec S4000000x1 32 := broadcastInDim S4000000x1 ![0] bcast_S4000000_S4000000x1_0 srcv
def v12 : FVec Ideal S100000x61 .f32 := Host.scatterAdd (F := Ideal) scatter_S100000x61_S4000000x1_S4000000x61_1_0_0_1 v10 (v11 srcv) raw
def v13 : FVec Ideal S100000x15 .f32 := extractStridedSlice S100000x15 ![0, 0] (v12 raw srcv) slices_S100000x61_S100000x15_0_0
def v14 : FVec Ideal S100000x15 .f32 := extractStridedSlice S100000x15 ![0, 15] (v12 raw srcv) slices_S100000x61_S100000x15_0_15
def v15 : FVec Ideal S100000x15 .f32 := extractStridedSlice S100000x15 ![0, 30] (v12 raw srcv) slices_S100000x61_S100000x15_0_30
def v16 : FVec Ideal S100000x15 .f32 := extractStridedSlice S100000x15 ![0, 45] (v12 raw srcv) slices_S100000x61_S100000x15_0_45
def v17 : FVec Ideal S100000x1 .f32 := extractStridedSlice S100000x1 ![0, 60] (v12 raw srcv) slices_S100000x61_S100000x1_0_60
def v18 : FVec Ideal S100000x1 .f32 := broadcastInDim S100000x1 ![] bcast_S_S100000x1 (constant (F := Ideal) S_ .f32 0x3F800000#32)
def v19 : FVec Ideal S100000x1 .f32 := maximumf (v17 raw srcv) v18
def v20 : FVec Ideal S100000x15 .f32 := broadcastInDim S100000x15 ![0, 1] bcast_S100000x1_S100000x15_0_1 (v19 raw srcv)
def v21 : FVec Ideal S100000x15 .f32 := Host.divf (v13 raw srcv) (v20 raw srcv)
def v23 : FVec Ideal S100000x15 .f32 := Host.divf (v14 raw srcv) (v20 raw srcv)
def v24 : FVec Ideal S100000x15 .f32 := mulf (v21 raw srcv) (v21 raw srcv)
def v25 : FVec Ideal S100000x15 .f32 := subf (v23 raw srcv) (v24 raw srcv)
def c1v0 : FVec Ideal S100000x15 .f32 := broadcastInDim S100000x15 ![] bcast_S_S100000x15 (constant (F := Ideal) S_ .f32 0x00000000#32)
def v26 : FVec Ideal S100000x15 .f32 := maximumf (v25 raw srcv) c1v0
def v27 : FVec Ideal S100000x15 .f32 := broadcastInDim S100000x15 ![] bcast_S_S100000x15 (constant (F := Ideal) S_ .f32 0x358637BD#32)
def v28 : FVec Ideal S100000x15 .f32 := addf (v26 raw srcv) v27
def v29 : FVec Ideal S100000x15 .f32 := Host.sqrt (v28 raw srcv)
def v30 : FVec Ideal S100000x15 .f32 := broadcastInDim S100000x15 ![] bcast_S_S100000x15 (constant (F := Ideal) S_ .f32 0x40400000#32)
def v31 : FVec Ideal S100000x15 .f32 := mulf v30 (v21 raw srcv)
def v32 : FVec Ideal S100000x15 .f32 := mulf (v31 raw srcv) (v14 raw srcv)
def v33 : FVec Ideal S100000x15 .f32 := subf (v15 raw srcv) (v32 raw srcv)
def v34 : FVec Ideal S100000x1 .f32 := broadcastInDim S100000x1 ![] bcast_S_S100000x1 (constant (F := Ideal) S_ .f32 0x40000000#32)
def v35 : FVec Ideal S100000x1 .f32 := mulf v34 (v17 raw srcv)
def v36 : FVec Ideal S100000x15 .f32 := mulf (v21 raw srcv) (v21 raw srcv)
def v37 : FVec Ideal S100000x15 .f32 := mulf (v36 raw srcv) (v21 raw srcv)
def v38 : FVec Ideal S100000x15 .f32 := broadcastInDim S100000x15 ![0, 1] bcast_S100000x1_S100000x15_0_1 (v35 raw srcv)
def v39 : FVec Ideal S100000x15 .f32 := mulf (v38 raw srcv) (v37 raw srcv)
def v40 : FVec Ideal S100000x15 .f32 := addf (v33 raw srcv) (v39 raw srcv)
def v41 : FVec Ideal S100000x15 .f32 := broadcastInDim S100000x15 ![] bcast_S_S100000x15 (constant (F := Ideal) S_ .f32 0x40800000#32)
def v42 : FVec Ideal S100000x15 .f32 := mulf v41 (v21 raw srcv)
def v43 : FVec Ideal S100000x15 .f32 := mulf (v42 raw srcv) (v15 raw srcv)
def v44 : FVec Ideal S100000x15 .f32 := subf (v16 raw srcv) (v43 raw srcv)
def v45 : FVec Ideal S100000x15 .f32 := mulf (v21 raw srcv) (v21 raw srcv)
def v46 : FVec Ideal S100000x15 .f32 := broadcastInDim S100000x15 ![] bcast_S_S100000x15 (constant (F := Ideal) S_ .f32 0x40C00000#32)
def v47 : FVec Ideal S100000x15 .f32 := mulf v46 (v45 raw srcv)
def v48 : FVec Ideal S100000x15 .f32 := mulf (v47 raw srcv) (v14 raw srcv)
def v49 : FVec Ideal S100000x15 .f32 := addf (v44 raw srcv) (v48 raw srcv)
def v50 : FVec Ideal S100000x1 .f32 := broadcastInDim S100000x1 ![] bcast_S_S100000x1 (constant (F := Ideal) S_ .f32 0x40400000#32)
def v51 : FVec Ideal S100000x1 .f32 := mulf v50 (v17 raw srcv)
def v52 : FVec Ideal S100000x15 .f32 := mulf (v21 raw srcv) (v21 raw srcv)
def v53 : FVec Ideal S100000x15 .f32 := mulf (v52 raw srcv) (v52 raw srcv)
def v54 : FVec Ideal S100000x15 .f32 := broadcastInDim S100000x15 ![0, 1] bcast_S100000x1_S100000x15_0_1 (v51 raw srcv)
def v55 : FVec Ideal S100000x15 .f32 := mulf (v54 raw srcv) (v53 raw srcv)
def v56 : FVec Ideal S100000x15 .f32 := subf (v49 raw srcv) (v55 raw srcv)
def v58 : FVec Ideal S100000x15 .f32 := Host.divf (v40 raw srcv) (v20 raw srcv)
def v59 : FVec Ideal S100000x15 .f32 := mulf (v29 raw srcv) (v29 raw srcv)
def v60 : FVec Ideal S100000x15 .f32 := mulf (v59 raw srcv) (v29 raw srcv)
def v61 : FVec Ideal S100000x15 .f32 := Host.divf (v58 raw srcv) (v60 raw srcv)
def v63 : FVec Ideal S100000x15 .f32 := Host.divf (v56 raw srcv) (v20 raw srcv)
def v64 : FVec Ideal S100000x15 .f32 := mulf (v29 raw srcv) (v29 raw srcv)
def v65 : FVec Ideal S100000x15 .f32 := mulf (v64 raw srcv) (v64 raw srcv)
def v66 : FVec Ideal S100000x15 .f32 := Host.divf (v63 raw srcv) (v65 raw srcv)

end Cert.KernelIdeal.Stages

end
-- ==== Proof.KHostB.lean ====
/-
  What the second kernel finds in its five statistics inputs: the host arithmetic's stage functions of the table the first
  kernel left and of the source vector, both as the core holds them when the first kernel returns.
-/
import proofs.«405589_j74663711473945_2_alg».proof.Proof.Gen.KernelIdeal.Frame
import proofs.«405589_j74663711473945_2_alg».proof.Proof.KStages
import Idealize.ShloMosaic.Lib.StableHlo.Run

set_option maxRecDepth 16384

noncomputable section

namespace Cert.KernelIdeal.HostB

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The first kernel's table and the source vector when the first kernel returns. -/
abbrev rawAt (c : Dev nD) : FVec Ideal S4000000x61 .f32 := W4 m ρ c (Proc.devRef .tc main_v9)
abbrev srcAt (c : Dev nD) : IVec S4000000 32 := W4 m ρ c (Proc.devRef .tc main_v1)

/-! ## The four stretches of host arithmetic, each read over an arbitrary starting valuation

Between the two kernels the host runs four lists of operations. Each lemma below says what one buffer holds after one
list, as a function of what the buffers held before it. The starting valuation `X` is arbitrary; the five theorems then chain
the four lists from the first kernel's exit. -/

section Stretches

open Idealize.ShloMosaic.StableHlo

/-- The table and the source words as a valuation holds them. -/
abbrev rawOf (X : Valuation τ sig (Elt Ideal)) : FVec Ideal S4000000x61 .f32 := X (Proc.devRef .tc main_v9)
abbrev srcOf (X : Valuation τ sig (Elt Ideal)) : IVec S4000000 32 := X (Proc.devRef .tc main_v1)

variable (X : Valuation τ sig (Elt Ideal))

/-! ### First list: the scattered row sums, their column slices, the denominator, the mean, and the difference
    `mean square - mean²`. Each buffer is the stage function of the table and the source words. -/

theorem A_v14 : (after (hostOps1 : List (HloOp τ sig (Elt Ideal))) X (Proc.devRef .tc main_v14) : S100000x15.Idx → EReal)
    = Stages.v14 (rawOf X) (srcOf X) := by
  dsimp only [hostOps1]; after_results_simp; rfl
theorem A_v15 : (after (hostOps1 : List (HloOp τ sig (Elt Ideal))) X (Proc.devRef .tc main_v15) : S100000x15.Idx → EReal)
    = Stages.v15 (rawOf X) (srcOf X) := by
  dsimp only [hostOps1]; after_results_simp; rfl
theorem A_v16 : (after (hostOps1 : List (HloOp τ sig (Elt Ideal))) X (Proc.devRef .tc main_v16) : S100000x15.Idx → EReal)
    = Stages.v16 (rawOf X) (srcOf X) := by
  dsimp only [hostOps1]; after_results_simp; rfl
theorem A_v17 : (after (hostOps1 : List (HloOp τ sig (Elt Ideal))) X (Proc.devRef .tc main_v17) : S100000x1.Idx → EReal)
    = Stages.v17 (rawOf X) (srcOf X) := by
  dsimp only [hostOps1]; after_results_simp; rfl
theorem A_v19 : (after (hostOps1 : List (HloOp τ sig (Elt Ideal))) X (Proc.devRef .tc main_v19) : S100000x1.Idx → EReal)
    = Stages.v19 (rawOf X) (srcOf X) := by
  dsimp only [hostOps1]; after_results_simp; rfl
theorem A_v21 : (after (hostOps1 : List (HloOp τ sig (Elt Ideal))) X (Proc.devRef .tc main_v21) : S100000x15.Idx → EReal)
    = Stages.v21 (rawOf X) (srcOf X) := by
  dsimp only [hostOps1]; after_results_simp; rfl
theorem A_v25 : (after (hostOps1 : List (HloOp τ sig (Elt Ideal))) X (Proc.devRef .tc main_v25) : S100000x15.Idx → EReal)
    = Stages.v25 (rawOf X) (srcOf X) := by
  dsimp only [hostOps1]; after_results_simp; rfl

/-! ### Second list: the clamp of that difference at zero. It writes three buffers of its own and leaves the slices,
    the count, the denominator and the mean as they were. Its operations carry their operands' types along a type
    equation that is the identity here, so the transports drop out before the comparison. -/

theorem B_v14 : after (hostOps1_1 : List (HloOp τ sig (Elt Ideal))) X (Proc.devRef .tc main_v14) = X (Proc.devRef .tc main_v14) := by
  dsimp only [hostOps1_1]; after_results
theorem B_v15 : after (hostOps1_1 : List (HloOp τ sig (Elt Ideal))) X (Proc.devRef .tc main_v15) = X (Proc.devRef .tc main_v15) := by
  dsimp only [hostOps1_1]; after_results
theorem B_v16 : after (hostOps1_1 : List (HloOp τ sig (Elt Ideal))) X (Proc.devRef .tc main_v16) = X (Proc.devRef .tc main_v16) := by
  dsimp only [hostOps1_1]; after_results
theorem B_v17 : after (hostOps1_1 : List (HloOp τ sig (Elt Ideal))) X (Proc.devRef .tc main_v17) = X (Proc.devRef .tc main_v17) := by
  dsimp only [hostOps1_1]; after_results
theorem B_v19 : after (hostOps1_1 : List (HloOp τ sig (Elt Ideal))) X (Proc.devRef .tc main_v19) = X (Proc.devRef .tc main_v19) := by
  dsimp only [hostOps1_1]; after_results
theorem B_v21 : after (hostOps1_1 : List (HloOp τ sig (Elt Ideal))) X (Proc.devRef .tc main_v21) = X (Proc.devRef .tc main_v21) := by
  dsimp only [hostOps1_1]; after_results

theorem B_v26 (raw : FVec Ideal S4000000x61 .f32) (srcv : IVec S4000000 32) (h25 : (X (Proc.devRef .tc main_v25) : S100000x15.Idx → EReal) = Stages.v25 raw srcv) :
    (after (hostOps1_1 : List (HloOp τ sig (Elt Ideal))) X (Proc.devRef .tc main_v26) : S100000x15.Idx → EReal) = Stages.v26 raw srcv := by
  dsimp only [hostOps1_1]; after_results
  simp only [TRef.ofBuf, TRef.toBuf, cast_eq]
  rw [h25]; rfl

/-! ### Third list: the standard deviation, then the third and fourth central power sums from the raw ones, divided into
    skew and kurtosis. Given that the buffers it reads hold their stage functions, so do the three it is asked for; the
    count and the mean pass through untouched. -/

theorem C_v17 : after (hostOps1_2 : List (HloOp τ sig (Elt Ideal))) X (Proc.devRef .tc main_v17) = X (Proc.devRef .tc main_v17) := by
  dsimp only [hostOps1_2]; after_results_simp
theorem C_v21 : after (hostOps1_2 : List (HloOp τ sig (Elt Ideal))) X (Proc.devRef .tc main_v21) = X (Proc.devRef .tc main_v21) := by
  dsimp only [hostOps1_2]; after_results_simp

theorem C_v29 (raw : FVec Ideal S4000000x61 .f32) (srcv : IVec S4000000 32) (h26 : (X (Proc.devRef .tc main_v26) : S100000x15.Idx → EReal) = Stages.v26 raw srcv) :
    (after (hostOps1_2 : List (HloOp τ sig (Elt Ideal))) X (Proc.devRef .tc main_v29) : S100000x15.Idx → EReal) = Stages.v29 raw srcv := by
  dsimp only [hostOps1_2]; after_results_simp; rw [h26]; rfl

theorem C_v61 (raw : FVec Ideal S4000000x61 .f32) (srcv : IVec S4000000 32)
    (h14 : (X (Proc.devRef .tc main_v14) : S100000x15.Idx → EReal) = Stages.v14 raw srcv) (h15 : (X (Proc.devRef .tc main_v15) : S100000x15.Idx → EReal) = Stages.v15 raw srcv)
    (h17 : (X (Proc.devRef .tc main_v17) : S100000x1.Idx → EReal) = Stages.v17 raw srcv) (h19 : (X (Proc.devRef .tc main_v19) : S100000x1.Idx → EReal) = Stages.v19 raw srcv)
    (h21 : (X (Proc.devRef .tc main_v21) : S100000x15.Idx → EReal) = Stages.v21 raw srcv) (h26 : (X (Proc.devRef .tc main_v26) : S100000x15.Idx → EReal) = Stages.v26 raw srcv) :
    (after (hostOps1_2 : List (HloOp τ sig (Elt Ideal))) X (Proc.devRef .tc main_v61) : S100000x15.Idx → EReal) = Stages.v61 raw srcv := by
  dsimp only [hostOps1_2]; after_results_simp; rw [h14, h15, h17, h19, h21, h26]; rfl

set_option maxHeartbeats 1600000 in
theorem C_v66 (raw : FVec Ideal S4000000x61 .f32) (srcv : IVec S4000000 32)
    (h14 : (X (Proc.devRef .tc main_v14) : S100000x15.Idx → EReal) = Stages.v14 raw srcv) (h15 : (X (Proc.devRef .tc main_v15) : S100000x15.Idx → EReal) = Stages.v15 raw srcv) (h16 : (X (Proc.devRef .tc main_v16) : S100000x15.Idx → EReal) = Stages.v16 raw srcv)
    (h17 : (X (Proc.devRef .tc main_v17) : S100000x1.Idx → EReal) = Stages.v17 raw srcv) (h19 : (X (Proc.devRef .tc main_v19) : S100000x1.Idx → EReal) = Stages.v19 raw srcv)
    (h21 : (X (Proc.devRef .tc main_v21) : S100000x15.Idx → EReal) = Stages.v21 raw srcv) (h26 : (X (Proc.devRef .tc main_v26) : S100000x15.Idx → EReal) = Stages.v26 raw srcv) :
    (after (hostOps1_2 : List (HloOp τ sig (Elt Ideal))) X (Proc.devRef .tc main_v66) : S100000x15.Idx → EReal) = Stages.v66 raw srcv := by
  dsimp only [hostOps1_2]; after_results_simp; rw [h14, h15, h16, h17, h19, h21, h26]; rfl

/-! ### Fourth list: the lookup of each node's row of `u`. It writes only its own buffers, none of the five. -/

theorem D_v17 : after (hostOps1_3 : List (HloOp τ sig (Elt Ideal))) X (Proc.devRef .tc main_v17) = X (Proc.devRef .tc main_v17) := by
  dsimp only [hostOps1_3]; after_results
theorem D_v21 : after (hostOps1_3 : List (HloOp τ sig (Elt Ideal))) X (Proc.devRef .tc main_v21) = X (Proc.devRef .tc main_v21) := by
  dsimp only [hostOps1_3]; after_results
theorem D_v29 : after (hostOps1_3 : List (HloOp τ sig (Elt Ideal))) X (Proc.devRef .tc main_v29) = X (Proc.devRef .tc main_v29) := by
  dsimp only [hostOps1_3]; after_results
theorem D_v61 : after (hostOps1_3 : List (HloOp τ sig (Elt Ideal))) X (Proc.devRef .tc main_v61) = X (Proc.devRef .tc main_v61) := by
  dsimp only [hostOps1_3]; after_results
theorem D_v66 : after (hostOps1_3 : List (HloOp τ sig (Elt Ideal))) X (Proc.devRef .tc main_v66) = X (Proc.devRef .tc main_v66) := by
  dsimp only [hostOps1_3]; after_results

end Stretches

/-! ## The five inputs of the second kernel -/

theorem V8_v17 (c : Dev nD) : (V8 m ρ c main_v17 : S100000x1.Idx → EReal) = Stages.v17 (rawAt m ρ c) (srcAt m ρ c) := by
  dsimp only [V8, W8, W7, W6, W5]
  rw [D_v17, C_v17, B_v17]
  exact A_v17 (W4 m ρ c)

theorem V8_v21 (c : Dev nD) : (V8 m ρ c main_v21 : S100000x15.Idx → EReal) = Stages.v21 (rawAt m ρ c) (srcAt m ρ c) := by
  dsimp only [V8, W8, W7, W6, W5]
  rw [D_v21, C_v21, B_v21]
  exact A_v21 (W4 m ρ c)

theorem V8_v29 (c : Dev nD) : (V8 m ρ c main_v29 : S100000x15.Idx → EReal) = Stages.v29 (rawAt m ρ c) (srcAt m ρ c) := by
  dsimp only [V8, W8, W7, W6, W5]
  rw [D_v29]
  exact C_v29 _ _ _ (B_v26 _ _ _ (A_v25 _))

theorem V8_v61 (c : Dev nD) : (V8 m ρ c main_v61 : S100000x15.Idx → EReal) = Stages.v61 (rawAt m ρ c) (srcAt m ρ c) := by
  dsimp only [V8, W8, W7, W6, W5]
  rw [D_v61]
  exact C_v61 _ _ _ ((B_v14 _).trans (A_v14 _)) ((B_v15 _).trans (A_v15 _)) ((B_v17 _).trans (A_v17 _))
    ((B_v19 _).trans (A_v19 _)) ((B_v21 _).trans (A_v21 _)) (B_v26 _ _ _ (A_v25 _))

theorem V8_v66 (c : Dev nD) : (V8 m ρ c main_v66 : S100000x15.Idx → EReal) = Stages.v66 (rawAt m ρ c) (srcAt m ρ c) := by
  dsimp only [V8, W8, W7, W6, W5]
  rw [D_v66]
  exact C_v66 _ _ _ ((B_v14 _).trans (A_v14 _)) ((B_v15 _).trans (A_v15 _)) ((B_v16 _).trans (A_v16 _))
    ((B_v17 _).trans (A_v17 _)) ((B_v19 _).trans (A_v19 _)) ((B_v21 _).trans (A_v21 _)) (B_v26 _ _ _ (A_v25 _))

end Cert.KernelIdeal.HostB

end
-- ==== Proof.LibScatterRows.lean ====
/-
  The accumulating scatter of the rows of an `[n, C]` table into an `[N, C]` table by an `[n, 1]` column of row words
  (`x.at[idx].add(upd)` along the first axis), read at a position `(i, k)` at the extended reals: the operand there plus
  the sum of the updates `upd[e, k]` over the rows `e` whose word, read signed, is `i`. A word outside `0 … N - 1`
  lands nowhere and adds nothing. Nothing here names a program.
-/
import Idealize.ShloMosaic.PureOps.Ideal
import Idealize.ShloMosaic.Lib.ValueIdx

namespace Cert.ScatterRows

open Idealize.ShloMosaic Idealize.ShloMosaic.ValueIdx

/-- On the first operand axis the window of update position `(e, k')` starts at the word of row `e`, read signed:
    the one start component is read at `(e, 0)` of the index column. -/
theorem start_axis0 {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k' : Fin C) :
    d.start (ix2 e k') idx (0 : Fin 2) = (idx (ix2 e (0 : Fin 1))).toInt := by
  obtain ⟨uw, iw, sd, ivd, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The second operand axis is not named by the index map: the start there is `0`. -/
theorem start_axis1 {N C n w : ℕ} (d : ScatterDims ⟨2, ![N, C]⟩ ⟨2, ![n, 1]⟩ ⟨2, ![n, C]⟩)
    (hsd : d.scatterDimsToOperandDims = [0]) (idx : IVec ⟨2, ![n, 1]⟩ w) (j : (⟨2, ![n, C]⟩ : Shape).Idx) :
    d.start j idx (1 : Fin 2) = 0 := by
  unfold ScatterDims.start
  rw [dif_neg (by rw [hsd]; simp)]

/-- The first operand axis is an inserted one: the window coordinate there is `0`. -/
theorem window_axis0 {N C n : ℕ} (d : ScatterDims ⟨2, ![N, C]⟩ ⟨2, ![n, 1]⟩ ⟨2, ![n, C]⟩)
    (hiw : d.insertedWindowDims = [0]) (j : (⟨2, ![n, C]⟩ : Shape).Idx) :
    d.window j (0 : Fin 2) = 0 := by
  unfold ScatterDims.window
  rw [dif_neg (by rw [ScatterDims.sKept, hiw]; simp [Shape.kept])]

/-- The second operand axis carries the one window axis of the updates: the window coordinate of `(e, k')` there is `k'`. -/
theorem window_axis1 {N C n : ℕ} (d : ScatterDims ⟨2, ![N, C]⟩ ⟨2, ![n, 1]⟩ ⟨2, ![n, C]⟩)
    (huw : d.updateWindowDims = [1]) (hiw : d.insertedWindowDims = [0]) (e : Fin n) (k' : Fin C) :
    d.window (ix2 e k') (1 : Fin 2) = k'.val := by
  obtain ⟨uw, iw, sd, ivd, wf⟩ := d
  simp only at huw hiw
  subst huw hiw
  unfold ScatterDims.window
  rw [dif_pos (by simp [ScatterDims.sKept, Shape.kept])]
  rfl

/-- Update position `(e, k')` lands at operand position `(i, k)` exactly when the word of row `e`, read signed, is `i`
    and the columns agree. (The landing position is (word + 0, 0 + k'); it is kept when the word is in `0 … N - 1`, the
    column bound `k' < C` holding by the type; a word outside that range lands nowhere, and then it is not `i` either.) -/
theorem resultIdx?_rows_iff {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k' : Fin C) (i : Fin N) (k : Fin C) :
    d.resultIdx? (ix2 e k') idx = some (ix2 i k) ↔ (idx (ix2 e (0 : Fin 1))).toInt = (i.val : ℤ) ∧ k' = k := by
  have s0 := start_axis0 d huw hiw hsd hivd idx e k'
  have s1 := start_axis1 d hsd idx (ix2 e k')
  have w0 := window_axis0 d hiw (ix2 e k')
  have w1 := window_axis1 d huw hiw e k'
  have hi := i.isLt
  have hk := k.isLt
  have hk' := k'.isLt
  unfold ScatterDims.resultIdx?
  split
  · next h =>
    rw [Option.some.injEq]
    constructor
    · intro hf
      have e0 := congrArg Fin.val (congrFun hf (0 : Fin 2))
      have e1 := congrArg Fin.val (congrFun hf (1 : Fin 2))
      have b0 := (h (0 : Fin 2)).1
      simp only [s0, s1, w0, w1] at e0 e1 b0
      change _ = i.val at e0
      change _ = k.val at e1
      refine ⟨by omega, Fin.ext (by omega)⟩
    · rintro ⟨hw, rfl⟩
      funext a
      apply Fin.ext
      match a with
      | ⟨0, _⟩ =>
        show (d.start (ix2 e k') idx (0 : Fin 2) + ↑(d.window (ix2 e k') (0 : Fin 2))).toNat = i.val
        rw [s0, w0, hw]; omega
      | ⟨1, _⟩ =>
        show (d.start (ix2 e k') idx (1 : Fin 2) + ↑(d.window (ix2 e k') (1 : Fin 2))).toNat = k'.val
        rw [s1, w1]; omega
  · next h =>
    constructor
    · intro hf; cases hf
    · rintro ⟨hw, rfl⟩
      exfalso
      apply h
      intro a
      match a with
      | ⟨0, _⟩ =>
        show 0 ≤ d.start (ix2 e k') idx (0 : Fin 2) + ↑(d.window (ix2 e k') (0 : Fin 2))
          ∧ d.start (ix2 e k') idx (0 : Fin 2) + ↑(d.window (ix2 e k') (0 : Fin 2)) < (N : ℤ)
        rw [s0, w0, hw]; omega
      | ⟨1, _⟩ =>
        show 0 ≤ d.start (ix2 e k') idx (1 : Fin 2) + ↑(d.window (ix2 e k') (1 : Fin 2))
          ∧ d.start (ix2 e k') idx (1 : Fin 2) + ↑(d.window (ix2 e k') (1 : Fin 2)) < (C : ℤ)
        rw [s1, w1]; omega

/-- The scatter read at `(i, k)`: the sum over all update positions that land there, split by rows, keeps from row `e`
    the one term of column `k` when the word of `e` is `i`, and nothing otherwise. -/
theorem scatterAdd_rows_apply {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e (0 : Fin 1))).toInt = (i.val : ℤ)), upd (ix2 e k) := by
  unfold Ideal.hostScatterAdd
  congr 1
  rw [Finset.sum_filter, Finset.sum_filter, sum_idx2]
  refine Finset.sum_congr rfl fun e _ => ?_
  by_cases hw : (idx (ix2 e (0 : Fin 1))).toInt = (i.val : ℤ)
  · rw [if_pos hw]
    rw [Finset.sum_eq_single k]
    · rw [if_pos ((resultIdx?_rows_iff d huw hiw hsd hivd idx e k i k).mpr ⟨hw, rfl⟩)]
    · intro b _ hb
      rw [if_neg fun hr => hb ((resultIdx?_rows_iff d huw hiw hsd hivd idx e b i k).mp hr).2]
    · intro hk; exact absurd (Finset.mem_univ k) hk
  · rw [if_neg hw]
    refine Finset.sum_eq_zero fun b _ => ?_
    rw [if_neg fun hr => hw ((resultIdx?_rows_iff d huw hiw hsd hivd idx e b i k).mp hr).1]

end Cert.ScatterRows
-- ==== Proof.KStats.lean ====
/-
  The host arithmetic between the two kernels read at a node `i` and a column `j`: when row `e` of the first kernel's table
  is the message row `M e` with its powers and a one, the scattered sums are the segment's power sums and count, and the
  chain of divisions, products and differences is the count, mean, standard deviation, and the skew and kurtosis built
  from the raw power sums.
-/
import proofs.«405589_j74663711473945_2_alg».proof.Proof.KStages
import proofs.«405589_j74663711473945_2_alg».proof.Proof.Spec
import proofs.«405589_j74663711473945_2_alg».proof.Proof.LibScatterRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stats

open Idealize.ShloMosaic Idealize.ShloMosaic.ValueIdx Cert.KernelIdeal Cert.KernelIdeal.Stages

variable (raw : FVec Ideal S4000000x61 .f32) (srcv : IVec S4000000 32) (M : Fin 4000000 → Fin 15 → EReal) (s : Fin 4000000 → BitVec 32)
  (hraw : ∀ (e : Fin 4000000) (k : Fin 61), raw (ix2 e k) = Spec.rawRow (M e) k) (hsrc : ∀ e : Fin 4000000, srcv (ix1 e) = s e)

include hraw hsrc

omit hraw hsrc in
/-- A scalar broadcast to any shape reads the scalar at every position. -/
theorem bcast0_apply {α : Type} {t : Shape} (h : S_.BroadcastsInDim t ![]) (x : S_.Idx → α) (j : t.Idx) :
    broadcastInDim t ![] h x j = x ix0 :=
  broadcastInDim_apply _ h x j ix0 (fun a => a.elim0)

omit hraw hsrc in
/-- A vector laid out as a one-column matrix reads, at row `e`, the vector at `e`. -/
theorem bcastVecCol_apply {α : Type} {n : ℕ} (h : (⟨1, ![n]⟩ : Shape).BroadcastsInDim ⟨2, ![n, 1]⟩ ![0])
    (x : (⟨1, ![n]⟩ : Shape).Idx → α) (e : Fin n) :
    broadcastInDim ⟨2, ![n, 1]⟩ ![0] h x (ix2 e (0 : Fin 1)) = x (ix1 e) :=
  broadcastInDim_apply _ h x _ _ (fun a => by
    match a with
    | ⟨0, _⟩ =>
      have he := e.isLt
      split
      · next h1 => change n = 1 at h1; show e.val = 0; omega
      · rfl)

omit hraw hsrc in
/-- A one-column matrix repeated along the columns reads, at `(i, j)`, the column at row `i`. -/
theorem bcastCol_apply {α : Type} {n m : ℕ} (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i (0 : Fin 1)) :=
  broadcastInDim_apply _ h x _ _ (fun a => by
    match a with
    | ⟨0, _⟩ =>
      have hi := i.isLt
      split
      · next h1 => change n = 1 at h1; show i.val = 0; omega
      · rfl
    | ⟨1, _⟩ =>
      split
      · rfl
      · next h1 => exact absurd rfl h1)

omit hraw hsrc in
/-- The host's accumulating scatter at the extended reals, read at a position, over any shapes. -/
theorem host_scatterAdd_apply {s₀ si su : Shape} {w : ℕ} (d : ScatterDims s₀ si su) (x : FVec Ideal s₀ .f32)
    (idx : IVec si w) (upd : FVec Ideal su .f32) (j : s₀.Idx) :
    Host.scatterAdd (F := Ideal) d x idx upd j = Ideal.hostScatterAdd d x idx upd j :=
  congrFun (Ideal.hostScatterAdd_def d .single x idx upd) j

omit hraw in
/-- The scattered table at `(i, k)`: the zero it starts from plus column `k` of every row whose source word is `i`. -/
theorem v12_apply (i : Fin 100000) (k : Fin 61) :
    v12 raw srcv (ix2 i k) = ∑ e ∈ Spec.seg s i, raw (ix2 e k) := by
  unfold v12
  rw [host_scatterAdd_apply,
    Cert.ScatterRows.scatterAdd_rows_apply scatter_S100000x61_S4000000x1_S4000000x61_1_0_0_1 rfl rfl rfl rfl]
  have h0 : v10 (ix2 i k) = 0 := by
    unfold v10
    rw [bcast0_apply, constant_apply, Ideal.ofBits_zero_f32]
  rw [h0, zero_add]
  unfold Spec.seg
  refine Finset.sum_congr (Finset.filter_congr fun e _ => ?_) fun _ _ => rfl
  unfold v11
  rw [bcastVecCol_apply, hsrc]

omit hraw hsrc in
/-- The host's division and square root at the extended reals, read at a position, over any shape. -/
theorem host_divf_apply {s₀ : Shape} (x y : FVec Ideal s₀ .f32) (j : s₀.Idx) :
    Host.divf x y j = Ideal.div (x j) (y j) := rfl

omit hraw hsrc in
theorem host_sqrt_apply {s₀ : Shape} (x : FVec Ideal s₀ .f32) (j : s₀.Idx) : Host.sqrt x j = Ideal.sqrt (x j) := rfl

omit hraw hsrc in
/-- A broadcast float literal reads the literal's value at every position. -/
theorem bcastConst_apply {t : Shape} (h : S_.BroadcastsInDim t ![]) (b : BitVec 32) (j : t.Idx) :
    broadcastInDim t ![] h (constant (F := Ideal) S_ .f32 b) j = Ideal.ofBits .f32 b := by
  rw [bcast0_apply, constant_apply]

/-! ## A row with its powers, column by column -/

omit hraw hsrc in
theorem rawRow_p1 (mrow : Fin 15 → EReal) (j : Fin 15) (k : Fin 61) (hk : k.val = j.val) :
    Spec.rawRow mrow k = mrow j := by
  unfold Spec.rawRow
  have h0 : k.val < 15 := by omega
  rw [dif_pos h0]
  exact congrArg mrow (Fin.ext hk)

omit hraw hsrc in
theorem rawRow_p2 (mrow : Fin 15 → EReal) (j : Fin 15) (k : Fin 61) (hk : k.val = j.val + 15) :
    Spec.rawRow mrow k = mrow j * mrow j := by
  unfold Spec.rawRow
  have h0 : ¬ k.val < 15 := by omega
  have h1 : k.val < 30 := by omega
  have e : (⟨k.val - 15, by omega⟩ : Fin 15) = j := Fin.ext (by show k.val - 15 = j.val; omega)
  rw [dif_neg h0, dif_pos h1, e]

omit hraw hsrc in
theorem rawRow_p3 (mrow : Fin 15 → EReal) (j : Fin 15) (k : Fin 61) (hk : k.val = j.val + 30) :
    Spec.rawRow mrow k = (mrow j * mrow j) * mrow j := by
  unfold Spec.rawRow
  have h0 : ¬ k.val < 15 := by omega
  have h1 : ¬ k.val < 30 := by omega
  have h2 : k.val < 45 := by omega
  have e : (⟨k.val - 30, by omega⟩ : Fin 15) = j := Fin.ext (by show k.val - 30 = j.val; omega)
  rw [dif_neg h0, dif_neg h1, dif_pos h2, e]

omit hraw hsrc in
theorem rawRow_p4 (mrow : Fin 15 → EReal) (j : Fin 15) (k : Fin 61) (hk : k.val = j.val + 45) :
    Spec.rawRow mrow k = (mrow j * mrow j) * (mrow j * mrow j) := by
  unfold Spec.rawRow
  have h0 : ¬ k.val < 15 := by omega
  have h1 : ¬ k.val < 30 := by omega
  have h2 : ¬ k.val < 45 := by omega
  have h3 : k.val < 60 := by omega
  have e : (⟨k.val - 45, by omega⟩ : Fin 15) = j := Fin.ext (by show k.val - 45 = j.val; omega)
  rw [dif_neg h0, dif_neg h1, dif_neg h2, dif_pos h3, e]

omit hraw hsrc in
theorem rawRow_p5 (mrow : Fin 15 → EReal) (k : Fin 61) (hk : k.val = 60) : Spec.rawRow mrow k = Spec.one := by
  unfold Spec.rawRow
  have h0 : ¬ k.val < 15 := by omega
  have h1 : ¬ k.val < 30 := by omega
  have h2 : ¬ k.val < 45 := by omega
  have h3 : ¬ k.val < 60 := by omega
  rw [dif_neg h0, dif_neg h1, dif_neg h2, dif_neg h3]

/-! ## The five column blocks of the scattered table: the power sums and the count -/

theorem v13_apply (i : Fin 100000) (j : Fin 15) : v13 raw srcv (ix2 i j) = Spec.s1 M s i j := by
  unfold v13 Spec.s1 Spec.segSum
  rw [slice2_axis1_apply 0 (v12 raw srcv) _ i j ⟨j.val, by omega⟩ (Nat.zero_add _).symm, v12_apply raw srcv s hsrc]
  exact Finset.sum_congr rfl fun e _ => (hraw e _).trans (rawRow_p1 (M e) j _ rfl)

theorem v14_apply (i : Fin 100000) (j : Fin 15) : v14 raw srcv (ix2 i j) = Spec.s2 M s i j := by
  unfold v14 Spec.s2 Spec.segSum
  rw [slice2_axis1_apply 15 (v12 raw srcv) _ i j ⟨j.val + 15, by omega⟩ (Nat.add_comm _ _), v12_apply raw srcv s hsrc]
  exact Finset.sum_congr rfl fun e _ => (hraw e _).trans (rawRow_p2 (M e) j _ rfl)

theorem v15_apply (i : Fin 100000) (j : Fin 15) : v15 raw srcv (ix2 i j) = Spec.s3 M s i j := by
  unfold v15 Spec.s3 Spec.segSum
  rw [slice2_axis1_apply 30 (v12 raw srcv) _ i j ⟨j.val + 30, by omega⟩ (Nat.add_comm _ _), v12_apply raw srcv s hsrc]
  exact Finset.sum_congr rfl fun e _ => (hraw e _).trans (rawRow_p3 (M e) j _ rfl)

theorem v16_apply (i : Fin 100000) (j : Fin 15) : v16 raw srcv (ix2 i j) = Spec.s4 M s i j := by
  unfold v16 Spec.s4 Spec.segSum
  rw [slice2_axis1_apply 45 (v12 raw srcv) _ i j ⟨j.val + 45, by omega⟩ (Nat.add_comm _ _), v12_apply raw srcv s hsrc]
  exact Finset.sum_congr rfl fun e _ => (hraw e _).trans (rawRow_p4 (M e) j _ rfl)

theorem v17_apply (i : Fin 100000) : v17 raw srcv (ix2 i (0 : Fin 1)) = Spec.cnt s i := by
  unfold v17 Spec.cnt Spec.segSum
  rw [slice2_axis1_apply 60 (v12 raw srcv) _ i (0 : Fin 1) ⟨60, by omega⟩ rfl, v12_apply raw srcv s hsrc]
  exact Finset.sum_congr rfl fun e _ => (hraw e _).trans (rawRow_p5 (M e) _ rfl)

/-! ## The literals -/

omit hraw hsrc in
theorem v18_apply (i : Fin 100000) : v18 (ix2 i (0 : Fin 1)) = Spec.one := by
  unfold v18 Spec.one
  rw [bcastConst_apply]

omit hraw hsrc in
theorem c1v0_apply (i : Fin 100000) (j : Fin 15) : (c1v0 (ix2 i j) : EReal) = 0 := by
  unfold c1v0
  rw [bcastConst_apply, Ideal.ofBits_zero_f32]

omit hraw hsrc in
theorem v27_apply (i : Fin 100000) (j : Fin 15) : v27 (ix2 i j) = Spec.eps := by
  unfold v27 Spec.eps
  rw [bcastConst_apply]

omit hraw hsrc in
theorem v30_apply (i : Fin 100000) (j : Fin 15) : v30 (ix2 i j) = Spec.three := by
  unfold v30 Spec.three
  rw [bcastConst_apply]

omit hraw hsrc in
theorem v34_apply (i : Fin 100000) : v34 (ix2 i (0 : Fin 1)) = Spec.two := by
  unfold v34 Spec.two
  rw [bcastConst_apply]

omit hraw hsrc in
theorem v41_apply (i : Fin 100000) (j : Fin 15) : v41 (ix2 i j) = Spec.four := by
  unfold v41 Spec.four
  rw [bcastConst_apply]

omit hraw hsrc in
theorem v46_apply (i : Fin 100000) (j : Fin 15) : v46 (ix2 i j) = Spec.six := by
  unfold v46 Spec.six
  rw [bcastConst_apply]

omit hraw hsrc in
theorem v50_apply (i : Fin 100000) : v50 (ix2 i (0 : Fin 1)) = Spec.three := by
  unfold v50 Spec.three
  rw [bcastConst_apply]

/-! ## The divisor, the mean, the mean square, the standard deviation -/

theorem v19_apply (i : Fin 100000) : v19 raw srcv (ix2 i (0 : Fin 1)) = Spec.den s i := by
  unfold v19 Spec.den
  rw [maximumf_apply, v17_apply raw srcv M s hraw hsrc, v18_apply]

theorem v20_apply (i : Fin 100000) (j : Fin 15) : v20 raw srcv (ix2 i j) = Spec.den s i := by
  unfold v20
  rw [bcastCol_apply, v19_apply raw srcv M s hraw hsrc]

theorem v21_apply (i : Fin 100000) (j : Fin 15) : v21 raw srcv (ix2 i j) = Spec.mean M s i j := by
  unfold v21 Spec.mean
  rw [host_divf_apply, v13_apply raw srcv M s hraw hsrc, v20_apply raw srcv M s hraw hsrc]

theorem v23_apply (i : Fin 100000) (j : Fin 15) : v23 raw srcv (ix2 i j) = Spec.mean2 M s i j := by
  unfold v23 Spec.mean2
  rw [host_divf_apply, v14_apply raw srcv M s hraw hsrc, v20_apply raw srcv M s hraw hsrc]

theorem v29_apply (i : Fin 100000) (j : Fin 15) : v29 raw srcv (ix2 i j) = Spec.std M s i j := by
  unfold v29 v28 v26 v25 v24 Spec.std
  rw [host_sqrt_apply, addf_apply, maximumf_apply, subf_apply, v23_apply raw srcv M s hraw hsrc, mulf_apply, v21_apply raw srcv M s hraw hsrc,
    c1v0_apply, v27_apply]

/-! ## The third central power sum from the raw ones -/

theorem v31_apply (i : Fin 100000) (j : Fin 15) :
    v31 raw srcv (ix2 i j) = Spec.three * Spec.mean M s i j := by
  unfold v31
  rw [mulf_apply, v30_apply, v21_apply raw srcv M s hraw hsrc]

theorem v33_apply (i : Fin 100000) (j : Fin 15) :
    v33 raw srcv (ix2 i j) = Spec.s3 M s i j - (Spec.three * Spec.mean M s i j) * Spec.s2 M s i j := by
  unfold v33 v32
  rw [subf_apply, v15_apply raw srcv M s hraw hsrc, mulf_apply, v31_apply raw srcv M s hraw hsrc, v14_apply raw srcv M s hraw hsrc]

theorem v35_apply (i : Fin 100000) : v35 raw srcv (ix2 i (0 : Fin 1)) = Spec.two * Spec.cnt s i := by
  unfold v35
  rw [mulf_apply, v34_apply, v17_apply raw srcv M s hraw hsrc]

theorem v36_apply (i : Fin 100000) (j : Fin 15) :
    v36 raw srcv (ix2 i j) = Spec.mean M s i j * Spec.mean M s i j := by
  unfold v36
  rw [mulf_apply, v21_apply raw srcv M s hraw hsrc]

theorem v39_apply (i : Fin 100000) (j : Fin 15) :
    v39 raw srcv (ix2 i j)
      = (Spec.two * Spec.cnt s i) * ((Spec.mean M s i j * Spec.mean M s i j) * Spec.mean M s i j) := by
  unfold v39 v38 v37
  rw [mulf_apply, bcastCol_apply, v35_apply raw srcv M s hraw hsrc, mulf_apply, v36_apply raw srcv M s hraw hsrc, v21_apply raw srcv M s hraw hsrc]

theorem v40_apply (i : Fin 100000) (j : Fin 15) : v40 raw srcv (ix2 i j) = Spec.d3K M s i j := by
  unfold v40 Spec.d3K
  rw [addf_apply, v33_apply raw srcv M s hraw hsrc, v39_apply raw srcv M s hraw hsrc]

/-! ## The fourth central power sum from the raw ones -/

theorem v44_apply (i : Fin 100000) (j : Fin 15) :
    v44 raw srcv (ix2 i j) = Spec.s4 M s i j - (Spec.four * Spec.mean M s i j) * Spec.s3 M s i j := by
  unfold v44 v43 v42
  rw [subf_apply, v16_apply raw srcv M s hraw hsrc, mulf_apply, mulf_apply, v41_apply, v21_apply raw srcv M s hraw hsrc, v15_apply raw srcv M s hraw hsrc]

theorem v48_apply (i : Fin 100000) (j : Fin 15) :
    v48 raw srcv (ix2 i j) = (Spec.six * (Spec.mean M s i j * Spec.mean M s i j)) * Spec.s2 M s i j := by
  unfold v48 v47 v45
  rw [mulf_apply, mulf_apply, v46_apply, mulf_apply, v21_apply raw srcv M s hraw hsrc, v14_apply raw srcv M s hraw hsrc]

theorem v55_apply (i : Fin 100000) (j : Fin 15) :
    v55 raw srcv (ix2 i j)
      = (Spec.three * Spec.cnt s i)
        * ((Spec.mean M s i j * Spec.mean M s i j) * (Spec.mean M s i j * Spec.mean M s i j)) := by
  unfold v55 v54 v53 v52 v51
  rw [mulf_apply, bcastCol_apply, mulf_apply, v50_apply, v17_apply raw srcv M s hraw hsrc, mulf_apply, mulf_apply, v21_apply raw srcv M s hraw hsrc]

theorem v56_apply (i : Fin 100000) (j : Fin 15) : v56 raw srcv (ix2 i j) = Spec.d4K M s i j := by
  unfold v56 v49 Spec.d4K
  rw [subf_apply, addf_apply, v44_apply raw srcv M s hraw hsrc, v48_apply raw srcv M s hraw hsrc, v55_apply raw srcv M s hraw hsrc]

/-! ## Skew and kurtosis -/

theorem v61_apply (i : Fin 100000) (j : Fin 15) : v61 raw srcv (ix2 i j) = Spec.skewK M s i j := by
  unfold v61 v58 v60 v59 Spec.skewK Spec.skewOf
  rw [host_divf_apply, host_divf_apply, v40_apply raw srcv M s hraw hsrc, v20_apply raw srcv M s hraw hsrc, mulf_apply, mulf_apply, v29_apply raw srcv M s hraw hsrc]

theorem v66_apply (i : Fin 100000) (j : Fin 15) : v66 raw srcv (ix2 i j) = Spec.kurtK M s i j := by
  unfold v66 v63 v65 v64 Spec.kurtK Spec.kurtOf
  rw [host_divf_apply, host_divf_apply, v56_apply raw srcv M s hraw hsrc, v20_apply raw srcv M s hraw hsrc, mulf_apply, mulf_apply, v29_apply raw srcv M s hraw hsrc]

end Cert.KernelIdeal.Stats

end
-- ==== Proof.KValue.lean ====
/-
  The kernel program's result, whole: under "every target word is a row of x_t and every batch word a row of u", the result
  table at node `i`, column `k` is the second perceptron of node `i`'s features — `x_s`, the segment's count, mean and
  standard deviation of the messages, the skew and kurtosis built from the raw power sums, and the node's row of `u`.
-/
import proofs.«405589_j74663711473945_2_alg».proof.Proof.KRun
import proofs.«405589_j74663711473945_2_alg».proof.Proof.KArr0
import proofs.«405589_j74663711473945_2_alg».proof.Proof.KArr1
import proofs.«405589_j74663711473945_2_alg».proof.Proof.KHostA
import proofs.«405589_j74663711473945_2_alg».proof.Proof.KHostB
import proofs.«405589_j74663711473945_2_alg».proof.Proof.KStats
import proofs.«405589_j74663711473945_2_alg».proof.Proof.KArgs

set_option maxRecDepth 16384

noncomputable section

namespace Cert.KernelIdeal.Val

open Idealize.ShloMosaic Idealize.ShloMosaic.ValueIdx Idealize.ShloMosaic.TcCoe Idealize.SL.Sem Cert.KernelIdeal Cert.KernelIdeal.Gen
open Cert.KernelIdeal.Args

variable (m : (ℓ : Loc nD τ sig) → Buf (Elt Ideal) ℓ) (ρ : Dev nD → PrngReg)

/-- Row `e` of the table the first kernel leaves: edge `e`'s message with its powers and a one. -/
theorem raw_apply (c : Dev nD) (htgt : ∀ e : Fin 4000000, 0 ≤ (tgt m c e).toInt ∧ (tgt m c e).toInt < 100000)
    (e : Fin 4000000) (k : Fin 61) :
    (HostB.rawAt m ρ c) (ix2 e k) = Spec.rawRow (M m c e) k := by
  have h4 : (W4 m ρ c (Proc.devRef .tc main_v9) : S4000000x61.Idx → EReal) = (dat0 (F := Ideal) (V3 m ρ) c).arrAt 6 cfg0.N :=
    W4_arr m ρ c 6
  show (W4 m ρ c (Proc.devRef .tc main_v9) : S4000000x61.Idx → EReal) (ix2 e k) = _
  rw [h4, Arr0.arr0_apply (V3 m ρ) c e k, HostA.V3_arr1, HostA.V3_arr2, HostA.V3_arr3, HostA.V3_arr4, HostA.V3_arr5]
  have hrow : (fun j : Fin 5 => (V3 m ρ c (Pipeline.arrRef spec0 0) : S4000000x5.Idx → EReal) (ix2 e j))
      = fun j => xt m c (ix2 (Spec.rowOf Spec.nN (by decide) (Spec.wrapW 100000#32 (tgt m c e))) j) :=
    funext fun j => HostA.V3_arr0 m ρ c htgt e j
  rw [hrow]
  rfl

set_option maxHeartbeats 2000000 in
/-- The result table at node `i`, column `k`. -/
theorem value (c : Dev nD) (htgt : ∀ e : Fin 4000000, 0 ≤ (tgt m c e).toInt ∧ (tgt m c e).toInt < 100000)
    (hb : ∀ i : Fin 100000, 0 ≤ (batch m c i).toInt ∧ (batch m c i).toInt < 64) (i : Fin 100000) (k : Fin 10) :
    (W9 m ρ c (Proc.devRef .tc main_v68) : S100000x10.Idx → EReal) (ix2 i k)
      = Spec.outOf (xs m c) (uu m c) (batch m c) (M m c) (src m c) (Spec.skewK (M m c) (src m c)) (Spec.kurtK (M m c) (src m c))
          (w1b m c) (b1b m c) (w2b m c) (b2b m c) i k := by
  have hraw := raw_apply m ρ c htgt
  have hsrc := HostA.W4_src m ρ c
  refine (congrFun (W9_arr m ρ c 11) (ix2 i k)).trans ?_
  rw [Arr1.arr1_apply (V8 m ρ) c i k, HostA.V8_arr0, HostA.V8_arr7, HostA.V8_arr8, HostA.V8_arr9, HostA.V8_arr10]
  have h1 : (V8 m ρ c (Pipeline.arrRef spec1 1) : S100000x1.Idx → EReal) (ix2 i (0 : Fin 1)) = Spec.cnt (src m c) i := by
    show (V8 m ρ c main_v17 : S100000x1.Idx → EReal) (ix2 i (0 : Fin 1)) = _
    rw [HostB.V8_v17]; exact Stats.v17_apply _ _ (M m c) (src m c) hraw hsrc i
  have h2 : (fun j : Fin 15 => (V8 m ρ c (Pipeline.arrRef spec1 2) : S100000x15.Idx → EReal) (ix2 i j)) = Spec.mean (M m c) (src m c) i := by
    funext j
    show (V8 m ρ c main_v21 : S100000x15.Idx → EReal) (ix2 i j) = _
    rw [HostB.V8_v21]; exact Stats.v21_apply _ _ (M m c) (src m c) hraw hsrc i j
  have h3 : (fun j : Fin 15 => (V8 m ρ c (Pipeline.arrRef spec1 3) : S100000x15.Idx → EReal) (ix2 i j)) = Spec.std (M m c) (src m c) i := by
    funext j
    show (V8 m ρ c main_v29 : S100000x15.Idx → EReal) (ix2 i j) = _
    rw [HostB.V8_v29]; exact Stats.v29_apply _ _ (M m c) (src m c) hraw hsrc i j
  have h4 : (fun j : Fin 15 => (V8 m ρ c (Pipeline.arrRef spec1 4) : S100000x15.Idx → EReal) (ix2 i j)) = Spec.skewK (M m c) (src m c) i := by
    funext j
    show (V8 m ρ c main_v61 : S100000x15.Idx → EReal) (ix2 i j) = _
    rw [HostB.V8_v61]; exact Stats.v61_apply _ _ (M m c) (src m c) hraw hsrc i j
  have h5 : (fun j : Fin 15 => (V8 m ρ c (Pipeline.arrRef spec1 5) : S100000x15.Idx → EReal) (ix2 i j)) = Spec.kurtK (M m c) (src m c) i := by
    funext j
    show (V8 m ρ c main_v66 : S100000x15.Idx → EReal) (ix2 i j) = _
    rw [HostB.V8_v66]; exact Stats.v66_apply _ _ (M m c) (src m c) hraw hsrc i j
  have h6 : (fun j : Fin 10 => (V8 m ρ c (Pipeline.arrRef spec1 6) : S100000x10.Idx → EReal) (ix2 i j)) = Spec.uRow (uu m c) (batch m c) i :=
    funext fun j => HostA.V8_arr6 m ρ c hb i j
  rw [h1, h2, h3, h4, h5, h6]
  rfl

end Cert.KernelIdeal.Val

end
-- ==== Proof.RMsg.lean ====
/-
  The reference program's first stretch, one definition per operation: from the edge-index table to the message table.

  Row 0 of the `[2, E]` index table is the source words, row 1 the target words. A negative target word has the node
  count added to it; the resulting column of words picks, for every edge, a row of `x_t` (the word read signed and held
  inside the table). That row laid beside the edge's own attributes is the edge's 15 features. A matrix product with
  `w1a` plus the bias `b1a`, the leaky rectifier (the value itself where it is at least zero, the slope times it
  elsewhere), a second matrix product with `w2a` plus `b2a`: the message.

  Two facts are proved. The first stage read at edge `e` is the table's row 0 at `e`. The last stage read at
  `(e, c)` is `Spec.msg` at `(e, c)` for the target words of row 1: the gather reads the held row, the concatenation
  is the `dite` of `Spec.cat5_10`, each matrix product is a sum over the fifteen contracted positions, the bias is read
  at the column, and the rectifier compares against the real zero.
-/
import proofs.«405589_j74663711473945_2_alg».proof.ReferenceIdeal
import proofs.«405589_j74663711473945_2_alg».proof.Proof.Gen.ReferenceIdeal
import proofs.«405589_j74663711473945_2_alg».proof.Proof.Spec
import proofs.«405589_j74663711473945_2_alg».proof.Proof.LibMatrixRead
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RMsg

open Idealize.ShloMosaic Idealize.ShloMosaic.ValueIdx Cert.ReferenceIdeal Cert.ReferenceIdeal.Facts₀ Cert.ReferenceIdeal.Facts

variable (xt : FVec Ideal S100000x5 .f32) (ea : FVec Ideal S4000000x10 .f32) (ei : IVec S2x4000000 32)
  (w1a : FVec Ideal S15x15 .f32) (b1a : FVec Ideal S15 .f32) (w2a : FVec Ideal S15x15 .f32) (b2a : FVec Ideal S15 .f32)

/-! ## The stages -/

def v0 : IVec S1x4000000 32 := extractStridedSlice S1x4000000 ![0, 0] ei slices_S2x4000000_S1x4000000_0_0
def v1 : IVec S4000000 32 := shapeCast S4000000 (v0 ei) shapeCasts_S1x4000000_S4000000
def v2 : IVec S1x4000000 32 := extractStridedSlice S1x4000000 ![1, 0] ei slices_S2x4000000_S1x4000000_1_0
def v3 : IVec S4000000 32 := shapeCast S4000000 (v2 ei) shapeCasts_S1x4000000_S4000000
def v4 : IVec S4000000 32 := broadcastInDim S4000000 ![] bcast_S_S4000000 (constantI S_ 32 0#32)
def v5 : IVec S4000000 1 := cmpi .slt (v3 ei) v4
def v6 : IVec S4000000 32 := broadcastInDim S4000000 ![] bcast_S_S4000000 (constantI S_ 32 100000#32)
def v7 : IVec S4000000 32 := addi (v3 ei) v6
def v8 : IVec S4000000 32 := select (v5 ei) (v7 ei) (v3 ei)
def v9 : IVec S4000000x1 32 := broadcastInDim S4000000x1 ![0] bcast_S4000000_S4000000x1_0 (v8 ei)
def v10 : FVec Ideal S4000000x5 .f32 := Host.gather gather_S100000x5_S4000000x1_S4000000x5_1_0_n_n_0_1_15 xt (v9 ei)
def v11 : FVec Ideal S4000000x15 .f32 :=
  concatenate S4000000x15 1 [⟨S4000000x5, v10 xt ei⟩, ⟨S4000000x10, ea⟩] concatenates_S4000000x5_S4000000x10_S4000000x15_d1
def v12 : FVec Ideal S4000000x15 .f32 :=
  Host.dotGeneral (F := Ideal) dot_S4000000x15_S15x15_S4000000x15_1_0_0_1_n_n none (v11 xt ea ei) w1a
def v13 : FVec Ideal S1x15 .f32 := broadcastInDim S1x15 ![1] bcast_S15_S1x15_1 b1a
def v14 : FVec Ideal S4000000x15 .f32 := broadcastInDim S4000000x15 ![0, 1] bcast_S1x15_S4000000x15_0_1 (v13 b1a)
def v15 : FVec Ideal S4000000x15 .f32 := addf (v12 xt ea ei w1a) (v14 b1a)
def lr_v0 : FVec Ideal S4000000x15 .f32 :=
  broadcastInDim S4000000x15 ![] bcast_S_S4000000x15 (constant (F := Ideal) S_ .f32 0x00000000#32)
def lr_v1 : IVec S4000000x15 1 := cmpf .oge (v15 xt ea ei w1a b1a) lr_v0
def lr_v2 : FVec Ideal S_ .f32 := id (constant (F := Ideal) S_ .f32 0x3DCCCCCD#32)
def lr_v3 : FVec Ideal S4000000x15 .f32 := broadcastInDim S4000000x15 ![] bcast_S_S4000000x15 lr_v2
def lr_v4 : FVec Ideal S4000000x15 .f32 := mulf lr_v3 (v15 xt ea ei w1a b1a)
def v16 : FVec Ideal S4000000x15 .f32 := select (lr_v1 xt ea ei w1a b1a) (v15 xt ea ei w1a b1a) (lr_v4 xt ea ei w1a b1a)
def v17 : FVec Ideal S4000000x15 .f32 :=
  Host.dotGeneral (F := Ideal) dot_S4000000x15_S15x15_S4000000x15_1_0_0_1_n_n none (v16 xt ea ei w1a b1a) w2a
def v18 : FVec Ideal S1x15 .f32 := broadcastInDim S1x15 ![1] bcast_S15_S1x15_1 b2a
def v19 : FVec Ideal S4000000x15 .f32 := broadcastInDim S4000000x15 ![0, 1] bcast_S1x15_S4000000x15_0_1 (v18 b2a)
def v20 : FVec Ideal S4000000x15 .f32 := addf (v17 xt ea ei w1a b1a w2a) (v19 b2a)

/-! ## The two facts -/

/-- Row `r` of the index table, flattened: the slice at offset `(r, 0)` then the reshape reads the table at `(r, e)`. -/
theorem row_apply (r : Fin 2) (h : S2x4000000.Slices ![r.val, 0] S1x4000000) (e : Fin 4000000) :
    shapeCast S4000000 (extractStridedSlice S1x4000000 ![r.val, 0] ei h) shapeCasts_S1x4000000_S4000000 (ix1 e) = ei (ix2 r e) := by
  rw [shapeCast_apply _ _ (ix1 e) (ix2 (0 : Fin 1) e) (by rw [Shape.rowMajor_val_two, Shape.rowMajor_val_one]; simp)]
  refine extractStridedSlice_apply _ _ _ _ _ (fun a => ?_)
  match a with
  | ⟨0, _⟩ => simp
  | ⟨1, _⟩ => simp

theorem v1_apply (e : Fin 4000000) : v1 ei (ValueIdx.ix1 e) = ei (ValueIdx.ix2 (0 : Fin 2) e) :=
  row_apply ei 0 slices_S2x4000000_S1x4000000_0_0 e

theorem v3_apply (e : Fin 4000000) : v3 ei (ValueIdx.ix1 e) = ei (ValueIdx.ix2 (1 : Fin 2) e) :=
  row_apply ei 1 slices_S2x4000000_S1x4000000_1_0 e

/-! ### The matrix product at a position -/

theorem lhs_dot_0 (j : S4000000x15.Idx) (k : dot_S4000000x15_S15x15_S4000000x15_1_0_0_1_n_n.contr.Idx) :
    (dot_S4000000x15_S15x15_S4000000x15_1_0_0_1_n_n.lhsIdx j k 0).val = (j 0).val := by
  unfold DotDims.lhsIdx
  rw [dif_neg (show ¬ (0 : Fin S4000000x15.rank) ∈ dot_S4000000x15_S15x15_S4000000x15_1_0_0_1_n_n.lhsBatch by decide),
    dif_pos (show (0 : Fin S4000000x15.rank) ∈ dot_S4000000x15_S15x15_S4000000x15_1_0_0_1_n_n.lhsNonContracting by decide)]
  rfl

theorem lhs_dot_1 (j : S4000000x15.Idx) (k : dot_S4000000x15_S15x15_S4000000x15_1_0_0_1_n_n.contr.Idx) :
    (dot_S4000000x15_S15x15_S4000000x15_1_0_0_1_n_n.lhsIdx j k 1).val = (k ⟨0, by decide⟩).val :=
  DotDims.lhsIdx_val_of_single _ rfl j k

theorem rhs_dot_0 (j : S4000000x15.Idx) (k : dot_S4000000x15_S15x15_S4000000x15_1_0_0_1_n_n.contr.Idx) :
    (dot_S4000000x15_S15x15_S4000000x15_1_0_0_1_n_n.rhsIdx j k 0).val = (k ⟨0, by decide⟩).val :=
  DotDims.rhsIdx_val_of_single _ rfl j k

theorem rhs_dot_1 (j : S4000000x15.Idx) (k : dot_S4000000x15_S15x15_S4000000x15_1_0_0_1_n_n.contr.Idx) :
    (dot_S4000000x15_S15x15_S4000000x15_1_0_0_1_n_n.rhsIdx j k 1).val = (j 1).val := by
  unfold DotDims.rhsIdx
  rw [dif_neg (show ¬ (1 : Fin S15x15.rank) ∈ dot_S4000000x15_S15x15_S4000000x15_1_0_0_1_n_n.rhsBatch by decide),
    dif_pos (show (1 : Fin S15x15.rank) ∈ dot_S4000000x15_S15x15_S4000000x15_1_0_0_1_n_n.rhsNonContracting by decide)]
  rfl

/-- The product of an `[E, 15]` table with a `[15, 15]` matrix at `(e, c)`: the sum over the fifteen contracted positions. -/
theorem dot_apply (l : FVec Ideal S4000000x15 .f32) (r : FVec Ideal S15x15 .f32) (e : Fin 4000000) (c : Fin 15) :
    Host.dotGeneral (F := Ideal) dot_S4000000x15_S15x15_S4000000x15_1_0_0_1_n_n none l r (ix2 e c)
      = ∑ j : Fin 15, l (ix2 e j) * r (ix2 j c) := by
  simp only [Host.dotGeneral]
  rw [Ideal.dotGeneral_apply]
  rw [← Equiv.sum_comp (contrEquiv1 dot_S4000000x15_S15x15_S4000000x15_1_0_0_1_n_n 15 rfl rfl).symm]
  refine Finset.sum_congr rfl (fun j _ => ?_)
  have hk := contrEquiv1_symm_val dot_S4000000x15_S15x15_S4000000x15_1_0_0_1_n_n 15 rfl rfl j
  congr 2
  · funext a
    apply Fin.ext
    match a with
    | ⟨0, _⟩ => exact lhs_dot_0 _ _
    | ⟨1, _⟩ => exact (lhs_dot_1 _ _).trans hk
  · funext a
    apply Fin.ext
    match a with
    | ⟨0, _⟩ => exact (rhs_dot_0 _ _).trans hk
    | ⟨1, _⟩ => exact rhs_dot_1 _ _

/-! ### The target words, wrapped, as an index column; the gathered rows -/

/-- The wrapped target word of edge `e`. -/
theorem v8_apply (e : Fin 4000000) : v8 ei (ix1 e) = Spec.wrapW 100000#32 (ei (ix2 (1 : Fin 2) e)) := by
  show Scalar.select (IntOp.cmpi .slt (v3 ei (ix1 e)) 0#32) (IntOp.addi (v3 ei (ix1 e)) 100000#32) (v3 ei (ix1 e)) = _
  rw [v3_apply]
  rfl

/-- The index column at `(e, 0)` is the wrapped word. -/
theorem v9_apply (e : Fin 4000000) : v9 ei (ix2 e (0 : Fin 1)) = Spec.wrapW 100000#32 (ei (ix2 (1 : Fin 2) e)) := by
  rw [← v8_apply]
  unfold v9
  refine broadcastInDim_apply _ _ _ _ _ (fun a => ?_)
  match a with
  | ⟨0, _⟩ => simp

/-- The gathered table at `(e, j)`: `x_t` at the held row the wrapped word names. -/
theorem v10_apply (e : Fin 4000000) (j : Fin 5) :
    v10 xt ei (ix2 e j) = xt (ix2 (Spec.rowOf Spec.nN (by decide) (Spec.wrapW 100000#32 (ei (ix2 (1 : Fin 2) e)))) j) := by
  unfold v10
  rw [Cert.MatrixRead.gather_rows_apply gather_S100000x5_S4000000x1_S4000000x5_1_0_n_n_0_1_15 rfl rfl rfl rfl rfl xt (v9 ei) e j
    (by decide)]
  refine congrArg (fun r => xt (ix2 r j)) (Fin.ext ?_)
  show min (v9 ei (ix2 e (0 : Fin 1))).toInt.toNat (100000 - 1) = _
  rw [v9_apply]
  rfl

/-- The feature table at `(e, k)`: the gathered row, then the edge's own attributes. -/
theorem v11_apply (e : Fin 4000000) (k : Fin 15) :
    v11 xt ea ei (ix2 e k) = Spec.edgeFeat xt ea (fun e => ei (ix2 (1 : Fin 2) e)) e k := by
  unfold v11 Spec.edgeFeat Spec.cat5_10
  by_cases h : k.val < 5
  · rw [dif_pos h]
    show _ = xt (ix2 (Spec.rowOf Spec.nN (by decide) (Spec.wrapW 100000#32 (ei (ix2 (1 : Fin 2) e)))) ⟨k.val, h⟩)
    rw [← v10_apply xt ei e ⟨k.val, h⟩]
    refine concatenate_pair_apply_left (t := S4000000x15) (s₁ := S4000000x5) (s₂ := S4000000x10) 1 (v10 xt ei) ea _ (ix2 e k) rfl
      (ix2 e ⟨k.val, h⟩) (fun b => ?_)
    match b with
    | ⟨0, _⟩ => rfl
    | ⟨1, _⟩ => rfl
  · rw [dif_neg h]
    show _ = ea (ix2 e (⟨k.val - 5, by omega⟩ : Fin 10))
    refine concatenate_pair_apply_right (t := S4000000x15) (s₁ := S4000000x5) (s₂ := S4000000x10) 1 (v10 xt ei) ea _ (ix2 e k) rfl rfl
      (ix2 e (⟨k.val - 5, by omega⟩ : Fin 10)) (fun b hb => ?_) ?_
    · match b with
      | ⟨0, _⟩ => rfl
      | ⟨1, _⟩ => exact absurd rfl hb
    · show k.val - 5 + 5 = k.val
      omega

/-! ### The bias row and the rectifier -/

/-- A bias vector spread over the rows, read at `(e, c)`: the vector at `c`. -/
theorem bias_apply (b : FVec Ideal S15 .f32) (e : Fin 4000000) (c : Fin 15) :
    broadcastInDim S4000000x15 ![0, 1] bcast_S1x15_S4000000x15_0_1 (broadcastInDim S1x15 ![1] bcast_S15_S1x15_1 b) (ix2 e c) = b (ix1 c) := by
  rw [broadcastInDim_apply _ _ _ (ix2 e c) (ix2 (0 : Fin 1) c) (fun a => by
    match a with
    | ⟨0, _⟩ => simp
    | ⟨1, _⟩ => simp)]
  refine broadcastInDim_apply _ _ _ _ _ (fun a => ?_)
  match a with
  | ⟨0, _⟩ => simp

/-- The rectified table at an index: `Spec.leaky` of the table before it. -/
theorem v16_apply (i : S4000000x15.Idx) :
    v16 xt ea ei w1a b1a i = Spec.leaky (v15 xt ea ei w1a b1a i) := by
  show Scalar.select (Ideal.cmp .oge (v15 xt ea ei w1a b1a i) (Ideal.ofBits .f32 0x00000000#32)) (v15 xt ea ei w1a b1a i)
    (Ideal.ofBits .f32 0x3DCCCCCD#32 * v15 xt ea ei w1a b1a i) = _
  rw [Ideal.ofBits_zero_f32]
  rfl

theorem v20_apply (e : Fin 4000000) (c : Fin 15) :
    v20 xt ea ei w1a b1a w2a b2a (ValueIdx.ix2 e c)
      = Spec.msg xt ea (fun e => ei (ValueIdx.ix2 (1 : Fin 2) e)) w1a b1a w2a b2a e c := by
  have h15 : ∀ j : Fin 15, v15 xt ea ei w1a b1a (ix2 e j)
      = Spec.dense w1a b1a (Spec.edgeFeat xt ea (fun e => ei (ix2 (1 : Fin 2) e)) e) j := fun j => by
    show v12 xt ea ei w1a (ix2 e j) + v14 b1a (ix2 e j) = _
    unfold v12 v14 v13 Spec.dense
    rw [dot_apply, bias_apply]
    simp only [v11_apply]
  show v17 xt ea ei w1a b1a w2a (ix2 e c) + v19 b2a (ix2 e c) = _
  unfold v17 v19 v18 Spec.msg Spec.mlp Spec.dense
  rw [dot_apply, bias_apply]
  simp only [v16_apply, h15]
  rfl

end Cert.ReferenceIdeal.RMsg

end
-- ==== Proof.RStats.lean ====
/-
  The segment statistics as the second program computes them, one definition per operation, as functions of the
  `[4000000, 15]` message table `msg` and the source words `srcv`.

  A column of ones scattered by the source words counts each node's edges; `denom = max(count, 1)`. The messages and
  their squares scattered the same way and divided by `denom` give the mean and the mean square; the variance
  `mean2 - mean·mean` is clamped at zero, a small constant is added and the square root taken: the standard deviation.
  Each edge then reads back the mean of the node its source word names (a negative word first gets the number of
  nodes added, and the row is held inside the table), the deviation `d = m - mean` is raised to the third and fourth
  powers as `(d·d)·d` and `((d·d)·d)·d`, these are scattered and divided by `denom`, and the quotients by
  `(std·std)·std` and `(std·std)·(std·std)` are the skew and the kurtosis.

  Read at a node `i` and a column `j`, an accumulating scatter into a table of zeros is the sum of the scattered rows
  over the edges whose source word, read signed, is `i`; every other operation is pointwise or a broadcast of a
  one-column table along its rows. So each table, read at `(i, j)`, is the matching quantity of `Cert.Spec`.
-/
import proofs.«405589_j74663711473945_2_alg».proof.ReferenceIdeal
import proofs.«405589_j74663711473945_2_alg».proof.Proof.Gen.ReferenceIdeal
import proofs.«405589_j74663711473945_2_alg».proof.Proof.Spec
import proofs.«405589_j74663711473945_2_alg».proof.Proof.LibScatterRows
import proofs.«405589_j74663711473945_2_alg».proof.Proof.LibMatrixRead
import Idealize.ShloMosaic.PureOps.Ideal
import Idealize.ShloMosaic.Lib.ValueIdx

noncomputable section

namespace Cert.ReferenceIdeal.RStats

open Idealize.ShloMosaic Idealize.ShloMosaic.ValueIdx Cert.ReferenceIdeal Cert.ReferenceIdeal.Facts₀ Cert.ReferenceIdeal.Facts

variable (msg : FVec Ideal S4000000x15 .f32) (srcv : IVec S4000000 32)

/-! ## The operations -/

def v21 : FVec Ideal S4000000x1 .f32 := broadcastInDim S4000000x1 ![] bcast_S_S4000000x1 (constant (F := Ideal) S_ .f32 0x3F800000#32)
def v22 : FVec Ideal S100000x1 .f32 := broadcastInDim S100000x1 ![] bcast_S_S100000x1 (constant (F := Ideal) S_ .f32 0x00000000#32)
def v23 : IVec S4000000x1 32 := broadcastInDim S4000000x1 ![0] bcast_S4000000_S4000000x1_0 srcv
def v24 : FVec Ideal S100000x1 .f32 := Host.scatterAdd (F := Ideal) scatter_S100000x1_S4000000x1_S4000000x1_1_0_0_1 v22 (v23 srcv) v21
def v25 : FVec Ideal S100000x1 .f32 := broadcastInDim S100000x1 ![] bcast_S_S100000x1 (constant (F := Ideal) S_ .f32 0x3F800000#32)
def v26 : FVec Ideal S100000x1 .f32 := maximumf (v24 srcv) v25
def v27 : FVec Ideal S100000x15 .f32 := broadcastInDim S100000x15 ![] bcast_S_S100000x15 (constant (F := Ideal) S_ .f32 0x00000000#32)
def v28 : IVec S4000000x1 32 := broadcastInDim S4000000x1 ![0] bcast_S4000000_S4000000x1_0 srcv
def v29 : FVec Ideal S100000x15 .f32 := Host.scatterAdd (F := Ideal) scatter_S100000x15_S4000000x1_S4000000x15_1_0_0_1 v27 (v28 srcv) msg
def v30 : FVec Ideal S100000x15 .f32 := broadcastInDim S100000x15 ![0, 1] bcast_S100000x1_S100000x15_0_1 (v26 srcv)
def v31 : FVec Ideal S100000x15 .f32 := Host.divf (v29 msg srcv) (v30 srcv)
def v32 : FVec Ideal S4000000x15 .f32 := mulf msg msg
def v33 : FVec Ideal S100000x15 .f32 := broadcastInDim S100000x15 ![] bcast_S_S100000x15 (constant (F := Ideal) S_ .f32 0x00000000#32)
def v34 : IVec S4000000x1 32 := broadcastInDim S4000000x1 ![0] bcast_S4000000_S4000000x1_0 srcv
def v35 : FVec Ideal S100000x15 .f32 := Host.scatterAdd (F := Ideal) scatter_S100000x15_S4000000x1_S4000000x15_1_0_0_1 v33 (v34 srcv) (v32 msg)
def v36 : FVec Ideal S100000x15 .f32 := broadcastInDim S100000x15 ![0, 1] bcast_S100000x1_S100000x15_0_1 (v26 srcv)
def v37 : FVec Ideal S100000x15 .f32 := Host.divf (v35 msg srcv) (v36 srcv)
def v38 : FVec Ideal S100000x15 .f32 := mulf (v31 msg srcv) (v31 msg srcv)
def v39 : FVec Ideal S100000x15 .f32 := subf (v37 msg srcv) (v38 msg srcv)
def c1v0 : FVec Ideal S100000x15 .f32 := broadcastInDim S100000x15 ![] bcast_S_S100000x15 (constant (F := Ideal) S_ .f32 0x00000000#32)
def v40 : FVec Ideal S100000x15 .f32 := maximumf (v39 msg srcv) c1v0
def v41 : FVec Ideal S100000x15 .f32 := broadcastInDim S100000x15 ![] bcast_S_S100000x15 (constant (F := Ideal) S_ .f32 0x358637BD#32)
def v42 : FVec Ideal S100000x15 .f32 := addf (v40 msg srcv) v41
def v43 : FVec Ideal S100000x15 .f32 := Host.sqrt (v42 msg srcv)
def v44 : IVec S4000000 32 := broadcastInDim S4000000 ![] bcast_S_S4000000 (constantI S_ 32 0#32)
def v45 : IVec S4000000 1 := cmpi .slt srcv v44
def v46 : IVec S4000000 32 := broadcastInDim S4000000 ![] bcast_S_S4000000 (constantI S_ 32 100000#32)
def v47 : IVec S4000000 32 := addi srcv v46
def v48 : IVec S4000000 32 := select (v45 srcv) (v47 srcv) srcv
def v49 : IVec S4000000x1 32 := broadcastInDim S4000000x1 ![0] bcast_S4000000_S4000000x1_0 (v48 srcv)
def v50 : FVec Ideal S4000000x15 .f32 := Host.gather gather_S100000x15_S4000000x1_S4000000x15_1_0_n_n_0_1_115 (v31 msg srcv) (v49 srcv)
def v51 : FVec Ideal S4000000x15 .f32 := subf msg (v50 msg srcv)
def v52 : FVec Ideal S4000000x15 .f32 := mulf (v51 msg srcv) (v51 msg srcv)
def v53 : FVec Ideal S4000000x15 .f32 := mulf (v52 msg srcv) (v51 msg srcv)
def v54 : FVec Ideal S100000x15 .f32 := broadcastInDim S100000x15 ![] bcast_S_S100000x15 (constant (F := Ideal) S_ .f32 0x00000000#32)
def v55 : IVec S4000000x1 32 := broadcastInDim S4000000x1 ![0] bcast_S4000000_S4000000x1_0 srcv
def v56 : FVec Ideal S100000x15 .f32 := Host.scatterAdd (F := Ideal) scatter_S100000x15_S4000000x1_S4000000x15_1_0_0_1 v54 (v55 srcv) (v53 msg srcv)
def v57 : FVec Ideal S100000x15 .f32 := broadcastInDim S100000x15 ![0, 1] bcast_S100000x1_S100000x15_0_1 (v26 srcv)
def v58 : FVec Ideal S100000x15 .f32 := Host.divf (v56 msg srcv) (v57 srcv)
def v59 : FVec Ideal S100000x15 .f32 := mulf (v43 msg srcv) (v43 msg srcv)
def v60 : FVec Ideal S100000x15 .f32 := mulf (v59 msg srcv) (v43 msg srcv)
def v61 : FVec Ideal S100000x15 .f32 := Host.divf (v58 msg srcv) (v60 msg srcv)
def v62 : FVec Ideal S4000000x15 .f32 := mulf (v53 msg srcv) (v51 msg srcv)
def v63 : FVec Ideal S100000x15 .f32 := broadcastInDim S100000x15 ![] bcast_S_S100000x15 (constant (F := Ideal) S_ .f32 0x00000000#32)
def v64 : IVec S4000000x1 32 := broadcastInDim S4000000x1 ![0] bcast_S4000000_S4000000x1_0 srcv
def v65 : FVec Ideal S100000x15 .f32 := Host.scatterAdd (F := Ideal) scatter_S100000x15_S4000000x1_S4000000x15_1_0_0_1 v63 (v64 srcv) (v62 msg srcv)
def v66 : FVec Ideal S100000x15 .f32 := broadcastInDim S100000x15 ![0, 1] bcast_S100000x1_S100000x15_0_1 (v26 srcv)
def v67 : FVec Ideal S100000x15 .f32 := Host.divf (v65 msg srcv) (v66 srcv)
def v68 : FVec Ideal S100000x15 .f32 := mulf (v43 msg srcv) (v43 msg srcv)
def v69 : FVec Ideal S100000x15 .f32 := mulf (v68 msg srcv) (v68 msg srcv)
def v70 : FVec Ideal S100000x15 .f32 := Host.divf (v67 msg srcv) (v69 msg srcv)

/-! ## The shape operations read at coordinates -/

section Tools

/-- A literal broadcast to a whole table reads the literal everywhere. -/
theorem lit_apply {t : Shape} (h : S_.BroadcastsInDim t ![]) (b : BitVec 32) (j : t.Idx) :
    broadcastInDim t ![] h (constant (F := Ideal) S_ .f32 b) j = Ideal.ofBits .f32 b := rfl

/-- An integer literal broadcast to a whole vector reads the literal everywhere. -/
theorem litI_apply {t : Shape} (h : S_.BroadcastsInDim t ![]) (b : BitVec 32) (j : t.Idx) :
    broadcastInDim t ![] h (constantI S_ 32 b) j = b := rfl

/-- A vector laid out as a one-column table reads, at row `p`, the vector at `p`. -/
theorem col_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  refine broadcastInDim_apply _ h v _ _ fun a => ?_
  match a with
  | ⟨0, _⟩ =>
    have hp := p.isLt
    split
    · next h1 => change n = 1 at h1; show p.val = 0; omega
    · rfl

/-- A one-column table spread along its rows reads, at `(p, q)`, the column at `p`. -/
theorem spread_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v _ _ fun a => ?_
  match a with
  | ⟨0, _⟩ =>
    have hp := p.isLt
    split
    · next h1 => change n = 1 at h1; show p.val = 0; omega
    · rfl
  | ⟨1, _⟩ =>
    split
    · rfl
    · next h1 => exact absurd rfl h1

/-- The accumulating scatter at the extended reals is the exact sum of what lands at a position. -/
theorem scatter_eq {s si u : Shape} {w : ℕ} (d : ScatterDims s si u) (x : FVec Ideal s .f32) (idx : IVec si w)
    (upd : FVec Ideal u .f32) (j : s.Idx) :
    Host.scatterAdd (F := Ideal) d x idx upd j = Ideal.hostScatterAdd d x idx upd j := rfl

/-- The host's quotient and square root are pointwise. -/
theorem hdiv_apply {t : Shape} (x y : FVec Ideal t .f32) (j : t.Idx) : Host.divf x y j = Ideal.div (x j) (y j) := rfl
theorem hsqrt_apply {t : Shape} (x : FVec Ideal t .f32) (j : t.Idx) : Host.sqrt x j = Ideal.sqrt (x j) := rfl

/-- The rows of an `[n, C]` table scattered into an `[N, C]` table of zeros by a vector of `n` row words laid out as a
    column, read at `(i, k)`: the sum of column `k` over the rows whose word, read signed, is `i`. -/
theorem scatter_zero_col {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (hz : S_.BroadcastsInDim ⟨2, ![N, C]⟩ ![])
    (hc : (⟨1, ![n]⟩ : Shape).BroadcastsInDim ⟨2, ![n, 1]⟩ ![0]) (v : IVec ⟨1, ![n]⟩ w)
    (upd : FVec Ideal ⟨2, ![n, C]⟩ .f32) (i : Fin N) (k : Fin C) :
    Host.scatterAdd (F := Ideal) d (broadcastInDim ⟨2, ![N, C]⟩ ![] hz (constant (F := Ideal) S_ .f32 0x00000000#32))
        (broadcastInDim ⟨2, ![n, 1]⟩ ![0] hc v) upd (ix2 i k)
      = ∑ e ∈ Finset.univ.filter (fun e : Fin n => (v (ix1 e)).toInt = (i.val : ℤ)), upd (ix2 e k) := by
  rw [scatter_eq, Cert.ScatterRows.scatterAdd_rows_apply d huw hiw hsd hivd, lit_apply, Ideal.ofBits_zero_f32, zero_add]
  refine Finset.sum_congr (Finset.filter_congr fun e _ => ?_) fun _ _ => rfl
  rw [col_apply]

end Tools

/-! ## The tables read at a node and a column -/

section Read

variable (M : Fin 4000000 → Fin 15 → EReal) (s : Fin 4000000 → BitVec 32)
  (hmsg : ∀ (e : Fin 4000000) (c : Fin 15), msg (ValueIdx.ix2 e c) = M e c)
  (hsrc : ∀ e : Fin 4000000, srcv (ValueIdx.ix1 e) = s e)

section Src
include hsrc

/-- A 15-column table scattered into zeros by the source column, read at `(i, j)`: the sum of its column `j` over
    node `i`'s segment. -/
theorem scat15_apply (upd : FVec Ideal S4000000x15 .f32) (i : Fin 100000) (j : Fin 15) :
    Host.scatterAdd (F := Ideal) scatter_S100000x15_S4000000x1_S4000000x15_1_0_0_1
        (broadcastInDim S100000x15 ![] bcast_S_S100000x15 (constant (F := Ideal) S_ .f32 0x00000000#32))
        (broadcastInDim S4000000x1 ![0] bcast_S4000000_S4000000x1_0 srcv) upd (ix2 i j)
      = ∑ e ∈ Spec.seg s i, upd (ix2 e j) := by
  rw [scatter_zero_col _ rfl rfl rfl rfl]
  unfold Spec.seg
  refine Finset.sum_congr (Finset.filter_congr fun e _ => ?_) fun _ _ => rfl
  rw [hsrc]

/-- The scattered ones: the number of edges in the segment, as a sum of ones. -/
theorem cnt_apply (i : Fin 100000) : v24 srcv (ix2 i (0 : Fin 1)) = Spec.cnt s i := by
  unfold v24 v22 v23
  rw [scatter_zero_col _ rfl rfl rfl rfl]
  unfold Spec.cnt Spec.segSum Spec.seg
  refine Finset.sum_congr (Finset.filter_congr fun e _ => ?_) fun e _ => ?_
  · rw [hsrc]
  · unfold v21 Spec.one
    rw [lit_apply]

/-- `denom`: the count held at one or more. -/
theorem den_apply (i : Fin 100000) : v26 srcv (ix2 i (0 : Fin 1)) = Spec.den s i := by
  unfold v26 v25
  rw [maximumf_apply, cnt_apply srcv s hsrc i, lit_apply]
  unfold Spec.den Spec.one
  rfl

/-- `denom` spread along the 15 columns. -/
theorem den15_apply (i : Fin 100000) (j : Fin 15) :
    broadcastInDim S100000x15 ![0, 1] bcast_S100000x1_S100000x15_0_1 (v26 srcv) (ix2 i j) = Spec.den s i := by
  rw [spread_apply, den_apply srcv s hsrc i]

/-- Edge `e`'s source word after the negative-index rule. -/
theorem v48_apply (e : Fin 4000000) : v48 srcv (ix1 e) = Spec.wrapW 100000#32 (s e) := by
  unfold v48 v45 v47 v44 v46
  rw [select_apply]
  show Scalar.select (IntOp.cmpi .slt (srcv (ix1 e)) 0#32) (IntOp.addi (srcv (ix1 e)) 100000#32) (srcv (ix1 e)) = _
  rw [hsrc]
  unfold Spec.wrapW
  rfl

theorem v49_apply (e : Fin 4000000) : v49 srcv (ix2 e (0 : Fin 1)) = Spec.wrapW 100000#32 (s e) := by
  unfold v49
  rw [col_apply, v48_apply srcv s hsrc e]

end Src

section Msg
include hmsg hsrc

/-- The scattered messages: the segment's sum of column `j`. -/
theorem s1_apply (i : Fin 100000) (j : Fin 15) : v29 msg srcv (ix2 i j) = Spec.s1 M s i j := by
  unfold v29 v27 v28
  rw [scat15_apply srcv s hsrc msg i j]
  unfold Spec.s1 Spec.segSum
  exact Finset.sum_congr rfl fun e _ => hmsg e j

/-- The mean. -/
theorem mean_apply (i : Fin 100000) (j : Fin 15) : v31 msg srcv (ix2 i j) = Spec.mean M s i j := by
  unfold v31 v30
  rw [hdiv_apply, s1_apply msg srcv M s hmsg hsrc i j, den15_apply srcv s hsrc i j]
  unfold Spec.mean
  rfl

/-- The scattered squares. -/
theorem s2_apply (i : Fin 100000) (j : Fin 15) : v35 msg srcv (ix2 i j) = Spec.s2 M s i j := by
  unfold v35 v33 v34
  rw [scat15_apply srcv s hsrc (v32 msg) i j]
  unfold Spec.s2 Spec.segSum
  refine Finset.sum_congr rfl fun e _ => ?_
  unfold v32
  rw [mulf_apply, hmsg e j]

/-- The mean square. -/
theorem mean2_apply (i : Fin 100000) (j : Fin 15) : v37 msg srcv (ix2 i j) = Spec.mean2 M s i j := by
  unfold v37 v36
  rw [hdiv_apply, s2_apply msg srcv M s hmsg hsrc i j, den15_apply srcv s hsrc i j]
  unfold Spec.mean2
  rfl

/-- The standard deviation: the variance held at zero or more, plus the small constant, under the root. -/
theorem std_apply (i : Fin 100000) (j : Fin 15) : v43 msg srcv (ix2 i j) = Spec.std M s i j := by
  unfold v43 v42 v40 v39 v38 c1v0 v41
  rw [hsqrt_apply, addf_apply, maximumf_apply, subf_apply, mulf_apply, mean2_apply msg srcv M s hmsg hsrc i j,
    mean_apply msg srcv M s hmsg hsrc i j, lit_apply, lit_apply, Ideal.ofBits_zero_f32]
  unfold Spec.std Spec.eps
  rfl

/-- The mean read back at edge `e`: the mean of the node its wrapped source word names, held inside the table. -/
theorem v50_apply (e : Fin 4000000) (c : Fin 15) :
    v50 msg srcv (ix2 e c) = Spec.mean M s (Spec.rowOf Spec.nN (by decide) (Spec.wrapW 100000#32 (s e))) c := by
  unfold v50
  rw [Cert.MatrixRead.gather_rows_apply _ rfl rfl rfl rfl rfl _ _ e c (by decide), mean_apply msg srcv M s hmsg hsrc]
  congr 2
  rw [v49_apply srcv s hsrc e]

/-- Edge `e`'s deviation. -/
theorem dev_apply (e : Fin 4000000) (c : Fin 15) : v51 msg srcv (ix2 e c) = Spec.dev M s e c := by
  unfold v51
  rw [subf_apply, hmsg e c, v50_apply msg srcv M s hmsg hsrc e c]
  unfold Spec.dev
  rfl

/-- The scattered third powers of the deviations. -/
theorem d3_apply (i : Fin 100000) (j : Fin 15) : v56 msg srcv (ix2 i j) = Spec.d3R M s i j := by
  unfold v56 v54 v55
  rw [scat15_apply srcv s hsrc (v53 msg srcv) i j]
  unfold Spec.d3R Spec.segSum
  refine Finset.sum_congr rfl fun e _ => ?_
  unfold v53 v52
  rw [mulf_apply, mulf_apply, dev_apply msg srcv M s hmsg hsrc e j]

/-- The scattered fourth powers of the deviations. -/
theorem d4_apply (i : Fin 100000) (j : Fin 15) : v65 msg srcv (ix2 i j) = Spec.d4R M s i j := by
  unfold v65 v63 v64
  rw [scat15_apply srcv s hsrc (v62 msg srcv) i j]
  unfold Spec.d4R Spec.segSum
  refine Finset.sum_congr rfl fun e _ => ?_
  unfold v62 v53 v52
  rw [mulf_apply, mulf_apply, mulf_apply, dev_apply msg srcv M s hmsg hsrc e j]

/-- The scattered ones: node `i`'s count. -/
theorem v24_apply (i : Fin 100000) : v24 srcv (ix2 i (0 : Fin 1)) = Spec.cnt s i :=
  cnt_apply srcv s hsrc i

/-- The mean of column `j` over node `i`'s segment. -/
theorem v31_apply (i : Fin 100000) (j : Fin 15) : v31 msg srcv (ix2 i j) = Spec.mean M s i j :=
  mean_apply msg srcv M s hmsg hsrc i j

/-- The standard deviation. -/
theorem v43_apply (i : Fin 100000) (j : Fin 15) : v43 msg srcv (ix2 i j) = Spec.std M s i j :=
  std_apply msg srcv M s hmsg hsrc i j

/-- The skew, from the directly summed third powers of the deviations. -/
theorem v61_apply (i : Fin 100000) (j : Fin 15) : v61 msg srcv (ix2 i j) = Spec.skewR M s i j := by
  unfold v61 v58 v57 v60 v59
  rw [hdiv_apply, hdiv_apply, mulf_apply, mulf_apply, d3_apply msg srcv M s hmsg hsrc i j, den15_apply srcv s hsrc i j,
    std_apply msg srcv M s hmsg hsrc i j]
  unfold Spec.skewR Spec.skewOf
  rfl

/-- The kurtosis, from the directly summed fourth powers of the deviations. -/
theorem v70_apply (i : Fin 100000) (j : Fin 15) : v70 msg srcv (ix2 i j) = Spec.kurtR M s i j := by
  unfold v70 v67 v66 v69 v68
  rw [hdiv_apply, hdiv_apply, mulf_apply, mulf_apply, d4_apply msg srcv M s hmsg hsrc i j, den15_apply srcv s hsrc i j,
    std_apply msg srcv M s hmsg hsrc i j]
  unfold Spec.kurtR Spec.kurtOf
  rfl

end Msg

end Read

end Cert.ReferenceIdeal.RStats

end
-- ==== Proof.ROut.lean ====
/-
  The last stretch of the reference program, one definition per operation, as functions of the node features
  `xs`, the segment statistics `cntA, meanA, stdA, skewA, kurtA`, the table `u` with the batch words `bs`, and the
  second perceptron's weights: a negative batch word gets 64 added, the wrapped words are made a column, the rows of
  `u` they name are gathered, the seven pieces are laid side by side into 81 columns, and the two affine layers with
  the leaky rectifier between them are applied. Read at node `i`, column `k`, the result is the perceptron of the
  specification applied to the node's 81 features.
-/
import proofs.«405589_j74663711473945_2_alg».proof.ReferenceIdeal
import proofs.«405589_j74663711473945_2_alg».proof.Proof.Gen.ReferenceIdeal
import proofs.«405589_j74663711473945_2_alg».proof.Proof.Spec
import proofs.«405589_j74663711473945_2_alg».proof.Proof.LibMatrixRead
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.ROut

open Idealize.ShloMosaic Idealize.ShloMosaic.ValueIdx Cert.ReferenceIdeal Cert.ReferenceIdeal.Facts₀ Cert.ReferenceIdeal.Facts

variable (xs : FVec Ideal S100000x10 .f32) (cntA : FVec Ideal S100000x1 .f32)
  (meanA stdA skewA kurtA : FVec Ideal S100000x15 .f32) (u : FVec Ideal S64x10 .f32) (bs : IVec S100000 32)
  (w1b : FVec Ideal S81x10 .f32) (b1b : FVec Ideal S10 .f32) (w2b : FVec Ideal S10x10 .f32) (b2b : FVec Ideal S10 .f32)

/-! ## The wrapped batch words and the gathered rows of `u` -/

def v71 : IVec S100000 32 := broadcastInDim S100000 ![] bcast_S_S100000 (constantI S_ 32 0#32)
def v72 : (⟨S100000, .i1⟩ : BufTy).Contents (Elt Ideal) := cmpi .slt bs v71
def v73 : IVec S100000 32 := broadcastInDim S100000 ![] bcast_S_S100000 (constantI S_ 32 64#32)
def v74 : IVec S100000 32 := addi bs v73
def v75 : IVec S100000 32 := select (v72 bs) (v74 bs) bs
def v76 : IVec S100000x1 32 := broadcastInDim S100000x1 ![0] bcast_S100000_S100000x1_0 (v75 bs)
def v77 : FVec Ideal S100000x10 .f32 := Host.gather gather_S64x10_S100000x1_S100000x10_1_0_n_n_0_1_110 u (v76 bs)

/-! ## The 81 features and the first layer -/

def v78 : FVec Ideal S100000x81 .f32 :=
  concatenate S100000x81 1 [⟨S100000x10, xs⟩, ⟨S100000x1, cntA⟩, ⟨S100000x15, meanA⟩, ⟨S100000x15, stdA⟩, ⟨S100000x15, skewA⟩,
    ⟨S100000x15, kurtA⟩, ⟨S100000x10, v77 u bs⟩]
    concatenates_S100000x10_S100000x1_S100000x15_S100000x15_S100000x15_S100000x15_S100000x10_S100000x81_d1
def v79 : FVec Ideal S100000x10 .f32 :=
  Host.dotGeneral (F := Ideal) dot_S100000x81_S81x10_S100000x10_1_0_0_1_n_n none (v78 xs cntA meanA stdA skewA kurtA u bs) w1b
def v80 : FVec Ideal S1x10 .f32 := broadcastInDim S1x10 ![1] bcast_S10_S1x10_1 b1b
def v81 : FVec Ideal S100000x10 .f32 := broadcastInDim S100000x10 ![0, 1] bcast_S1x10_S100000x10_0_1 (v80 b1b)
def v82 : FVec Ideal S100000x10 .f32 := addf (v79 xs cntA meanA stdA skewA kurtA u bs w1b) (v81 b1b)

/-! ## The leaky rectifier -/

def cst13 : FVec Ideal S_ .f32 := constant (F := Ideal) S_ .f32 0x3DCCCCCD#32
def lr_cst : FVec Ideal S_ .f32 := constant (F := Ideal) S_ .f32 0x00000000#32
def lr_v0 : FVec Ideal S100000x10 .f32 := broadcastInDim S100000x10 ![] bcast_S_S100000x10 lr_cst
def lr_v1 : (⟨S100000x10, .i1⟩ : BufTy).Contents (Elt Ideal) := cmpf .oge (v82 xs cntA meanA stdA skewA kurtA u bs w1b b1b) lr_v0
def lr_v2 : FVec Ideal S_ .f32 := id cst13
def lr_v3 : FVec Ideal S100000x10 .f32 := broadcastInDim S100000x10 ![] bcast_S_S100000x10 lr_v2
def lr_v4 : FVec Ideal S100000x10 .f32 := mulf lr_v3 (v82 xs cntA meanA stdA skewA kurtA u bs w1b b1b)
def v83 : FVec Ideal S100000x10 .f32 :=
  select (lr_v1 xs cntA meanA stdA skewA kurtA u bs w1b b1b) (v82 xs cntA meanA stdA skewA kurtA u bs w1b b1b)
    (lr_v4 xs cntA meanA stdA skewA kurtA u bs w1b b1b)

/-! ## The second layer -/

def v84 : FVec Ideal S100000x10 .f32 :=
  Host.dotGeneral (F := Ideal) dot_S100000x10_S10x10_S100000x10_1_0_0_1_n_n none (v83 xs cntA meanA stdA skewA kurtA u bs w1b b1b) w2b
def v85 : FVec Ideal S1x10 .f32 := broadcastInDim S1x10 ![1] bcast_S10_S1x10_1 b2b
def v86 : FVec Ideal S100000x10 .f32 := broadcastInDim S100000x10 ![0, 1] bcast_S1x10_S100000x10_0_1 (v85 b2b)
def v87 : FVec Ideal S100000x10 .f32 := addf (v84 xs cntA meanA stdA skewA kurtA u bs w1b b1b w2b) (v86 b2b)

/-! ## The two-matrix product read at coordinates -/

section Dot
variable {m k n : ℕ} (D : DotDims ⟨2, ![m, k]⟩ ⟨2, ![k, n]⟩ ⟨2, ![m, n]⟩)

/-- Two positions of a rank-2 index given by equal numbers hold the same coordinate. -/
theorem coord_congr {a b : ℕ} (j : (⟨2, ![a, b]⟩ : Shape).Idx) (p q : ℕ) (hp : p < 2) (hq : q < 2) (h : p = q) :
    (j ⟨p, hp⟩).val = (j ⟨q, hq⟩).val := by subst h; rfl

/-- The left operand's row coordinate is the result's row. -/
theorem dot_lhs_axis0 (hlb : D.lhsBatch = []) (hln : D.lhsNonContracting = [0]) (j : (⟨2, ![m, n]⟩ : Shape).Idx) (q : D.contr.Idx) :
    (D.lhsIdx j q 0).val = (j 0).val := by
  have hb : ¬ (0 : Fin (⟨2, ![m, k]⟩ : Shape).rank) ∈ D.lhsBatch := by rw [hlb]; exact List.not_mem_nil
  have hn : (0 : Fin (⟨2, ![m, k]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The right operand's column coordinate is the result's column. -/
theorem dot_rhs_axis1 (hlb : D.lhsBatch = []) (hrb : D.rhsBatch = []) (hln : D.lhsNonContracting = [0]) (hrn : D.rhsNonContracting = [1])
    (j : (⟨2, ![m, n]⟩ : Shape).Idx) (q : D.contr.Idx) :
    (D.rhsIdx j q 1).val = (j 1).val := by
  have hb : ¬ (1 : Fin (⟨2, ![k, n]⟩ : Shape).rank) ∈ D.rhsBatch := by rw [hrb]; exact List.not_mem_nil
  have hn : (1 : Fin (⟨2, ![k, n]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- A product of an `[m, k]` by a `[k, n]` matrix, contracted over the shared axis, read at `(p, c)`: the sum over the
    shared coordinate of the products of the entries. -/
theorem dot2_apply (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = k)
    (l : FVec Ideal ⟨2, ![m, k]⟩ .f32) (r : FVec Ideal ⟨2, ![k, n]⟩ .f32) (p : Fin m) (c : Fin n) :
    Host.dotGeneral (F := Ideal) D none l r (ix2 p c) = ∑ t : Fin k, l (ix2 p t) * r (ix2 t c) := by
  show FloatOps.dotGeneral _ none _ l r (ix2 p c) = _
  rw [Ideal.dotGeneral_apply, ← Equiv.sum_comp (contrEquiv1 D k hr hs).symm]
  refine Finset.sum_congr rfl fun t _ => ?_
  have c2 := contrEquiv1_symm_val D k hr hs t
  have l2 : D.lhsIdx (ix2 p c) ((contrEquiv1 D k hr hs).symm t) = ix2 p t := by
    funext ax; apply Fin.ext
    match ax with
    | ⟨0, _⟩ => exact dot_lhs_axis0 D hlb hln _ _
    | ⟨1, _⟩ => exact (D.lhsIdx_val_of_single hlc _ _).trans c2
  have r2 : D.rhsIdx (ix2 p c) ((contrEquiv1 D k hr hs).symm t) = ix2 t c := by
    funext ax; apply Fin.ext
    match ax with
    | ⟨0, _⟩ => exact (D.rhsIdx_val_of_single hrc _ _).trans c2
    | ⟨1, _⟩ => exact dot_rhs_axis1 D hlb hrb hln hrn _ _
  rw [l2, r2]

end Dot

/-! ## The wrapped words, their column, the gathered rows -/

/-- A wrapped batch word: 64 added where the word is negative. -/
theorem v75_apply (p : Fin 100000) : v75 bs (ix1 p) = Spec.wrapW 64#32 (bs (ix1 p)) := rfl

/-- The column of wrapped words at row `p`. -/
theorem v76_apply (p : Fin 100000) : v76 bs (ix2 p (0 : Fin 1)) = v75 bs (ix1 p) := by
  unfold v76
  refine broadcastInDim_apply _ _ _ _ (ix1 p) (fun a => ?_)
  match a with
  | ⟨0, _⟩ => rfl

/-- The gathered table at `(p, c)`: the row of `u` that node `p`'s wrapped batch word names. -/
theorem v77_apply (p : Fin 100000) (c : Fin 10) : v77 u bs (ix2 p c) = Spec.uRow u (fun i => bs (ix1 i)) p c := by
  unfold v77
  rw [Cert.MatrixRead.gather_rows_apply gather_S64x10_S100000x1_S100000x10_1_0_n_n_0_1_110 rfl rfl rfl rfl rfl u (v76 bs) p c
    (by decide)]
  simp only [v76_apply, v75_apply]
  rfl

/-! ## The seven pieces laid side by side -/

/-- The side-by-side table read inside piece number `q`, whose columns start at `pre`: that piece at the column's offset. -/
theorem v78_piece (p : Fin 100000) (j : Fin 81) (q : ℕ) (hq : q < 7) (C : ℕ) (x₁ : FVec Ideal ⟨2, ![100000, C]⟩ .f32)
    (hx : ([⟨S100000x10, xs⟩, ⟨S100000x1, cntA⟩, ⟨S100000x15, meanA⟩, ⟨S100000x15, stdA⟩, ⟨S100000x15, skewA⟩,
      ⟨S100000x15, kurtA⟩, ⟨S100000x10, v77 u bs⟩] : List ((s : Shape) × FVec Ideal s .f32))[q] = ⟨⟨2, ![100000, C]⟩, x₁⟩)
    (pre : ℕ)
    (hpre : (((([⟨S100000x10, xs⟩, ⟨S100000x1, cntA⟩, ⟨S100000x15, meanA⟩, ⟨S100000x15, stdA⟩, ⟨S100000x15, skewA⟩,
      ⟨S100000x15, kurtA⟩, ⟨S100000x10, v77 u bs⟩] : List ((s : Shape) × FVec Ideal s .f32)).take q).map (·.1)).map
        fun s => if h : s.rank = S100000x81.rank then s.size ((1 : Fin S100000x81.rank).cast h.symm) else 0).sum = pre)
    (c : Fin C) (hc : pre + c.val = j.val) :
    v78 xs cntA meanA stdA skewA kurtA u bs (ix2 p j) = x₁ (ix2 p c) := by
  unfold v78
  exact concatenate_apply_piece (1 : Fin S100000x81.rank)
    [⟨S100000x10, xs⟩, ⟨S100000x1, cntA⟩, ⟨S100000x15, meanA⟩, ⟨S100000x15, stdA⟩, ⟨S100000x15, skewA⟩, ⟨S100000x15, kurtA⟩,
      ⟨S100000x10, v77 u bs⟩]
    concatenates_S100000x10_S100000x1_S100000x15_S100000x15_S100000x15_S100000x15_S100000x10_S100000x81_d1
    (ix2 p j) q hq _ x₁ hx rfl pre hpre (ix2 p c)
    (fun b hb => by
      match b, hb with
      | ⟨0, _⟩, _ => rfl
      | ⟨1, _⟩, hb => exact absurd rfl hb) hc

/-- The 81 features of node `p` at column `j`. -/
theorem v78_apply (p : Fin 100000) (j : Fin 81) :
    v78 xs cntA meanA stdA skewA kurtA u bs (ix2 p j)
      = Spec.cat81 (fun j => xs (ix2 p j)) (cntA (ix2 p (0 : Fin 1))) (fun j => meanA (ix2 p j)) (fun j => stdA (ix2 p j))
          (fun j => skewA (ix2 p j)) (fun j => kurtA (ix2 p j)) (fun j => Spec.uRow u (fun i => bs (ix1 i)) p j) j := by
  unfold Spec.cat81
  by_cases h0 : j.val < 10
  · rw [dif_pos h0]
    exact v78_piece xs cntA meanA stdA skewA kurtA u bs p j 0 (by decide) 10 xs rfl 0 rfl ⟨j.val, h0⟩ (by simp)
  rw [dif_neg h0]
  by_cases h1 : j.val < 11
  · rw [dif_pos h1]
    exact v78_piece xs cntA meanA stdA skewA kurtA u bs p j 1 (by decide) 1 cntA rfl 10 rfl (0 : Fin 1) (by simp; omega)
  rw [dif_neg h1]
  by_cases h2 : j.val < 26
  · rw [dif_pos h2]
    exact v78_piece xs cntA meanA stdA skewA kurtA u bs p j 2 (by decide) 15 meanA rfl 11 rfl ⟨j.val - 11, by omega⟩ (by simp; omega)
  rw [dif_neg h2]
  by_cases h3 : j.val < 41
  · rw [dif_pos h3]
    exact v78_piece xs cntA meanA stdA skewA kurtA u bs p j 3 (by decide) 15 stdA rfl 26 rfl ⟨j.val - 26, by omega⟩ (by simp; omega)
  rw [dif_neg h3]
  by_cases h4 : j.val < 56
  · rw [dif_pos h4]
    exact v78_piece xs cntA meanA stdA skewA kurtA u bs p j 4 (by decide) 15 skewA rfl 41 rfl ⟨j.val - 41, by omega⟩ (by simp; omega)
  rw [dif_neg h4]
  by_cases h5 : j.val < 71
  · rw [dif_pos h5]
    exact v78_piece xs cntA meanA stdA skewA kurtA u bs p j 5 (by decide) 15 kurtA rfl 56 rfl ⟨j.val - 56, by omega⟩ (by simp; omega)
  rw [dif_neg h5]
  have hj := j.isLt
  rw [v78_piece xs cntA meanA stdA skewA kurtA u bs p j 6 (by decide) 10 (v77 u bs) rfl 71 rfl ⟨j.val - 71, by omega⟩ (by simp; omega),
    v77_apply]

/-! ## The bias row, the rectifier, the two layers -/

/-- A bias vector made a row and spread over the nodes reads, at `(p, c)`, the vector at `c`. -/
theorem bias_apply (b : FVec Ideal S10 .f32) (p : Fin 100000) (c : Fin 10) :
    broadcastInDim S100000x10 ![0, 1] bcast_S1x10_S100000x10_0_1 (broadcastInDim S1x10 ![1] bcast_S10_S1x10_1 b) (ix2 p c)
      = b (ix1 c) := by
  rw [broadcastInDim_apply _ _ _ (ix2 p c) (ix2 (0 : Fin 1) c) (fun a => by
    match a with
    | ⟨0, _⟩ => rfl
    | ⟨1, _⟩ => rfl)]
  exact broadcastInDim_apply _ _ _ _ (ix1 c) (fun a => by
    match a with
    | ⟨0, _⟩ => rfl)

/-- The rectifier's five operations read at an index: `x` where `x ≥ 0`, the slope times `x` elsewhere. -/
theorem leaky_apply (x : FVec Ideal S100000x10 .f32) (j : S100000x10.Idx) :
    select (cmpf .oge x (broadcastInDim S100000x10 ![] bcast_S_S100000x10 (constant (F := Ideal) S_ .f32 0x00000000#32))) x
      (mulf (broadcastInDim S100000x10 ![] bcast_S_S100000x10 (id (constant (F := Ideal) S_ .f32 0x3DCCCCCD#32))) x) j
      = Spec.leaky (x j) := by
  unfold Spec.leaky Spec.slope
  rw [← Ideal.ofBits_zero_f32]
  rfl

/-- The first layer at `(p, c)`: the affine map of the node's 81 features. -/
theorem v82_apply (p : Fin 100000) (c : Fin 10) :
    v82 xs cntA meanA stdA skewA kurtA u bs w1b b1b (ix2 p c)
      = Spec.dense w1b b1b (fun j => v78 xs cntA meanA stdA skewA kurtA u bs (ix2 p j)) c := by
  unfold v82 v79 v81 v80
  rw [addf_apply, dot2_apply _ rfl rfl rfl rfl rfl rfl rfl rfl, bias_apply]
  rfl

/-- The rectified first layer at `(p, c)`. -/
theorem v83_apply (p : Fin 100000) (c : Fin 10) :
    v83 xs cntA meanA stdA skewA kurtA u bs w1b b1b (ix2 p c)
      = Spec.leaky (v82 xs cntA meanA stdA skewA kurtA u bs w1b b1b (ix2 p c)) :=
  leaky_apply _ _

/-- The result read at node `i`, column `k`: the specification's two-layer perceptron on the node's 81 features. -/
theorem v87_apply (i : Fin 100000) (k : Fin 10) :
    v87 xs cntA meanA stdA skewA kurtA u bs w1b b1b w2b b2b (ValueIdx.ix2 i k)
      = Spec.mlp w1b b1b w2b b2b
          (Spec.cat81 (fun j => xs (ValueIdx.ix2 i j)) (cntA (ValueIdx.ix2 i (0 : Fin 1))) (fun j => meanA (ValueIdx.ix2 i j))
            (fun j => stdA (ValueIdx.ix2 i j)) (fun j => skewA (ValueIdx.ix2 i j)) (fun j => kurtA (ValueIdx.ix2 i j))
            (fun j => Spec.uRow u (fun i => bs (ValueIdx.ix1 i)) i j)) k := by
  have h83 : ∀ t : Fin 10, v83 xs cntA meanA stdA skewA kurtA u bs w1b b1b (ix2 i t)
      = Spec.leaky (Spec.dense w1b b1b
          (Spec.cat81 (fun j => xs (ix2 i j)) (cntA (ix2 i (0 : Fin 1))) (fun j => meanA (ix2 i j)) (fun j => stdA (ix2 i j))
            (fun j => skewA (ix2 i j)) (fun j => kurtA (ix2 i j)) (fun j => Spec.uRow u (fun i => bs (ix1 i)) i j)) t) := by
    intro t
    rw [v83_apply, v82_apply]
    congr 2
    funext j
    exact v78_apply xs cntA meanA stdA skewA kurtA u bs i j
  unfold v87 v84 v86 v85
  rw [addf_apply, dot2_apply _ rfl rfl rfl rfl rfl rfl rfl rfl, bias_apply]
  simp only [h83]
  rfl

end Cert.ReferenceIdeal.ROut

end
-- ==== Proof.RValue.lean ====
/-
  The reference's result, whole: its composed term at node `i`, column `k` is the second perceptron of node `i`'s
  features — `x_s`, the segment's count, mean and standard deviation of the messages, the skew and kurtosis summed
  directly from the deviations, and the node's row of `u`.
-/
import proofs.«405589_j74663711473945_2_alg».proof.Proof.RMsg
import proofs.«405589_j74663711473945_2_alg».proof.Proof.RStats
import proofs.«405589_j74663711473945_2_alg».proof.Proof.ROut

noncomputable section

namespace Cert.ReferenceIdeal.RVal

open Idealize.ShloMosaic Idealize.ShloMosaic.ValueIdx Cert.ReferenceIdeal

variable (a0 : FVec Ideal S100000x10 .f32) (a1 : FVec Ideal S100000x5 .f32) (a2 : FVec Ideal S4000000x10 .f32)
  (a3 : FVec Ideal S64x10 .f32) (a4 : IVec S2x4000000 32) (a5 : IVec S100000 32) (a6 : FVec Ideal S15x15 .f32)
  (a7 : FVec Ideal S15 .f32) (a8 : FVec Ideal S15x15 .f32) (a9 : FVec Ideal S15 .f32) (a10 : FVec Ideal S81x10 .f32)
  (a11 : FVec Ideal S10 .f32) (a12 : FVec Ideal S10x10 .f32) (a13 : FVec Ideal S10 .f32)

/-- The reference's result as one term of its argument arrays: the three stretches' stage functions composed. -/
def res : FVec Ideal S100000x10 .f32 :=
  ROut.v87 a0 (RStats.v24 (RMsg.v1 a4)) (RStats.v31 (RMsg.v20 a1 a2 a4 a6 a7 a8 a9) (RMsg.v1 a4))
    (RStats.v43 (RMsg.v20 a1 a2 a4 a6 a7 a8 a9) (RMsg.v1 a4)) (RStats.v61 (RMsg.v20 a1 a2 a4 a6 a7 a8 a9) (RMsg.v1 a4))
    (RStats.v70 (RMsg.v20 a1 a2 a4 a6 a7 a8 a9) (RMsg.v1 a4)) a3 a5 a10 a11 a12 a13

/-- The messages and source words of the argument arrays. -/
abbrev Mr : Fin 4000000 → Fin 15 → EReal := Spec.msg a1 a2 (fun e => a4 (ix2 (1 : Fin 2) e)) a6 a7 a8 a9
abbrev srcr : Fin 4000000 → BitVec 32 := fun e => a4 (ix2 (0 : Fin 2) e)

theorem res_apply (i : Fin 100000) (k : Fin 10) :
    res a0 a1 a2 a3 a4 a5 a6 a7 a8 a9 a10 a11 a12 a13 (ix2 i k)
      = Spec.outOf a0 a3 (fun i => a5 (ix1 i)) (Mr a1 a2 a4 a6 a7 a8 a9) (srcr a4)
          (Spec.skewR (Mr a1 a2 a4 a6 a7 a8 a9) (srcr a4)) (Spec.kurtR (Mr a1 a2 a4 a6 a7 a8 a9) (srcr a4)) a10 a11 a12 a13 i k := by
  have hmsg : ∀ (e : Fin 4000000) (c : Fin 15), RMsg.v20 a1 a2 a4 a6 a7 a8 a9 (ix2 e c) = Mr a1 a2 a4 a6 a7 a8 a9 e c :=
    fun e c => RMsg.v20_apply a1 a2 a4 a6 a7 a8 a9 e c
  have hsrc : ∀ e : Fin 4000000, RMsg.v1 a4 (ix1 e) = srcr a4 e := fun e => RMsg.v1_apply a4 e
  unfold res
  rw [ROut.v87_apply]
  have h1 := RStats.v24_apply (RMsg.v20 a1 a2 a4 a6 a7 a8 a9) (RMsg.v1 a4) (Mr a1 a2 a4 a6 a7 a8 a9) (srcr a4) hmsg hsrc i
  have h2 : (fun j : Fin 15 => RStats.v31 (RMsg.v20 a1 a2 a4 a6 a7 a8 a9) (RMsg.v1 a4) (ix2 i j)) = Spec.mean (Mr a1 a2 a4 a6 a7 a8 a9) (srcr a4) i :=
    funext fun j => RStats.v31_apply _ _ _ _ hmsg hsrc i j
  have h3 : (fun j : Fin 15 => RStats.v43 (RMsg.v20 a1 a2 a4 a6 a7 a8 a9) (RMsg.v1 a4) (ix2 i j)) = Spec.std (Mr a1 a2 a4 a6 a7 a8 a9) (srcr a4) i :=
    funext fun j => RStats.v43_apply _ _ _ _ hmsg hsrc i j
  have h4 : (fun j : Fin 15 => RStats.v61 (RMsg.v20 a1 a2 a4 a6 a7 a8 a9) (RMsg.v1 a4) (ix2 i j)) = Spec.skewR (Mr a1 a2 a4 a6 a7 a8 a9) (srcr a4) i :=
    funext fun j => RStats.v61_apply _ _ _ _ hmsg hsrc i j
  have h5 : (fun j : Fin 15 => RStats.v70 (RMsg.v20 a1 a2 a4 a6 a7 a8 a9) (RMsg.v1 a4) (ix2 i j)) = Spec.kurtR (Mr a1 a2 a4 a6 a7 a8 a9) (srcr a4) i :=
    funext fun j => RStats.v70_apply _ _ _ _ hmsg hsrc i j
  rw [h1, h2, h3, h4, h5]
  rfl

end Cert.ReferenceIdeal.RVal

end
-- ==== Proof.RRun.lean ====
/-
  The reference program's run.

  The program is a straight line of tensor operations: every value is computed once, from the fourteen argument arrays
  and from values computed before it, and is stored in a buffer of its own. So a run is a left-to-right fold: after the
  line, each buffer holds its operation applied to what its operands held, and a buffer no operation writes holds what it
  held at the start. The three calls (the leaky rectifier twice, the rectifier once) are read as their bodies, operation
  by operation, over the buffers of that call; the line is cut in two windows, run one after the other.

  Stated here: every weakly fair execution terminates; the result buffer ends at the composed term of the arguments
  (`res`), and each argument buffer ends as it started.
-/
import proofs.«405589_j74663711473945_2_alg».proof.ReferenceIdeal
import proofs.«405589_j74663711473945_2_alg».proof.Proof.Gen.ReferenceIdeal
import proofs.«405589_j74663711473945_2_alg».proof.Proof.RValue
import Idealize.ShloMosaic.Lib.StableHlo.Run
import Idealize.ShloMosaic.Lib.Pipeline.Frame
import Idealize.ShloMosaic.PureOps.Ideal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 68 operations, in order: 58 of the program's own, the leaky rectifier's seven at its call
    (zero, its broadcast, the comparison, the slope converted and broadcast, the product, the choice) and the rectifier's
    three (zero, its broadcast, the maximum). -/
abbrev ops_part0 : List (HloOp τ sig (Elt F)) :=
  [ StableHlo.unary main_arg4 main_v0 ((extractStridedSlice S1x4000000 ![0, 0] · slices_S2x4000000_S1x4000000_0_0) : (⟨S2x4000000, .i32⟩ : BufTy).Contents (Elt F) → (⟨S1x4000000, .i32⟩ : BufTy).Contents (Elt F)),
    StableHlo.reshape main_v0 main_v1 rfl shapeCasts_S1x4000000_S4000000,
    StableHlo.unary main_arg4 main_v2 ((extractStridedSlice S1x4000000 ![1, 0] · slices_S2x4000000_S1x4000000_1_0) : (⟨S2x4000000, .i32⟩ : BufTy).Contents (Elt F) → (⟨S1x4000000, .i32⟩ : BufTy).Contents (Elt F)),
    StableHlo.reshape main_v2 main_v3 rfl shapeCasts_S1x4000000_S4000000,
    StableHlo.nullary main_c (constantI S_ 32 0#32),
    StableHlo.unary main_c main_v4 (broadcastInDim S4000000 ![] bcast_S_S4000000 : (⟨S_, .i32⟩ : BufTy).Contents (Elt F) → (⟨S4000000, .i32⟩ : BufTy).Contents (Elt F)),
    StableHlo.binary main_v3 main_v4 main_v5 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 100000#32),
    StableHlo.unary main_c_0 main_v6 (broadcastInDim S4000000 ![] bcast_S_S4000000 : (⟨S_, .i32⟩ : BufTy).Contents (Elt F) → (⟨S4000000, .i32⟩ : BufTy).Contents (Elt F)),
    StableHlo.binary main_v3 main_v6 main_v7 (addi : (⟨S4000000, .i32⟩ : BufTy).Contents (Elt F) → (⟨S4000000, .i32⟩ : BufTy).Contents (Elt F) → (⟨S4000000, .i32⟩ : BufTy).Contents (Elt F)),
    StableHlo.ternary main_v5 main_v7 main_v3 main_v8 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v8 main_v9 (broadcastInDim S4000000x1 ![0] bcast_S4000000_S4000000x1_0 : (⟨S4000000, .i32⟩ : BufTy).Contents (Elt F) → (⟨S4000000x1, .i32⟩ : BufTy).Contents (Elt F)),
    StableHlo.binary main_arg1 main_v9 main_v10 ((fun x i => Host.gather gather_S100000x5_S4000000x1_S4000000x5_1_0_n_n_0_1_15 x i) : (⟨S100000x5, .f32⟩ : BufTy).Contents (Elt F) → (⟨S4000000x1, .i32⟩ : BufTy).Contents (Elt F) → (⟨S4000000x5, .f32⟩ : BufTy).Contents (Elt F)),
    StableHlo.binary main_v10 main_arg2 main_v11 ((fun a b => concatenate S4000000x15 1 [⟨S4000000x5, a⟩, ⟨S4000000x10, b⟩] concatenates_S4000000x5_S4000000x10_S4000000x15_d1) : (⟨S4000000x5, .f32⟩ : BufTy).Contents (Elt F) → (⟨S4000000x10, .f32⟩ : BufTy).Contents (Elt F) → (⟨S4000000x15, .f32⟩ : BufTy).Contents (Elt F)),
    StableHlo.binary main_v11 main_arg6 main_v12 ((fun l r => Host.dotGeneral dot_S4000000x15_S15x15_S4000000x15_1_0_0_1_n_n none l r) : (⟨S4000000x15, .f32⟩ : BufTy).Contents (Elt F) → (⟨S15x15, .f32⟩ : BufTy).Contents (Elt F) → (⟨S4000000x15, .f32⟩ : BufTy).Contents (Elt F)),
    StableHlo.unary main_arg7 main_v13 (broadcastInDim S1x15 ![1] bcast_S15_S1x15_1 : (⟨S15, .f32⟩ : BufTy).Contents (Elt F) → (⟨S1x15, .f32⟩ : BufTy).Contents (Elt F)),
    StableHlo.unary main_v13 main_v14 (broadcastInDim S4000000x15 ![0, 1] bcast_S1x15_S4000000x15_0_1 : (⟨S1x15, .f32⟩ : BufTy).Contents (Elt F) → (⟨S4000000x15, .f32⟩ : BufTy).Contents (Elt F)),
    StableHlo.binary main_v12 main_v14 main_v15 (addf : (⟨S4000000x15, .f32⟩ : BufTy).Contents (Elt F) → (⟨S4000000x15, .f32⟩ : BufTy).Contents (Elt F) → (⟨S4000000x15, .f32⟩ : BufTy).Contents (Elt F)),
    StableHlo.nullary main_cst (constant S_ .f32 0x3DCCCCCD#32),
    StableHlo.nullary main_call0_cst (constant S_ .f32 0x00000000#32),
    StableHlo.unary main_call0_cst main_call0_v0 (broadcastInDim S4000000x15 ![] bcast_S_S4000000x15 : (⟨S_, .f32⟩ : BufTy).Contents (Elt F) → (⟨S4000000x15, .f32⟩ : BufTy).Contents (Elt F)),
    StableHlo.binary main_v15 main_call0_v0 main_call0_v1 (cmpf .oge : (⟨S4000000x15, .f32⟩ : BufTy).Contents (Elt F) → (⟨S4000000x15, .f32⟩ : BufTy).Contents (Elt F) → (⟨S4000000x15, .i1⟩ : BufTy).Contents (Elt F)),
    StableHlo.unary main_cst main_call0_v2 (id : (⟨S_, .f32⟩ : BufTy).Contents (Elt F) → (⟨S_, .f32⟩ : BufTy).Contents (Elt F)),
    StableHlo.unary main_call0_v2 main_call0_v3 (broadcastInDim S4000000x15 ![] bcast_S_S4000000x15 : (⟨S_, .f32⟩ : BufTy).Contents (Elt F) → (⟨S4000000x15, .f32⟩ : BufTy).Contents (Elt F)),
    StableHlo.binary main_call0_v3 main_v15 main_call0_v4 (mulf : (⟨S4000000x15, .f32⟩ : BufTy).Contents (Elt F) → (⟨S4000000x15, .f32⟩ : BufTy).Contents (Elt F) → (⟨S4000000x15, .f32⟩ : BufTy).Contents (Elt F)),
    StableHlo.ternary main_call0_v1 main_v15 main_call0_v4 main_v16 (select : (⟨S4000000x15, .i1⟩ : BufTy).Contents (Elt F) → (⟨S4000000x15, .f32⟩ : BufTy).Contents (Elt F) → (⟨S4000000x15, .f32⟩ : BufTy).Contents (Elt F) → (⟨S4000000x15, .f32⟩ : BufTy).Contents (Elt F)),
    StableHlo.binary main_v16 main_arg8 main_v17 ((fun l r => Host.dotGeneral dot_S4000000x15_S15x15_S4000000x15_1_0_0_1_n_n none l r) : (⟨S4000000x15, .f32⟩ : BufTy).Contents (Elt F) → (⟨S15x15, .f32⟩ : BufTy).Contents (Elt F) → (⟨S4000000x15, .f32⟩ : BufTy).Contents (Elt F)),
    StableHlo.unary main_arg9 main_v18 (broadcastInDim S1x15 ![1] bcast_S15_S1x15_1 : (⟨S15, .f32⟩ : BufTy).Contents (Elt F) → (⟨S1x15, .f32⟩ : BufTy).Contents (Elt F)),
    StableHlo.unary main_v18 main_v19 (broadcastInDim S4000000x15 ![0, 1] bcast_S1x15_S4000000x15_0_1 : (⟨S1x15, .f32⟩ : BufTy).Contents (Elt F) → (⟨S4000000x15, .f32⟩ : BufTy).Contents (Elt F)),
    StableHlo.binary main_v17 main_v19 main_v20 (addf : (⟨S4000000x15, .f32⟩ : BufTy).Contents (Elt F) → (⟨S4000000x15, .f32⟩ : BufTy).Contents (Elt F) → (⟨S4000000x15, .f32⟩ : BufTy).Contents (Elt F)),
    StableHlo.nullary main_cst_1 (constant S_ .f32 0x3F800000#32),
    StableHlo.unary main_cst_1 main_v21 (broadcastInDim S4000000x1 ![] bcast_S_S4000000x1 : (⟨S_, .f32⟩ : BufTy).Contents (Elt F) → (⟨S4000000x1, .f32⟩ : BufTy).Contents (Elt F)),
    StableHlo.nullary main_cst_2 (constant S_ .f32 0x00000000#32),
    StableHlo.unary main_cst_2 main_v22 (broadcastInDim S100000x1 ![] bcast_S_S100000x1 : (⟨S_, .f32⟩ : BufTy).Contents (Elt F) → (⟨S100000x1, .f32⟩ : BufTy).Contents (Elt F)),
    StableHlo.unary main_v1 main_v23 (broadcastInDim S4000000x1 ![0] bcast_S4000000_S4000000x1_0 : (⟨S4000000, .i32⟩ : BufTy).Contents (Elt F) → (⟨S4000000x1, .i32⟩ : BufTy).Contents (Elt F)),
    StableHlo.ternary main_v22 main_v23 main_v21 main_v24 ((fun x i u => Host.scatterAdd scatter_S100000x1_S4000000x1_S4000000x1_1_0_0_1 x i u) : (⟨S100000x1, .f32⟩ : BufTy).Contents (Elt F) → (⟨S4000000x1, .i32⟩ : BufTy).Contents (Elt F) → (⟨S4000000x1, .f32⟩ : BufTy).Contents (Elt F) → (⟨S100000x1, .f32⟩ : BufTy).Contents (Elt F)),
    StableHlo.nullary main_cst_3 (constant S_ .f32 0x3F800000#32),
    StableHlo.unary main_cst_3 main_v25 (broadcastInDim S100000x1 ![] bcast_S_S100000x1 : (⟨S_, .f32⟩ : BufTy).Contents (Elt F) → (⟨S100000x1, .f32⟩ : BufTy).Contents (Elt F)),
    StableHlo.binary main_v24 main_v25 main_v26 (maximumf : (⟨S100000x1, .f32⟩ : BufTy).Contents (Elt F) → (⟨S100000x1, .f32⟩ : BufTy).Contents (Elt F) → (⟨S100000x1, .f32⟩ : BufTy).Contents (Elt F)),
    StableHlo.nullary main_cst_4 (constant S_ .f32 0x00000000#32),
    StableHlo.unary main_cst_4 main_v27 (broadcastInDim S100000x15 ![] bcast_S_S100000x15 : (⟨S_, .f32⟩ : BufTy).Contents (Elt F) → (⟨S100000x15, .f32⟩ : BufTy).Contents (Elt F)),
    StableHlo.unary main_v1 main_v28 (broadcastInDim S4000000x1 ![0] bcast_S4000000_S4000000x1_0 : (⟨S4000000, .i32⟩ : BufTy).Contents (Elt F) → (⟨S4000000x1, .i32⟩ : BufTy).Contents (Elt F)),
    StableHlo.ternary main_v27 main_v28 main_v20 main_v29 ((fun x i u => Host.scatterAdd scatter_S100000x15_S4000000x1_S4000000x15_1_0_0_1 x i u) : (⟨S100000x15, .f32⟩ : BufTy).Contents (Elt F) → (⟨S4000000x1, .i32⟩ : BufTy).Contents (Elt F) → (⟨S4000000x15, .f32⟩ : BufTy).Contents (Elt F) → (⟨S100000x15, .f32⟩ : BufTy).Contents (Elt F)),
    StableHlo.unary main_v26 main_v30 (broadcastInDim S100000x15 ![0, 1] bcast_S100000x1_S100000x15_0_1 : (⟨S100000x1, .f32⟩ : BufTy).Contents (Elt F) → (⟨S100000x15, .f32⟩ : BufTy).Contents (Elt F)),
    StableHlo.binary main_v29 main_v30 main_v31 (Host.divf : (⟨S100000x15, .f32⟩ : BufTy).Contents (Elt F) → (⟨S100000x15, .f32⟩ : BufTy).Contents (Elt F) → (⟨S100000x15, .f32⟩ : BufTy).Contents (Elt F)),
    StableHlo.binary main_v20 main_v20 main_v32 (mulf : (⟨S4000000x15, .f32⟩ : BufTy).Contents (Elt F) → (⟨S4000000x15, .f32⟩ : BufTy).Contents (Elt F) → (⟨S4000000x15, .f32⟩ : BufTy).Contents (Elt F)),
    StableHlo.nullary main_cst_5 (constant S_ .f32 0x00000000#32),
    StableHlo.unary main_cst_5 main_v33 (broadcastInDim S100000x15 ![] bcast_S_S100000x15 : (⟨S_, .f32⟩ : BufTy).Contents (Elt F) → (⟨S100000x15, .f32⟩ : BufTy).Contents (Elt F)),
    StableHlo.unary main_v1 main_v34 (broadcastInDim S4000000x1 ![0] bcast_S4000000_S4000000x1_0 : (⟨S4000000, .i32⟩ : BufTy).Contents (Elt F) → (⟨S4000000x1, .i32⟩ : BufTy).Contents (Elt F)),
    StableHlo.ternary main_v33 main_v34 main_v32 main_v35 ((fun x i u => Host.scatterAdd scatter_S100000x15_S4000000x1_S4000000x15_1_0_0_1 x i u) : (⟨S100000x15, .f32⟩ : BufTy).Contents (Elt F) → (⟨S4000000x1, .i32⟩ : BufTy).Contents (Elt F) → (⟨S4000000x15, .f32⟩ : BufTy).Contents (Elt F) → (⟨S100000x15, .f32⟩ : BufTy).Contents (Elt F)),
    StableHlo.unary main_v26 main_v36 (broadcastInDim S100000x15 ![0, 1] bcast_S100000x1_S100000x15_0_1 : (⟨S100000x1, .f32⟩ : BufTy).Contents (Elt F) → (⟨S100000x15, .f32⟩ : BufTy).Contents (Elt F)),
    StableHlo.binary main_v35 main_v36 main_v37 (Host.divf : (⟨S100000x15, .f32⟩ : BufTy).Contents (Elt F) → (⟨S100000x15, .f32⟩ : BufTy).Contents (Elt F) → (⟨S100000x15, .f32⟩ : BufTy).Contents (Elt F)),
    StableHlo.binary main_v31 main_v31 main_v38 (mulf : (⟨S100000x15, .f32⟩ : BufTy).Contents (Elt F) → (⟨S100000x15, .f32⟩ : BufTy).Contents (Elt F) → (⟨S100000x15, .f32⟩ : BufTy).Contents (Elt F)),
    StableHlo.binary main_v37 main_v38 main_v39 (subf : (⟨S100000x15, .f32⟩ : BufTy).Contents (Elt F) → (⟨S100000x15, .f32⟩ : BufTy).Contents (Elt F) → (⟨S100000x15, .f32⟩ : BufTy).Contents (Elt F)),
    StableHlo.nullary main_call1_cst (constant S_ .f32 0x00000000#32),
    StableHlo.unary main_call1_cst main_call1_v0 (broadcastInDim S100000x15 ![] bcast_S_S100000x15 : (⟨S_, .f32⟩ : BufTy).Contents (Elt F) → (⟨S100000x15, .f32⟩ : BufTy).Contents (Elt F)),
    StableHlo.binary main_v39 main_call1_v0 main_v40 (maximumf : (⟨S100000x15, .f32⟩ : BufTy).Contents (Elt F) → (⟨S100000x15, .f32⟩ : BufTy).Contents (Elt F) → (⟨S100000x15, .f32⟩ : BufTy).Contents (Elt F)),
    StableHlo.nullary main_cst_6 (constant S_ .f32 0x358637BD#32),
    StableHlo.unary main_cst_6 main_v41 (broadcastInDim S100000x15 ![] bcast_S_S100000x15 : (⟨S_, .f32⟩ : BufTy).Contents (Elt F) → (⟨S100000x15, .f32⟩ : BufTy).Contents (Elt F)),
    StableHlo.binary main_v40 main_v41 main_v42 (addf : (⟨S100000x15, .f32⟩ : BufTy).Contents (Elt F) → (⟨S100000x15, .f32⟩ : BufTy).Contents (Elt F) → (⟨S100000x15, .f32⟩ : BufTy).Contents (Elt F)),
    StableHlo.unary main_v42 main_v43 (Host.sqrt : (⟨S100000x15, .f32⟩ : BufTy).Contents (Elt F) → (⟨S100000x15, .f32⟩ : BufTy).Contents (Elt F)),
    StableHlo.nullary main_c_7 (constantI S_ 32 0#32),
    StableHlo.unary main_c_7 main_v44 (broadcastInDim S4000000 ![] bcast_S_S4000000 : (⟨S_, .i32⟩ : BufTy).Contents (Elt F) → (⟨S4000000, .i32⟩ : BufTy).Contents (Elt F)),
    StableHlo.binary main_v1 main_v44 main_v45 (cmpi .slt : (⟨S4000000, .i32⟩ : BufTy).Contents (Elt F) → (⟨S4000000, .i32⟩ : BufTy).Contents (Elt F) → (⟨S4000000, .i1⟩ : BufTy).Contents (Elt F)),
    StableHlo.nullary main_c_8 (constantI S_ 32 100000#32),
    StableHlo.unary main_c_8 main_v46 (broadcastInDim S4000000 ![] bcast_S_S4000000 : (⟨S_, .i32⟩ : BufTy).Contents (Elt F) → (⟨S4000000, .i32⟩ : BufTy).Contents (Elt F)),
    StableHlo.binary main_v1 main_v46 main_v47 (addi : (⟨S4000000, .i32⟩ : BufTy).Contents (Elt F) → (⟨S4000000, .i32⟩ : BufTy).Contents (Elt F) → (⟨S4000000, .i32⟩ : BufTy).Contents (Elt F)),
    StableHlo.ternary main_v45 main_v47 main_v1 main_v48 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) ]

/-- The seven tables laid side by side along the columns, as a function of seven plain arguments (the list of
    shape-and-table pairs sits under a fact about its shapes, so an operand is rewritten here, not inside the list). -/
def cat78 {F : FTy → Type} [FloatOps F] (u0 : (⟨S100000x10, .f32⟩ : BufTy).Contents (Elt F)) (u1 : (⟨S100000x1, .f32⟩ : BufTy).Contents (Elt F))
    (u2 u3 u4 u5 : (⟨S100000x15, .f32⟩ : BufTy).Contents (Elt F)) (u6 : (⟨S100000x10, .f32⟩ : BufTy).Contents (Elt F)) :
    (⟨S100000x81, .f32⟩ : BufTy).Contents (Elt F) :=
  concatenate S100000x81 1 [⟨S100000x10, u0⟩, ⟨S100000x1, u1⟩, ⟨S100000x15, u2⟩, ⟨S100000x15, u3⟩, ⟨S100000x15, u4⟩, ⟨S100000x15, u5⟩, ⟨S100000x10, u6⟩]
    concatenates_S100000x10_S100000x1_S100000x15_S100000x15_S100000x15_S100000x15_S100000x10_S100000x81_d1

/-- The second window's 50 operations, in order: 43 of the program's own and the second leaky rectifier's seven. -/
abbrev ops_part1 : List (HloOp τ sig (Elt F)) :=
  [ StableHlo.unary main_v48 main_v49 (broadcastInDim S4000000x1 ![0] bcast_S4000000_S4000000x1_0 : (⟨S4000000, .i32⟩ : BufTy).Contents (Elt F) → (⟨S4000000x1, .i32⟩ : BufTy).Contents (Elt F)),
    StableHlo.binary main_v31 main_v49 main_v50 ((fun x i => Host.gather gather_S100000x15_S4000000x1_S4000000x15_1_0_n_n_0_1_115 x i) : (⟨S100000x15, .f32⟩ : BufTy).Contents (Elt F) → (⟨S4000000x1, .i32⟩ : BufTy).Contents (Elt F) → (⟨S4000000x15, .f32⟩ : BufTy).Contents (Elt F)),
    StableHlo.binary main_v20 main_v50 main_v51 (subf : (⟨S4000000x15, .f32⟩ : BufTy).Contents (Elt F) → (⟨S4000000x15, .f32⟩ : BufTy).Contents (Elt F) → (⟨S4000000x15, .f32⟩ : BufTy).Contents (Elt F)),
    StableHlo.binary main_v51 main_v51 main_v52 (mulf : (⟨S4000000x15, .f32⟩ : BufTy).Contents (Elt F) → (⟨S4000000x15, .f32⟩ : BufTy).Contents (Elt F) → (⟨S4000000x15, .f32⟩ : BufTy).Contents (Elt F)),
    StableHlo.binary main_v52 main_v51 main_v53 (mulf : (⟨S4000000x15, .f32⟩ : BufTy).Contents (Elt F) → (⟨S4000000x15, .f32⟩ : BufTy).Contents (Elt F) → (⟨S4000000x15, .f32⟩ : BufTy).Contents (Elt F)),
    StableHlo.nullary main_cst_9 (constant S_ .f32 0x00000000#32),
    StableHlo.unary main_cst_9 main_v54 (broadcastInDim S100000x15 ![] bcast_S_S100000x15 : (⟨S_, .f32⟩ : BufTy).Contents (Elt F) → (⟨S100000x15, .f32⟩ : BufTy).Contents (Elt F)),
    StableHlo.unary main_v1 main_v55 (broadcastInDim S4000000x1 ![0] bcast_S4000000_S4000000x1_0 : (⟨S4000000, .i32⟩ : BufTy).Contents (Elt F) → (⟨S4000000x1, .i32⟩ : BufTy).Contents (Elt F)),
    StableHlo.ternary main_v54 main_v55 main_v53 main_v56 ((fun x i u => Host.scatterAdd scatter_S100000x15_S4000000x1_S4000000x15_1_0_0_1 x i u) : (⟨S100000x15, .f32⟩ : BufTy).Contents (Elt F) → (⟨S4000000x1, .i32⟩ : BufTy).Contents (Elt F) → (⟨S4000000x15, .f32⟩ : BufTy).Contents (Elt F) → (⟨S100000x15, .f32⟩ : BufTy).Contents (Elt F)),
    StableHlo.unary main_v26 main_v57 (broadcastInDim S100000x15 ![0, 1] bcast_S100000x1_S100000x15_0_1 : (⟨S100000x1, .f32⟩ : BufTy).Contents (Elt F) → (⟨S100000x15, .f32⟩ : BufTy).Contents (Elt F)),
    StableHlo.binary main_v56 main_v57 main_v58 (Host.divf : (⟨S100000x15, .f32⟩ : BufTy).Contents (Elt F) → (⟨S100000x15, .f32⟩ : BufTy).Contents (Elt F) → (⟨S100000x15, .f32⟩ : BufTy).Contents (Elt F)),
    StableHlo.binary main_v43 main_v43 main_v59 (mulf : (⟨S100000x15, .f32⟩ : BufTy).Contents (Elt F) → (⟨S100000x15, .f32⟩ : BufTy).Contents (Elt F) → (⟨S100000x15, .f32⟩ : BufTy).Contents (Elt F)),
    StableHlo.binary main_v59 main_v43 main_v60 (mulf : (⟨S100000x15, .f32⟩ : BufTy).Contents (Elt F) → (⟨S100000x15, .f32⟩ : BufTy).Contents (Elt F) → (⟨S100000x15, .f32⟩ : BufTy).Contents (Elt F)),
    StableHlo.binary main_v58 main_v60 main_v61 (Host.divf : (⟨S100000x15, .f32⟩ : BufTy).Contents (Elt F) → (⟨S100000x15, .f32⟩ : BufTy).Contents (Elt F) → (⟨S100000x15, .f32⟩ : BufTy).Contents (Elt F)),
    StableHlo.binary main_v53 main_v51 main_v62 (mulf : (⟨S4000000x15, .f32⟩ : BufTy).Contents (Elt F) → (⟨S4000000x15, .f32⟩ : BufTy).Contents (Elt F) → (⟨S4000000x15, .f32⟩ : BufTy).Contents (Elt F)),
    StableHlo.nullary main_cst_10 (constant S_ .f32 0x00000000#32),
    StableHlo.unary main_cst_10 main_v63 (broadcastInDim S100000x15 ![] bcast_S_S100000x15 : (⟨S_, .f32⟩ : BufTy).Contents (Elt F) → (⟨S100000x15, .f32⟩ : BufTy).Contents (Elt F)),
    StableHlo.unary main_v1 main_v64 (broadcastInDim S4000000x1 ![0] bcast_S4000000_S4000000x1_0 : (⟨S4000000, .i32⟩ : BufTy).Contents (Elt F) → (⟨S4000000x1, .i32⟩ : BufTy).Contents (Elt F)),
    StableHlo.ternary main_v63 main_v64 main_v62 main_v65 ((fun x i u => Host.scatterAdd scatter_S100000x15_S4000000x1_S4000000x15_1_0_0_1 x i u) : (⟨S100000x15, .f32⟩ : BufTy).Contents (Elt F) → (⟨S4000000x1, .i32⟩ : BufTy).Contents (Elt F) → (⟨S4000000x15, .f32⟩ : BufTy).Contents (Elt F) → (⟨S100000x15, .f32⟩ : BufTy).Contents (Elt F)),
    StableHlo.unary main_v26 main_v66 (broadcastInDim S100000x15 ![0, 1] bcast_S100000x1_S100000x15_0_1 : (⟨S100000x1, .f32⟩ : BufTy).Contents (Elt F) → (⟨S100000x15, .f32⟩ : BufTy).Contents (Elt F)),
    StableHlo.binary main_v65 main_v66 main_v67 (Host.divf : (⟨S100000x15, .f32⟩ : BufTy).Contents (Elt F) → (⟨S100000x15, .f32⟩ : BufTy).Contents (Elt F) → (⟨S100000x15, .f32⟩ : BufTy).Contents (Elt F)),
    StableHlo.binary main_v43 main_v43 main_v68 (mulf : (⟨S100000x15, .f32⟩ : BufTy).Contents (Elt F) → (⟨S100000x15, .f32⟩ : BufTy).Contents (Elt F) → (⟨S100000x15, .f32⟩ : BufTy).Contents (Elt F)),
    StableHlo.binary main_v68 main_v68 main_v69 (mulf : (⟨S100000x15, .f32⟩ : BufTy).Contents (Elt F) → (⟨S100000x15, .f32⟩ : BufTy).Contents (Elt F) → (⟨S100000x15, .f32⟩ : BufTy).Contents (Elt F)),
    StableHlo.binary main_v67 main_v69 main_v70 (Host.divf : (⟨S100000x15, .f32⟩ : BufTy).Contents (Elt F) → (⟨S100000x15, .f32⟩ : BufTy).Contents (Elt F) → (⟨S100000x15, .f32⟩ : BufTy).Contents (Elt F)),
    StableHlo.nullary main_c_11 (constantI S_ 32 0#32),
    StableHlo.unary main_c_11 main_v71 (broadcastInDim S100000 ![] bcast_S_S100000 : (⟨S_, .i32⟩ : BufTy).Contents (Elt F) → (⟨S100000, .i32⟩ : BufTy).Contents (Elt F)),
    StableHlo.binary main_arg5 main_v71 main_v72 (cmpi .slt : (⟨S100000, .i32⟩ : BufTy).Contents (Elt F) → (⟨S100000, .i32⟩ : BufTy).Contents (Elt F) → (⟨S100000, .i1⟩ : BufTy).Contents (Elt F)),
    StableHlo.nullary main_c_12 (constantI S_ 32 64#32),
    StableHlo.unary main_c_12 main_v73 (broadcastInDim S100000 ![] bcast_S_S100000 : (⟨S_, .i32⟩ : BufTy).Contents (Elt F) → (⟨S100000, .i32⟩ : BufTy).Contents (Elt F)),
    StableHlo.binary main_arg5 main_v73 main_v74 (addi : (⟨S100000, .i32⟩ : BufTy).Contents (Elt F) → (⟨S100000, .i32⟩ : BufTy).Contents (Elt F) → (⟨S100000, .i32⟩ : BufTy).Contents (Elt F)),
    StableHlo.ternary main_v72 main_v74 main_arg5 main_v75 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v75 main_v76 (broadcastInDim S100000x1 ![0] bcast_S100000_S100000x1_0 : (⟨S100000, .i32⟩ : BufTy).Contents (Elt F) → (⟨S100000x1, .i32⟩ : BufTy).Contents (Elt F)),
    StableHlo.binary main_arg3 main_v76 main_v77 ((fun x i => Host.gather gather_S64x10_S100000x1_S100000x10_1_0_n_n_0_1_110 x i) : (⟨S64x10, .f32⟩ : BufTy).Contents (Elt F) → (⟨S100000x1, .i32⟩ : BufTy).Contents (Elt F) → (⟨S100000x10, .f32⟩ : BufTy).Contents (Elt F)),
    StableHlo.nary ![main_arg0, main_v24, main_v31, main_v43, main_v61, main_v70, main_v77] main_v78 (fun u => cat78 (u 0) (u 1) (u 2) (u 3) (u 4) (u 5) (u 6)),
    StableHlo.binary main_v78 main_arg10 main_v79 ((fun l r => Host.dotGeneral dot_S100000x81_S81x10_S100000x10_1_0_0_1_n_n none l r) : (⟨S100000x81, .f32⟩ : BufTy).Contents (Elt F) → (⟨S81x10, .f32⟩ : BufTy).Contents (Elt F) → (⟨S100000x10, .f32⟩ : BufTy).Contents (Elt F)),
    StableHlo.unary main_arg11 main_v80 (broadcastInDim S1x10 ![1] bcast_S10_S1x10_1 : (⟨S10, .f32⟩ : BufTy).Contents (Elt F) → (⟨S1x10, .f32⟩ : BufTy).Contents (Elt F)),
    StableHlo.unary main_v80 main_v81 (broadcastInDim S100000x10 ![0, 1] bcast_S1x10_S100000x10_0_1 : (⟨S1x10, .f32⟩ : BufTy).Contents (Elt F) → (⟨S100000x10, .f32⟩ : BufTy).Contents (Elt F)),
    StableHlo.binary main_v79 main_v81 main_v82 (addf : (⟨S100000x10, .f32⟩ : BufTy).Contents (Elt F) → (⟨S100000x10, .f32⟩ : BufTy).Contents (Elt F) → (⟨S100000x10, .f32⟩ : BufTy).Contents (Elt F)),
    StableHlo.nullary main_cst_13 (constant S_ .f32 0x3DCCCCCD#32),
    StableHlo.nullary main_call2_cst (constant S_ .f32 0x00000000#32),
    StableHlo.unary main_call2_cst main_call2_v0 (broadcastInDim S100000x10 ![] bcast_S_S100000x10 : (⟨S_, .f32⟩ : BufTy).Contents (Elt F) → (⟨S100000x10, .f32⟩ : BufTy).Contents (Elt F)),
    StableHlo.binary main_v82 main_call2_v0 main_call2_v1 (cmpf .oge : (⟨S100000x10, .f32⟩ : BufTy).Contents (Elt F) → (⟨S100000x10, .f32⟩ : BufTy).Contents (Elt F) → (⟨S100000x10, .i1⟩ : BufTy).Contents (Elt F)),
    StableHlo.unary main_cst_13 main_call2_v2 (id : (⟨S_, .f32⟩ : BufTy).Contents (Elt F) → (⟨S_, .f32⟩ : BufTy).Contents (Elt F)),
    StableHlo.unary main_call2_v2 main_call2_v3 (broadcastInDim S100000x10 ![] bcast_S_S100000x10 : (⟨S_, .f32⟩ : BufTy).Contents (Elt F) → (⟨S100000x10, .f32⟩ : BufTy).Contents (Elt F)),
    StableHlo.binary main_call2_v3 main_v82 main_call2_v4 (mulf : (⟨S100000x10, .f32⟩ : BufTy).Contents (Elt F) → (⟨S100000x10, .f32⟩ : BufTy).Contents (Elt F) → (⟨S100000x10, .f32⟩ : BufTy).Contents (Elt F)),
    StableHlo.ternary main_call2_v1 main_v82 main_call2_v4 main_v83 (select : (⟨S100000x10, .i1⟩ : BufTy).Contents (Elt F) → (⟨S100000x10, .f32⟩ : BufTy).Contents (Elt F) → (⟨S100000x10, .f32⟩ : BufTy).Contents (Elt F) → (⟨S100000x10, .f32⟩ : BufTy).Contents (Elt F)),
    StableHlo.binary main_v83 main_arg12 main_v84 ((fun l r => Host.dotGeneral dot_S100000x10_S10x10_S100000x10_1_0_0_1_n_n none l r) : (⟨S100000x10, .f32⟩ : BufTy).Contents (Elt F) → (⟨S10x10, .f32⟩ : BufTy).Contents (Elt F) → (⟨S100000x10, .f32⟩ : BufTy).Contents (Elt F)),
    StableHlo.unary main_arg13 main_v85 (broadcastInDim S1x10 ![1] bcast_S10_S1x10_1 : (⟨S10, .f32⟩ : BufTy).Contents (Elt F) → (⟨S1x10, .f32⟩ : BufTy).Contents (Elt F)),
    StableHlo.unary main_v85 main_v86 (broadcastInDim S100000x10 ![0, 1] bcast_S1x10_S100000x10_0_1 : (⟨S1x10, .f32⟩ : BufTy).Contents (Elt F) → (⟨S100000x10, .f32⟩ : BufTy).Contents (Elt F)),
    StableHlo.binary main_v84 main_v86 main_v87 (addf : (⟨S100000x10, .f32⟩ : BufTy).Contents (Elt F) → (⟨S100000x10, .f32⟩ : BufTy).Contents (Elt F) → (⟨S100000x10, .f32⟩ : BufTy).Contents (Elt F)) ]

/-- The whole line: the first window, then the second. -/
abbrev ops : List (HloOp τ sig (Elt F)) := ops_part0 ++ ops_part1

set_option maxRecDepth 16384 in
set_option maxHeartbeats 4000000 in
/-- The first window is its line: each call unfolds to its body's steps, and the sequencing re-associates. -/
theorem main_part0_eq (c : Dev nD) : main_part0 (F := F) c = seq ops_part0 := by
  simp only [main_part0, fn_leaky_relu.body, fn_where.body, fn_relu.body, seq, bind_assoc, pure_bind]
  rfl

set_option maxRecDepth 16384 in
set_option maxHeartbeats 4000000 in
/-- The second window is its line. -/
theorem main_part1_eq (c : Dev nD) : main_part1 (F := F) c = seq ops_part1 := by
  simp only [main_part1, fn_leaky_relu_0.body, fn_where_1.body, seq, bind_assoc, pure_bind]
  rfl

set_option maxRecDepth 16384 in
/-- The program is the two windows' lines joined. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

set_option maxRecDepth 16384 in
theorem ops_part1_sub : (ops_part1 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., unary_bufs_sub .., ternary_bufs_sub .., unary_bufs_sub .., binary_bufs_sub .., binary_bufs_sub .., binary_bufs_sub .., binary_bufs_sub .., binary_bufs_sub .., nullary_bufs_sub .., unary_bufs_sub .., unary_bufs_sub .., ternary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-! ## The buffers the line writes -/

/-- The buffers the first window writes: one per operation. -/
abbrev W0 : List (Ref sig .tc) := [main_v0, main_v1, main_v2, main_v3, main_c, main_v4, main_v5, main_c_0, main_v6, main_v7, main_v8, main_v9, main_v10, main_v11, main_v12, main_v13, main_v14, main_v15, main_cst, main_call0_cst, main_call0_v0, main_call0_v1, main_call0_v2, main_call0_v3, main_call0_v4, main_v16, main_v17, main_v18, main_v19, main_v20, main_cst_1, main_v21, main_cst_2, main_v22, main_v23, main_v24, main_cst_3, main_v25, main_v26, main_cst_4, main_v27, main_v28, main_v29, main_v30, main_v31, main_v32, main_cst_5, main_v33, main_v34, main_v35, main_v36, main_v37, main_v38, main_v39, main_call1_cst, main_call1_v0, main_v40, main_cst_6, main_v41, main_v42, main_v43, main_c_7, main_v44, main_v45, main_c_8, main_v46, main_v47, main_v48]
/-- The buffers the second window writes. -/
abbrev W1 : List (Ref sig .tc) := [main_v49, main_v50, main_v51, main_v52, main_v53, main_cst_9, main_v54, main_v55, main_v56, main_v57, main_v58, main_v59, main_v60, main_v61, main_v62, main_cst_10, main_v63, main_v64, main_v65, main_v66, main_v67, main_v68, main_v69, main_v70, main_c_11, main_v71, main_v72, main_c_12, main_v73, main_v74, main_v75, main_v76, main_v77, main_v78, main_v79, main_v80, main_v81, main_v82, main_cst_13, main_call2_cst, main_call2_v0, main_call2_v1, main_call2_v2, main_call2_v3, main_call2_v4, main_v83, main_v84, main_v85, main_v86, main_v87]

/-- An operation whose only written buffer is `y`, a member of the list `W`, writes inside `W`. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

set_option maxRecDepth 16384 in
theorem ops_part0_writes : (ops_part0 : List (HloOp τ sig (Elt F))).Forall fun op => op.writes ⊆ (W0.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide),
    writes_sub_of_mem main_c rfl (by decide),
    writes_sub_of_mem main_v4 rfl (by decide),
    writes_sub_of_mem main_v5 rfl (by decide),
    writes_sub_of_mem main_c_0 rfl (by decide),
    writes_sub_of_mem main_v6 rfl (by decide),
    writes_sub_of_mem main_v7 rfl (by decide),
    writes_sub_of_mem main_v8 rfl (by decide),
    writes_sub_of_mem main_v9 rfl (by decide),
    writes_sub_of_mem main_v10 rfl (by decide),
    writes_sub_of_mem main_v11 rfl (by decide),
    writes_sub_of_mem main_v12 rfl (by decide),
    writes_sub_of_mem main_v13 rfl (by decide),
    writes_sub_of_mem main_v14 rfl (by decide),
    writes_sub_of_mem main_v15 rfl (by decide),
    writes_sub_of_mem main_cst rfl (by decide),
    writes_sub_of_mem main_call0_cst rfl (by decide),
    writes_sub_of_mem main_call0_v0 rfl (by decide),
    writes_sub_of_mem main_call0_v1 rfl (by decide),
    writes_sub_of_mem main_call0_v2 rfl (by decide),
    writes_sub_of_mem main_call0_v3 rfl (by decide),
    writes_sub_of_mem main_call0_v4 rfl (by decide),
    writes_sub_of_mem main_v16 rfl (by decide),
    writes_sub_of_mem main_v17 rfl (by decide),
    writes_sub_of_mem main_v18 rfl (by decide),
    writes_sub_of_mem main_v19 rfl (by decide),
    writes_sub_of_mem main_v20 rfl (by decide),
    writes_sub_of_mem main_cst_1 rfl (by decide),
    writes_sub_of_mem main_v21 rfl (by decide),
    writes_sub_of_mem main_cst_2 rfl (by decide),
    writes_sub_of_mem main_v22 rfl (by decide),
    writes_sub_of_mem main_v23 rfl (by decide),
    writes_sub_of_mem main_v24 rfl (by decide),
    writes_sub_of_mem main_cst_3 rfl (by decide),
    writes_sub_of_mem main_v25 rfl (by decide),
    writes_sub_of_mem main_v26 rfl (by decide),
    writes_sub_of_mem main_cst_4 rfl (by decide),
    writes_sub_of_mem main_v27 rfl (by decide),
    writes_sub_of_mem main_v28 rfl (by decide),
    writes_sub_of_mem main_v29 rfl (by decide),
    writes_sub_of_mem main_v30 rfl (by decide),
    writes_sub_of_mem main_v31 rfl (by decide),
    writes_sub_of_mem main_v32 rfl (by decide),
    writes_sub_of_mem main_cst_5 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_call1_cst rfl (by decide),
    writes_sub_of_mem main_call1_v0 rfl (by decide),
    writes_sub_of_mem main_v40 rfl (by decide),
    writes_sub_of_mem main_cst_6 rfl (by decide),
    writes_sub_of_mem main_v41 rfl (by decide),
    writes_sub_of_mem main_v42 rfl (by decide),
    writes_sub_of_mem main_v43 rfl (by decide),
    writes_sub_of_mem main_c_7 rfl (by decide),
    writes_sub_of_mem main_v44 rfl (by decide),
    writes_sub_of_mem main_v45 rfl (by decide),
    writes_sub_of_mem main_c_8 rfl (by decide),
    writes_sub_of_mem main_v46 rfl (by decide),
    writes_sub_of_mem main_v47 rfl (by decide),
    writes_sub_of_mem main_v48 rfl (by decide)⟩

set_option maxRecDepth 16384 in
theorem ops_part1_writes : (ops_part1 : List (HloOp τ sig (Elt F))).Forall fun op => op.writes ⊆ (W1.map (Proc.devRef (τ := τ) .tc)).toFinset :=
  ⟨writes_sub_of_mem main_v49 rfl (by decide),
    writes_sub_of_mem main_v50 rfl (by decide),
    writes_sub_of_mem main_v51 rfl (by decide),
    writes_sub_of_mem main_v52 rfl (by decide),
    writes_sub_of_mem main_v53 rfl (by decide),
    writes_sub_of_mem main_cst_9 rfl (by decide),
    writes_sub_of_mem main_v54 rfl (by decide),
    writes_sub_of_mem main_v55 rfl (by decide),
    writes_sub_of_mem main_v56 rfl (by decide),
    writes_sub_of_mem main_v57 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_cst_10 rfl (by decide),
    writes_sub_of_mem main_v63 rfl (by decide),
    writes_sub_of_mem main_v64 rfl (by decide),
    writes_sub_of_mem main_v65 rfl (by decide),
    writes_sub_of_mem main_v66 rfl (by decide),
    writes_sub_of_mem main_v67 rfl (by decide),
    writes_sub_of_mem main_v68 rfl (by decide),
    writes_sub_of_mem main_v69 rfl (by decide),
    writes_sub_of_mem main_v70 rfl (by decide),
    writes_sub_of_mem main_c_11 rfl (by decide),
    writes_sub_of_mem main_v71 rfl (by decide),
    writes_sub_of_mem main_v72 rfl (by decide),
    writes_sub_of_mem main_c_12 rfl (by decide),
    writes_sub_of_mem main_v73 rfl (by decide),
    writes_sub_of_mem main_v74 rfl (by decide),
    writes_sub_of_mem main_v75 rfl (by decide),
    writes_sub_of_mem main_v76 rfl (by decide),
    writes_sub_of_mem main_v77 rfl (by decide),
    writes_sub_of_mem main_v78 rfl (by decide),
    writes_sub_of_mem main_v79 rfl (by decide),
    writes_sub_of_mem main_v80 rfl (by decide),
    writes_sub_of_mem main_v81 rfl (by decide),
    writes_sub_of_mem main_v82 rfl (by decide),
    writes_sub_of_mem main_cst_13 rfl (by decide),
    writes_sub_of_mem main_call2_cst rfl (by decide),
    writes_sub_of_mem main_call2_v0 rfl (by decide),
    writes_sub_of_mem main_call2_v1 rfl (by decide),
    writes_sub_of_mem main_call2_v2 rfl (by decide),
    writes_sub_of_mem main_call2_v3 rfl (by decide),
    writes_sub_of_mem main_call2_v4 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide)⟩

/-- A buffer neither window writes holds after the line what it held before it. -/
theorem after_ops_keep (V : Valuation τ sig (Elt F)) (r : Ref sig .tc) (h0 : r ∉ W0) (h1 : r ∉ W1) :
    after ops V (Proc.devRef .tc r) = V (Proc.devRef .tc r) := by
  rw [show (ops : List (HloOp τ sig (Elt F))) = ops_part0 ++ ops_part1 from rfl, after_append,
    after_of_writes_sub ops_part1 _ ops_part1_writes h1, after_of_writes_sub ops_part0 _ ops_part0_writes h0]

/-! ## The contents after the first window

With `V` the contents before the line: the source vector, the message table and the segment statistics computed from
them are the stage functions of the argument arrays; an argument array is untouched. -/

/-- The contents after the first window, from contents `V`. -/
def val0 (V : Valuation τ sig (Elt Ideal)) : Valuation τ sig (Elt Ideal) := after (ops_part0 (F := Ideal)) V

section Stage0
variable (V : Valuation τ sig (Elt Ideal))

/-- A buffer the first window does not write keeps its contents through it. -/
theorem val0_keep (r : Ref sig .tc) (h : r ∉ W0) : val0 V (Proc.devRef .tc r) = V (Proc.devRef .tc r) :=
  after_of_writes_sub ops_part0 _ ops_part0_writes h
theorem val0_arg0 : val0 V (no_index (Proc.devRef .tc main_arg0)) = V (Proc.devRef .tc main_arg0) := val0_keep V main_arg0 (by decide)
theorem val0_arg3 : val0 V (no_index (Proc.devRef .tc main_arg3)) = V (Proc.devRef .tc main_arg3) := val0_keep V main_arg3 (by decide)
theorem val0_arg5 : val0 V (no_index (Proc.devRef .tc main_arg5)) = V (Proc.devRef .tc main_arg5) := val0_keep V main_arg5 (by decide)
theorem val0_arg10 : val0 V (no_index (Proc.devRef .tc main_arg10)) = V (Proc.devRef .tc main_arg10) := val0_keep V main_arg10 (by decide)
theorem val0_arg11 : val0 V (no_index (Proc.devRef .tc main_arg11)) = V (Proc.devRef .tc main_arg11) := val0_keep V main_arg11 (by decide)
theorem val0_arg12 : val0 V (no_index (Proc.devRef .tc main_arg12)) = V (Proc.devRef .tc main_arg12) := val0_keep V main_arg12 (by decide)
theorem val0_arg13 : val0 V (no_index (Proc.devRef .tc main_arg13)) = V (Proc.devRef .tc main_arg13) := val0_keep V main_arg13 (by decide)

set_option maxRecDepth 16384 in
set_option maxHeartbeats 4000000 in
theorem val0_v1 : val0 V (no_index (Proc.devRef .tc main_v1)) = RMsg.v1 (V (Proc.devRef .tc main_arg4)) := by
  unfold val0
  simp only [ops_part0]
  after_results_simp
  rfl

set_option maxRecDepth 16384 in
set_option maxHeartbeats 4000000 in
theorem val0_v20 : val0 V (no_index (Proc.devRef .tc main_v20)) = RMsg.v20 (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9)) := by
  unfold val0
  simp only [ops_part0]
  after_results_simp
  rfl

set_option maxRecDepth 16384 in
set_option maxHeartbeats 4000000 in
theorem val0_v24 : val0 V (no_index (Proc.devRef .tc main_v24)) = RStats.v24 (RMsg.v1 (V (Proc.devRef .tc main_arg4))) := by
  unfold val0
  simp only [ops_part0]
  after_results_simp
  rfl

set_option maxRecDepth 16384 in
set_option maxHeartbeats 4000000 in
theorem val0_v26 : val0 V (no_index (Proc.devRef .tc main_v26)) = RStats.v26 (RMsg.v1 (V (Proc.devRef .tc main_arg4))) := by
  unfold val0
  simp only [ops_part0]
  after_results_simp
  rfl

set_option maxRecDepth 16384 in
set_option maxHeartbeats 4000000 in
theorem val0_v31 : val0 V (no_index (Proc.devRef .tc main_v31)) = RStats.v31 (RMsg.v20 (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9))) (RMsg.v1 (V (Proc.devRef .tc main_arg4))) := by
  unfold val0
  simp only [ops_part0]
  after_results_simp
  rfl

set_option maxRecDepth 16384 in
set_option maxHeartbeats 4000000 in
theorem val0_v43 : val0 V (no_index (Proc.devRef .tc main_v43)) = RStats.v43 (RMsg.v20 (V (Proc.devRef .tc main_arg1)) (V (Proc.devRef .tc main_arg2)) (V (Proc.devRef .tc main_arg4)) (V (Proc.devRef .tc main_arg6)) (V (Proc.devRef .tc main_arg7)) (V (Proc.devRef .tc main_arg8)) (V (Proc.devRef .tc main_arg9))) (RMsg.v1 (V (Proc.devRef .tc main_arg4))) := by
  unfold val0
  simp only [ops_part0]
  after_results_simp
  rfl

set_option maxRecDepth 16384 in
set_option maxHeartbeats 4000000 in
theorem val0_v48 : val0 V (no_index (Proc.devRef .tc main_v48)) = RStats.v48 (RMsg.v1 (V (Proc.devRef .tc main_arg4))) := by
  unfold val0
  simp only [ops_part0]
  after_results_simp
  rfl

set_option maxRecDepth 16384 in
set_option maxHeartbeats 8000000 in
/-- The result buffer after the whole line is the composed term of the argument arrays. -/
theorem after_ops_v87 : after (ops (F := Ideal)) V (Proc.devRef .tc main_v87)
    = RVal.res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [show (ops : List (HloOp τ sig (Elt Ideal))) = ops_part0 ++ ops_part1 from rfl, after_append]
  change after (ops_part1 (F := Ideal)) (val0 V) _ = _
  simp only [ops_part1]
  after_results_simp
  dsimp only [Matrix.cons_val]
  after_results_simp
  simp only [val0_arg0, val0_arg3, val0_arg5, val0_arg10, val0_arg11, val0_arg12, val0_arg13, val0_v1, val0_v20, val0_v24, val0_v26,
    val0_v31, val0_v43, val0_v48]
  rfl

end Stage0

set_option maxRecDepth 16384 in
/-- From any memory with zero counters: every weakly fair execution of the program terminates, with the result buffer
    at the composed term of the argument arrays and every argument array as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v87) = RVal.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v87).trans (after_ops_v87 (launchContents m c)),
      (h c main_arg0).trans (after_ops_keep _ main_arg0 (by decide) (by decide)),
      (h c main_arg1).trans (after_ops_keep _ main_arg1 (by decide) (by decide)),
      (h c main_arg2).trans (after_ops_keep _ main_arg2 (by decide) (by decide)),
      (h c main_arg3).trans (after_ops_keep _ main_arg3 (by decide) (by decide)),
      (h c main_arg4).trans (after_ops_keep _ main_arg4 (by decide) (by decide)),
      (h c main_arg5).trans (after_ops_keep _ main_arg5 (by decide) (by decide)),
      (h c main_arg6).trans (after_ops_keep _ main_arg6 (by decide) (by decide)),
      (h c main_arg7).trans (after_ops_keep _ main_arg7 (by decide) (by decide)),
      (h c main_arg8).trans (after_ops_keep _ main_arg8 (by decide) (by decide)),
      (h c main_arg9).trans (after_ops_keep _ main_arg9 (by decide) (by decide)),
      (h c main_arg10).trans (after_ops_keep _ main_arg10 (by decide) (by decide)),
      (h c main_arg11).trans (after_ops_keep _ main_arg11 (by decide) (by decide)),
      (h c main_arg12).trans (after_ops_keep _ main_arg12 (by decide) (by decide)),
      (h c main_arg13).trans (after_ops_keep _ main_arg13 (by decide) (by decide))⟩)
    (run_seq scopedRefs_eq scopedSems_eq defs main (fun _ => ops) main_eq (fun _ => ops_sub) m ρ)

end Cert.ReferenceIdeal.RefRun

end
-- ==== Proof.Bridge.lean ====
/-
  The central moments from the raw power sums. Over a node's segment `S` with real messages `x_e`, count `n = |S|`,
  `D = max n 1` and `μ = (Σ x) / D`:  `Σ (x - μ)³ = Σ x³ - 3 μ Σ x² + 2 n μ³`  and
  `Σ (x - μ)⁴ = Σ x⁴ - 4 μ Σ x³ + 6 μ² Σ x² - 3 n μ⁴`, because `Σ x = n μ` when `n ≥ 1` and every sum is `0` when `n = 0`.
  An edge of node `i`'s segment has source word `i`, so the mean it is compared with is node `i`'s.
-/
import proofs.«405589_j74663711473945_2_alg».proof.Proof.Spec

noncomputable section

namespace Cert.Bridge

open Cert.Spec
open Idealize.ShloMosaic

/-! ## The identities over the reals -/

section RealSide
variable {ι : Type*}

/-- With `μ = (Σ x) / max n 1` over a finite set of `n` elements, `Σ x = n μ`: for `n = 0` both sides vanish,
    and for `n ≥ 1` the maximum is `n`. -/
theorem sum_eq_card_mul_mean (S : Finset ι) (x : ι → ℝ) :
    ∑ e ∈ S, x e = (S.card : ℝ) * ((∑ e ∈ S, x e) * (1 / max (S.card : ℝ) 1)) := by
  rcases Nat.eq_zero_or_pos S.card with h0 | hpos
  · have hS : S = ∅ := Finset.card_eq_zero.mp h0
    subst hS
    simp
  · have h1 : (1 : ℝ) ≤ (S.card : ℝ) := by exact_mod_cast hpos
    rw [max_eq_left h1]
    have hne : (S.card : ℝ) ≠ 0 := by positivity
    field_simp

/-- The third central power sum, whenever `Σ x = n μ`. -/
theorem third_central (S : Finset ι) (x : ι → ℝ) (μ : ℝ) (h : ∑ e ∈ S, x e = (S.card : ℝ) * μ) :
    ((∑ e ∈ S, (x e * x e) * x e) - (3 * μ) * (∑ e ∈ S, x e * x e)) + (2 * (S.card : ℝ)) * ((μ * μ) * μ)
      = ∑ e ∈ S, ((x e - μ) * (x e - μ)) * (x e - μ) := by
  have hexp : ∀ e ∈ S, ((x e - μ) * (x e - μ)) * (x e - μ)
      = (((x e * x e) * x e - (3 * μ) * (x e * x e)) + (3 * (μ * μ)) * x e) - (μ * μ) * μ := by
    intro e _; ring
  rw [Finset.sum_congr rfl hexp, Finset.sum_sub_distrib, Finset.sum_add_distrib, Finset.sum_sub_distrib,
    ← Finset.mul_sum, ← Finset.mul_sum, Finset.sum_const, nsmul_eq_mul, h]
  ring

/-- The fourth central power sum, whenever `Σ x = n μ`. -/
theorem fourth_central (S : Finset ι) (x : ι → ℝ) (μ : ℝ) (h : ∑ e ∈ S, x e = (S.card : ℝ) * μ) :
    (((∑ e ∈ S, (x e * x e) * (x e * x e)) - (4 * μ) * (∑ e ∈ S, (x e * x e) * x e))
        + (6 * (μ * μ)) * (∑ e ∈ S, x e * x e))
      - (3 * (S.card : ℝ)) * ((μ * μ) * (μ * μ))
      = ∑ e ∈ S, (((x e - μ) * (x e - μ)) * (x e - μ)) * (x e - μ) := by
  have hexp : ∀ e ∈ S, (((x e - μ) * (x e - μ)) * (x e - μ)) * (x e - μ)
      = ((((x e * x e) * (x e * x e) - (4 * μ) * ((x e * x e) * x e)) + (6 * (μ * μ)) * (x e * x e))
          - (4 * ((μ * μ) * μ)) * x e) + (μ * μ) * (μ * μ) := by
    intro e _; ring
  rw [Finset.sum_congr rfl hexp, Finset.sum_add_distrib, Finset.sum_sub_distrib, Finset.sum_add_distrib,
    Finset.sum_sub_distrib, ← Finset.mul_sum, ← Finset.mul_sum, ← Finset.mul_sum, Finset.sum_const, nsmul_eq_mul, h]
  ring

/-- A finite sum of reals read at the extended reals is the real sum. -/
theorem coe_sum (S : Finset ι) (f : ι → ℝ) :
    ∑ e ∈ S, ((f e : ℝ) : EReal) = ((∑ e ∈ S, f e : ℝ) : EReal) := by
  classical
  induction S using Finset.induction_on with
  | empty => simp
  | insert a s ha ih => rw [Finset.sum_insert ha, Finset.sum_insert ha, ih, EReal.coe_add]

/-- The larger of two reals, read at the extended reals. -/
theorem coe_max (a b : ℝ) : max (a : EReal) (b : EReal) = ((max a b : ℝ) : EReal) :=
  (EReal.coe_strictMono.monotone.map_max).symm

end RealSide

/-! ## The literals -/

theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem three_eq : three = ((3 : ℝ) : EReal) := by
  simp [three, Ideal.ofBits, Ideal.ieee, -EReal.coe_mul]; norm_num
theorem four_eq : four = ((4 : ℝ) : EReal) := by
  simp [four, Ideal.ofBits, Ideal.ieee, -EReal.coe_mul]; norm_num
theorem six_eq : six = ((6 : ℝ) : EReal) := by
  simp [six, Ideal.ofBits, Ideal.ieee, -EReal.coe_mul]; norm_num

/-! ## Reading the source word of an edge of the segment -/

/-- A word that is not negative when read signed is left alone by the negative-index rule. -/
theorem wrapW_of_nonneg (n w : BitVec 32) (h : 0 ≤ w.toInt) : wrapW n w = w := by
  unfold wrapW Scalar.select IntOp.cmpi
  have : w.slt 0#32 = false := by
    rw [BitVec.slt_eq_decide]; simp; exact h
  simp [this]

/-- A word that reads as node `i` names row `i`. -/
theorem rowOf_of_eq (w : BitVec 32) (i : Fin nN) (h : w.toInt = (i.val : ℤ)) : rowOf nN (by decide) w = i := by
  apply Fin.ext
  have hi := i.isLt
  simp only [rowOf, h, Int.toNat_natCast]
  omega

/-- The row an edge of node `i`'s segment is compared with is `i`. -/
theorem row_of_mem_seg (src : Fin nE → BitVec 32) (i : Fin nN) (e : Fin nE) (he : e ∈ seg src i) :
    rowOf nN (by decide) (wrapW 100000#32 (src e)) = i := by
  have h : (src e).toInt = (i.val : ℤ) := (Finset.mem_filter.mp he).2
  rw [wrapW_of_nonneg _ _ (by rw [h]; exact Int.natCast_nonneg _)]
  exact rowOf_of_eq _ _ h

/-! ## The segment statistics of a table of reals -/

theorem cnt_eq (src : Fin nE → BitVec 32) (i : Fin nN) : cnt src i = (((seg src i).card : ℝ) : EReal) := by
  rw [cnt, segSum, one_eq, coe_sum, Finset.sum_const, nsmul_eq_mul, mul_one]

theorem den_eq (src : Fin nE → BitVec 32) (i : Fin nN) :
    den src i = ((max ((seg src i).card : ℝ) 1 : ℝ) : EReal) := by
  rw [den, cnt_eq, one_eq, coe_max]

section Transport
variable (M : Fin nE → Fin 15 → EReal) (src : Fin nE → BitVec 32) (r : Fin nE → Fin 15 → ℝ)
  (hr : ∀ e c, M e c = ((r e c : ℝ) : EReal)) (i : Fin nN) (c : Fin 15)
include hr

theorem s1_eq : s1 M src i c = ((∑ e ∈ seg src i, r e c : ℝ) : EReal) := by
  rw [s1, segSum, ← coe_sum]
  exact Finset.sum_congr rfl (fun e _ => hr e c)

theorem s2_eq : s2 M src i c = ((∑ e ∈ seg src i, r e c * r e c : ℝ) : EReal) := by
  rw [s2, segSum, ← coe_sum]
  exact Finset.sum_congr rfl (fun e _ => by rw [hr, ← EReal.coe_mul])

theorem s3_eq : s3 M src i c = ((∑ e ∈ seg src i, (r e c * r e c) * r e c : ℝ) : EReal) := by
  rw [s3, segSum, ← coe_sum]
  exact Finset.sum_congr rfl (fun e _ => by rw [hr, ← EReal.coe_mul, ← EReal.coe_mul])

theorem s4_eq : s4 M src i c = ((∑ e ∈ seg src i, (r e c * r e c) * (r e c * r e c) : ℝ) : EReal) := by
  rw [s4, segSum, ← coe_sum]
  exact Finset.sum_congr rfl (fun e _ => by rw [hr, ← EReal.coe_mul, ← EReal.coe_mul])

/-- The mean of a node's segment is the real `(Σ x) / max n 1`. -/
theorem mean_eq : mean M src i c
    = (((∑ e ∈ seg src i, r e c) * (1 / max ((seg src i).card : ℝ) 1) : ℝ) : EReal) := by
  have hpos : max ((seg src i).card : ℝ) 1 ≠ 0 := ne_of_gt (lt_of_lt_of_le one_pos (le_max_right _ _))
  rw [mean, s1_eq M src r hr, den_eq, Ideal.div_coe hpos, ← EReal.coe_mul]

/-- An edge of node `i`'s segment deviates from node `i`'s mean. -/
theorem dev_eq (e : Fin nE) (he : e ∈ seg src i) : dev M src e c
    = ((r e c - (∑ e ∈ seg src i, r e c) * (1 / max ((seg src i).card : ℝ) 1) : ℝ) : EReal) := by
  rw [dev, row_of_mem_seg src i e he, mean_eq M src r hr, hr, ← EReal.coe_sub]

theorem d3K_eq_d3R : d3K M src i c = d3R M src i c := by
  have hR : d3R M src i c = ((∑ e ∈ seg src i,
      ((r e c - (∑ e ∈ seg src i, r e c) * (1 / max ((seg src i).card : ℝ) 1))
        * (r e c - (∑ e ∈ seg src i, r e c) * (1 / max ((seg src i).card : ℝ) 1)))
        * (r e c - (∑ e ∈ seg src i, r e c) * (1 / max ((seg src i).card : ℝ) 1)) : ℝ) : EReal) := by
    rw [d3R, segSum, ← coe_sum]
    exact Finset.sum_congr rfl (fun e he => by rw [dev_eq M src r hr i c e he, ← EReal.coe_mul, ← EReal.coe_mul])
  rw [hR, d3K, s3_eq M src r hr, s2_eq M src r hr, mean_eq M src r hr, cnt_eq, three_eq, two_eq]
  simp only [← EReal.coe_mul, ← EReal.coe_sub, ← EReal.coe_add]
  exact congrArg _ (third_central (seg src i) (fun e => r e c) _ (sum_eq_card_mul_mean (seg src i) (fun e => r e c)))

theorem d4K_eq_d4R : d4K M src i c = d4R M src i c := by
  have hR : d4R M src i c = ((∑ e ∈ seg src i,
      (((r e c - (∑ e ∈ seg src i, r e c) * (1 / max ((seg src i).card : ℝ) 1))
        * (r e c - (∑ e ∈ seg src i, r e c) * (1 / max ((seg src i).card : ℝ) 1)))
        * (r e c - (∑ e ∈ seg src i, r e c) * (1 / max ((seg src i).card : ℝ) 1)))
        * (r e c - (∑ e ∈ seg src i, r e c) * (1 / max ((seg src i).card : ℝ) 1)) : ℝ) : EReal) := by
    rw [d4R, segSum, ← coe_sum]
    exact Finset.sum_congr rfl (fun e he => by
      rw [dev_eq M src r hr i c e he, ← EReal.coe_mul, ← EReal.coe_mul, ← EReal.coe_mul])
  rw [hR, d4K, s4_eq M src r hr, s3_eq M src r hr, s2_eq M src r hr, mean_eq M src r hr, cnt_eq, four_eq, six_eq, three_eq]
  simp only [← EReal.coe_mul, ← EReal.coe_sub, ← EReal.coe_add]
  exact congrArg _ (fourth_central (seg src i) (fun e => r e c) _ (sum_eq_card_mul_mean (seg src i) (fun e => r e c)))

end Transport

theorem skewK_eq_skewR (M : Fin nE → Fin 15 → EReal) (src : Fin nE → BitVec 32)
    (hM : ∀ e c, ∃ r : ℝ, M e c = (r : EReal)) : skewK M src = skewR M src := by
  choose r hr using hM
  have h : d3K M src = d3R M src := by
    funext i c
    exact d3K_eq_d3R M src r hr i c
  rw [skewK, skewR, h]

theorem kurtK_eq_kurtR (M : Fin nE → Fin 15 → EReal) (src : Fin nE → BitVec 32)
    (hM : ∀ e c, ∃ r : ℝ, M e c = (r : EReal)) : kurtK M src = kurtR M src := by
  choose r hr using hM
  have h : d4K M src = d4R M src := by
    funext i c
    exact d4K_eq_d4R M src r hr i c
  rw [kurtK, kurtR, h]

end Cert.Bridge

end
-- ==== Proof.Finite.lean ====
/-
  A message computed from real inputs is real: sums and products of reals are real, the rectifier picks one of two reals,
  and the slope literal is a real number.
-/
import proofs.«405589_j74663711473945_2_alg».proof.Proof.Spec

noncomputable section

namespace Cert.Finite

open Cert.Spec Idealize.ShloMosaic Idealize.ShloMosaic.ValueIdx

/-- The sum of two reals is a real. -/
theorem real_add {x y : EReal} (hx : ∃ a : ℝ, x = (a : EReal)) (hy : ∃ b : ℝ, y = (b : EReal)) :
    ∃ r : ℝ, x + y = (r : EReal) := by
  obtain ⟨a, rfl⟩ := hx
  obtain ⟨b, rfl⟩ := hy
  exact ⟨a + b, (EReal.coe_add a b).symm⟩

/-- The product of two reals is a real. -/
theorem real_mul {x y : EReal} (hx : ∃ a : ℝ, x = (a : EReal)) (hy : ∃ b : ℝ, y = (b : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a) ih

/-- The slope literal is a normal number: its exponent field is neither all zeros nor all ones. -/
theorem slope_real : ∃ s : ℝ, Spec.slope = (s : EReal) := by
  unfold Spec.slope Ideal.ofBits Ideal.ieee
  have h1 : ((0x3DCCCCCD#32 : BitVec 32).extractLsb' 23 8).toNat ≠ 2 ^ 8 - 1 := by decide
  have h0 : ((0x3DCCCCCD#32 : BitVec 32).extractLsb' 23 8).toNat ≠ 0 := by decide
  simp only [h1, h0, if_false]
  exact ⟨_, rfl⟩

/-- The rectifier of a real is a real: it returns the number itself or the slope times it. -/
theorem real_leaky {x : EReal} (hx : ∃ a : ℝ, x = (a : EReal)) : ∃ r : ℝ, leaky x = (r : EReal) := by
  unfold leaky Scalar.select
  split
  · exact hx
  · exact real_mul slope_real hx

/-- An affine layer with real weights, real offsets and real inputs has real outputs. -/
theorem real_dense {n k : ℕ} (w : Mat n k) (b : Vc k) (h : Fin n → EReal)
    (hw : ∀ i, ∃ r : ℝ, w i = (r : EReal)) (hb : ∀ i, ∃ r : ℝ, b i = (r : EReal))
    (hh : ∀ j, ∃ r : ℝ, h j = (r : EReal)) (c : Fin k) : ∃ r : ℝ, dense w b h c = (r : EReal) := by
  unfold dense
  exact real_add (real_sum _ _ (fun j => real_mul (hh j) (hw _))) (hb _)

/-- Two real affine layers with the rectifier between them send real inputs to real outputs. -/
theorem real_mlp {n k l : ℕ} (w1 : Mat n k) (b1 : Vc k) (w2 : Mat k l) (b2 : Vc l) (h : Fin n → EReal)
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hh : ∀ j, ∃ r : ℝ, h j = (r : EReal)) (c : Fin l) : ∃ r : ℝ, mlp w1 b1 w2 b2 h c = (r : EReal) := by
  unfold mlp
  exact real_dense w2 b2 _ hw2 hb2 (fun j => real_leaky (real_dense w1 b1 h hw1 hb1 hh j)) c

/-- Two real rows laid side by side make a real row. -/
theorem real_cat5_10 (a : Fin 5 → EReal) (b : Fin 10 → EReal)
    (ha : ∀ j, ∃ r : ℝ, a j = (r : EReal)) (hb : ∀ j, ∃ r : ℝ, b j = (r : EReal)) (j : Fin 15) :
    ∃ r : ℝ, cat5_10 a b j = (r : EReal) := by
  unfold cat5_10
  split
  · exact ha _
  · exact hb _

theorem msg_real (xt : Mat nN 5) (ea : Mat nE 10) (tgt : Fin nE → BitVec 32) (w1a : Mat 15 15) (b1a : Vc 15) (w2a : Mat 15 15) (b2a : Vc 15)
    (hxt : ∀ i, ∃ r : ℝ, xt i = (r : EReal)) (hea : ∀ i, ∃ r : ℝ, ea i = (r : EReal))
    (hw1a : ∀ i, ∃ r : ℝ, w1a i = (r : EReal)) (hb1a : ∀ i, ∃ r : ℝ, b1a i = (r : EReal))
    (hw2a : ∀ i, ∃ r : ℝ, w2a i = (r : EReal)) (hb2a : ∀ i, ∃ r : ℝ, b2a i = (r : EReal)) :
    ∀ e c, ∃ r : ℝ, msg xt ea tgt w1a b1a w2a b2a e c = (r : EReal) := by
  intro e c
  unfold msg
  refine real_mlp w1a b1a w2a b2a _ hw1a hb1a hw2a hb2a (fun j => ?_) c
  unfold edgeFeat
  exact real_cat5_10 _ _ (fun j => hxt _) (fun j => hea _) j

end Cert.Finite

end
-- ==== Proof.PreRead.lean ====
/-
  What the precondition says of the arrays: every entry of the float arrays the messages are made of is a real number,
  every target word is a row of `x_t` (`0 ≤ tgt < 100000`) and every batch word a row of `u` (`0 ≤ batch < 64`).

  The precondition is a conjunction of "for all entries" statements, each a reduction by `and` of a pointwise test.
  A reduction by `and` over all axes that comes out 1 had a 1 at every entry, so each test holds entrywise:
  `|x| < +∞` leaves only the reals among the extended reals, and the two signed comparisons against the constants
  bound the word read as a signed integer. Row 1 of the 2 × 4000000 index matrix, flattened, is read at position `e`
  as the matrix entry `(1, e)`.
-/
import proofs.«405589_j74663711473945_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx Cert.Pre_finite_inputs

/-- The rank-0 shape has exactly one index. -/
instance : Subsingleton S_.Idx := ⟨fun a b => funext fun d => d.elim0⟩

/-- An extended real whose absolute value `max x (-x)` lies strictly below `+∞` (the pattern `0x7F800000`) is a real:
    for `x = ⊥` and for `x = ⊤` the absolute value is `⊤`, which is not below itself. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- "All entries have `|x| < +∞`", as a reduction by `and` that is 1: every entry is a real. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
          (constantI S_ 1 1#1) hr h0 ix0 = 1#1) (i : s.Idx) : ∃ r : ℝ, x i = (r : EReal) :=
  real_of_abs_lt (x i) (Host.reduce_andi_all _ _ hr h0 ix0 e i)

/-- Row 1 of the 2 × 4000000 index matrix, flattened to a vector, read at position `e`, is the matrix entry `(1, e)`:
    position `e` of the vector is position `(0, e)` of the 1 × 4000000 slice (same row-major rank `0 · 4000000 + e`),
    and the slice starts at row 1, column 0. -/
theorem row1_apply (a4 : IVec S2x4000000 32) (hs : S2x4000000.Slices ![1, 0] S1x4000000) (hc : S1x4000000.ShapeCasts S4000000)
    (e : Fin 4000000) :
    shapeCast S4000000 (extractStridedSlice S1x4000000 ![1, 0] a4 hs) hc (ix1 e) = a4 (ix2 (1 : Fin 2) e) := by
  unfold shapeCast
  have hk : Shape.reshapeEquiv hc (ix1 e) = ix2 (0 : Fin 1) e :=
    Shape.reshapeEquiv_eq_of_rowMajor hc (by
      rw [Shape.rowMajor_val_two, Shape.rowMajor_val_one]; simp)
  rw [hk]
  unfold extractStridedSlice
  refine congrArg a4 (funext fun a => Fin.ext ?_)
  fin_cases a <;> simp

/-- "All words are `≥ c` signed", as a reduction by `and` that is 1: every word, read signed, is at least `c`. -/
theorem sge_all {s : Shape} {axes : List (Fin s.rank)} (x : IVec s 32) (c : BitVec 32)
    (hb : S_.BroadcastsInDim s (![] : Fin 0 → Fin s.rank)) (hr : s.ReducesTo axes S_) (h0 : 0 < S_.numel)
    (e : Host.reduce IntOp.andi (cmpi .sge x (broadcastInDim s ![] hb (constantI S_ 32 c)))
          (constantI S_ 1 1#1) hr h0 ix0 = 1#1) (i : s.Idx) : c.toInt ≤ (x i).toInt :=
  IntOp.cmpi_sge.1 (Host.reduce_andi_all _ _ hr h0 ix0 e i)

/-- "All words are `< c` signed", as a reduction by `and` that is 1: every word, read signed, is below `c`. -/
theorem slt_all {s : Shape} {axes : List (Fin s.rank)} (x : IVec s 32) (c : BitVec 32)
    (hb : S_.BroadcastsInDim s (![] : Fin 0 → Fin s.rank)) (hr : s.ReducesTo axes S_) (h0 : 0 < S_.numel)
    (e : Host.reduce IntOp.andi (cmpi .slt x (broadcastInDim s ![] hb (constantI S_ 32 c)))
          (constantI S_ 1 1#1) hr h0 ix0 = 1#1) (i : s.Idx) : (x i).toInt < c.toInt :=
  IntOp.cmpi_slt.1 (Host.reduce_andi_all _ _ hr h0 ix0 e i)

/-- The precondition read back. Its value at the one index is a left-nested `and` of sixteen "for all" tests, in the
    order: the twelve float arrays, then `tgt ≥ 0`, `tgt < 100000`, `batch ≥ 0`, `batch < 64`; an `and` of bits is 1 exactly
    when both are, so each test is 1, and the six float facts and four integer bounds needed are read off entrywise. -/
theorem of_pre [Cert.Pre_finite_inputs.Facts] (a0 : FVec Ideal S100000x10 .f32) (a1 : FVec Ideal S100000x5 .f32)
    (a2 : FVec Ideal S4000000x10 .f32) (a3 : FVec Ideal S64x10 .f32) (a4 : IVec S2x4000000 32) (a5 : IVec S100000 32)
    (a6 : FVec Ideal S15x15 .f32) (a7 : FVec Ideal S15 .f32) (a8 : FVec Ideal S15x15 .f32) (a9 : FVec Ideal S15 .f32)
    (a10 : FVec Ideal S81x10 .f32) (a11 : FVec Ideal S10 .f32) (a12 : FVec Ideal S10x10 .f32) (a13 : FVec Ideal S10 .f32)
    (h : Cert.Pre_finite_inputs.fn (F := Ideal) a0 a1 a2 a3 a4 a5 a6 a7 a8 a9 a10 a11 a12 a13 = (fun _ => 1#1)) :
    (∀ i, ∃ r : ℝ, a1 i = (r : EReal)) ∧ (∀ i, ∃ r : ℝ, a2 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ e : Fin 4000000, 0 ≤ (a4 (ix2 (1 : Fin 2) e)).toInt ∧ (a4 (ix2 (1 : Fin 2) e)).toInt < 100000)
    ∧ (∀ i : Fin 100000, 0 ≤ (a5 (ix1 i)).toInt ∧ (a5 (ix1 i)).toInt < 64) := by
  have e := congrFun h ix0
  dsimp only [fn, fn_part1, fn_part2, fn_part3, fn_part4] at e
  simp only [andi, IntOp.andi_eq_one] at e
  obtain ⟨⟨⟨⟨⟨⟨⟨⟨⟨⟨⟨⟨⟨⟨⟨-, h1⟩, h2⟩, -⟩, h6⟩, h7⟩, h8⟩, h9⟩, -⟩, -⟩, -⟩, -⟩, h4g⟩, h4l⟩, h5g⟩, h5l⟩ := e
  have z0 : (0#32 : BitVec 32).toInt = 0 := by decide
  have zN : (100000#32 : BitVec 32).toInt = 100000 := by decide
  have zB : (64#32 : BitVec 32).toInt = 64 := by decide
  refine ⟨all_real a1 _ _ _ h1, all_real a2 _ _ _ h2, all_real a6 _ _ _ h6, all_real a7 _ _ _ h7, all_real a8 _ _ _ h8,
    all_real a9 _ _ _ h9, fun e => ?_, fun i => ?_⟩
  · have g := sge_all _ _ _ _ _ h4g (ix1 e)
    have l := slt_all _ _ _ _ _ h4l (ix1 e)
    rw [row1_apply] at g l
    rw [z0] at g
    rw [zN] at l
    exact ⟨g, l⟩
  · have g := sge_all _ _ _ _ _ h5g (ix1 i)
    have l := slt_all _ _ _ _ _ h5l (ix1 i)
    rw [z0] at g
    rw [zB] at l
    exact ⟨g, l⟩

end Cert.PreRead

end
-- ==== Proof.lean ====
/-
  The kernel's program and its jnp reference compute the same node update of a message-passing layer, at the extended
  reals, whenever the float inputs are finite and every target word is a row of `x_t` and every batch word a row of `u`.

  Both gather each edge's target row of `x_t`, lay it beside the edge's attributes and pass the 15 numbers through a
  two-layer perceptron with a leaky rectifier (the message); both scatter-add over the edges' source words to get, per
  node, the count, the mean and the standard deviation of the messages; both finish with a second perceptron over the
  node's 81 features. They differ in the third and fourth standardized moments: the reference gathers each edge's node
  mean back, forms the deviation `d = m - mean` and sums `d³` and `d⁴` over the segment; the kernel's first call emits
  `m, m², m³, m⁴, 1` per edge, ONE scatter-add sums them, and the central power sums come from the raw ones,
    `Σ d³ = S₃ - 3 μ S₂ + 2 n μ³`,   `Σ d⁴ = S₄ - 4 μ S₃ + 6 μ² S₂ - 3 n μ⁴`,
  which holds because within a segment the mean is one number and `S₁ = n μ` when `n ≥ 1` (every sum is `0` when `n = 0`).
  The identities are identities of real numbers: the messages are real because the inputs are finite. An edge whose
  source word is no node is dropped by every scatter on both sides, so its deviation never matters; a change of float
  format is the identity at this instance, and a matrix product by the matrix unit and one on the host are the same sum.

  The frames of the two kernel programs are the generated ones; the reference's frame is its run with the result dropped.
  The value of the kernel's program is read off the generated frame's fold through @main (KRun, KArr0, KArr1, KHostA,
  KHostB, KStats, KValue), the reference's off its run (RRun, RMsg, RStats, ROut, RValue); Bridge is the moment
  identity, Finite the realness of the messages, PreRead what the precondition says.
-/
import proofs.«405589_j74663711473945_2_alg».proof.Defs
import proofs.«405589_j74663711473945_2_alg».proof.Proof.Gen.Kernel
import proofs.«405589_j74663711473945_2_alg».proof.Proof.Gen.Kernel.Skeleton
import proofs.«405589_j74663711473945_2_alg».proof.Proof.Gen.Kernel.Launch
import proofs.«405589_j74663711473945_2_alg».proof.Proof.Gen.Kernel.Points
import proofs.«405589_j74663711473945_2_alg».proof.Proof.Gen.Kernel.Frame
import proofs.«405589_j74663711473945_2_alg».proof.Proof.Gen.KernelIdeal
import proofs.«405589_j74663711473945_2_alg».proof.Proof.Gen.KernelIdeal.Skeleton
import proofs.«405589_j74663711473945_2_alg».proof.Proof.Gen.KernelIdeal.Launch
import proofs.«405589_j74663711473945_2_alg».proof.Proof.Gen.KernelIdeal.Points
import proofs.«405589_j74663711473945_2_alg».proof.Proof.Gen.KernelIdeal.Frame
import proofs.«405589_j74663711473945_2_alg».proof.Proof.Gen.ReferenceIdeal
import proofs.«405589_j74663711473945_2_alg».proof.Proof.Gen.Pre_finite_inputs
import proofs.«405589_j74663711473945_2_alg».proof.Proof.KValue
import proofs.«405589_j74663711473945_2_alg».proof.Proof.RValue
import proofs.«405589_j74663711473945_2_alg».proof.Proof.RRun
import proofs.«405589_j74663711473945_2_alg».proof.Proof.Bridge
import proofs.«405589_j74663711473945_2_alg».proof.Proof.Finite
import proofs.«405589_j74663711473945_2_alg».proof.Proof.PreRead
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.TcCoe

/-- The word-level kernel program runs and leaves its arguments as launched. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run m ρ)

set_option maxHeartbeats 2000000 in
/-- From memories agreeing on the arguments both programs end with the same result table: at node `i`, column `k` both
    are the second perceptron of the node's features, which differ only in how skew and kurtosis were summed, and those
    agree because the messages are real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W9 m ρ c (Proc.devRef .tc Cert.KernelIdeal.main_v68), Cert.KernelIdeal.Gen.run_value m ρ, ?_⟩
  refine (θ_run Cert.ReferenceIdeal.defs _ _).mono (fun _ h c => ⟨(h c).1.trans ?_, (h c).2⟩) (Cert.ReferenceIdeal.RefRun.run m' ρ')
  obtain ⟨h0, h1, h2, h3, h4, h5, h6, h7, h8, h9, h10, h11, h12, h13⟩ := hagree c
  rw [h0, h1, h2, h3, h4, h5, h6, h7, h8, h9, h10, h11, h12, h13]
  obtain ⟨f1, f2, f6, f7, f8, f9, htgt, hb⟩ := Cert.PreRead.of_pre _ _ _ _ _ _ _ _ _ _ _ _ _ _ (hpre c)
  funext idx
  obtain ⟨i, k, rfl⟩ : ∃ (i : Fin 100000) (k : Fin 10), idx = ix2 i k := ⟨idx 0, idx 1, eq_ix2 idx⟩
  have hM : ∀ e c', ∃ r : ℝ, Cert.KernelIdeal.Args.M m c e c' = (r : EReal) :=
    Cert.Finite.msg_real (Cert.KernelIdeal.Args.xt m c) (Cert.KernelIdeal.Args.ea m c) (Cert.KernelIdeal.Args.tgt m c)
      (Cert.KernelIdeal.Args.w1a m c) (Cert.KernelIdeal.Args.b1a m c) (Cert.KernelIdeal.Args.w2a m c) (Cert.KernelIdeal.Args.b2a m c)
      f1 f2 f6 f7 f8 f9
  refine (Cert.ReferenceIdeal.RVal.res_apply _ _ _ _ _ _ _ _ _ _ _ _ _ _ i k).trans ?_
  refine Eq.trans ?_ (Cert.KernelIdeal.Val.value m ρ c htgt hb i k).symm
  rw [Cert.Bridge.skewK_eq_skewR (Cert.KernelIdeal.Args.M m c) (Cert.KernelIdeal.Args.src m c) hM,
    Cert.Bridge.kurtK_eq_kurtR (Cert.KernelIdeal.Args.M m c) (Cert.KernelIdeal.Args.src m c) hM]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
